-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x2048 : Shape := ⟨3, ![4, 512, 2048]⟩
abbrev S64000x2048 : Shape := ⟨2, ![64000, 2048]⟩
abbrev S4x512 : Shape := ⟨2, ![4, 512]⟩
abbrev S4 : Shape := ⟨1, ![4]⟩
abbrev S_ : Shape := ⟨0, ![]⟩

class Facts : Prop where
  bcast_S_S4x512x2048 : S_.BroadcastsInDim S4x512x2048 (![] : Fin 0 → Fin S4x512x2048.rank)
  reducesTo_S4x512x2048_S_d0_1_2 : S4x512x2048.ReducesTo [0, 1, 2] S_
  h_S_ : 0 < S_.numel
  bcast_S_S64000x2048 : S_.BroadcastsInDim S64000x2048 (![] : Fin 0 → Fin S64000x2048.rank)
  reducesTo_S64000x2048_S_d0_1 : S64000x2048.ReducesTo [0, 1] S_
  bcast_S_S4x512 : S_.BroadcastsInDim S4x512 (![] : Fin 0 → Fin S4x512.rank)
  reducesTo_S4x512_S_d0_1 : S4x512.ReducesTo [0, 1] S_
  bcast_S_S4 : S_.BroadcastsInDim S4 (![] : Fin 0 → Fin S4.rank)
  reducesTo_S4_S_d0 : S4.ReducesTo [0] S_

variable [Facts]

def fn_part2 {F : FTy → Type} [FloatOps F] (main_arg6 : IVec S4x512 32) (main_v32 : IVec S_ 1) (main_c_12 : IVec S_ 32) : IVec S_ 1 :=
  let main_v33 : IVec S4x512 32 := broadcastInDim S4x512 ![] bcast_S_S4x512 main_c_12
  let main_v34 : IVec S4x512 1 := cmpi .slt main_arg6 main_v33
  let main_c_13 : IVec S_ 1 := constantI S_ 1 1#1
  let main_v35 : IVec S_ 1 := (fun x v => Host.reduce IntOp.andi x v reducesTo_S4x512_S_d0_1 h_S_) main_v34 main_c_13
  let main_v36 : IVec S_ 1 := andi main_v32 main_v35
  main_v36

def fn_part1 {F : FTy → Type} [FloatOps F] (main_arg4 : FVec F S4x512 .f32) (main_arg5 : FVec F S4x512 .f32) (main_arg6 : IVec S4x512 32) (main_v13 : IVec S_ 1) (main_v16 : IVec S4 1) : IVec S_ 1 :=
  let main_c_5 : IVec S_ 1 := constantI S_ 1 1#1
  let main_v17 : IVec S_ 1 := (fun x v => Host.reduce IntOp.andi x v reducesTo_S4_S_d0 h_S_) main_v16 main_c_5
  let main_v18 : IVec S_ 1 := andi main_v13 main_v17
  let main_v19 : FVec F S4x512 .f32 := Host.absf main_arg4
  let main_cst_6 : FVec F S_ .f32 := constant S_ .f32 0x7F800000#32
  let main_v20 : FVec F S4x512 .f32 := broadcastInDim S4x512 ![] bcast_S_S4x512 main_cst_6
  let main_v21 : IVec S4x512 1 := cmpf .olt main_v19 main_v20
  let main_c_7 : IVec S_ 1 := constantI S_ 1 1#1
  let main_v22 : IVec S_ 1 := (fun x v => Host.reduce IntOp.andi x v reducesTo_S4x512_S_d0_1 h_S_) main_v21 main_c_7
  let main_v23 : IVec S_ 1 := andi main_v18 main_v22
  let main_v24 : FVec F S4x512 .f32 := Host.absf main_arg5
  let main_cst_8 : FVec F S_ .f32 := constant S_ .f32 0x7F800000#32
  let main_v25 : FVec F S4x512 .f32 := broadcastInDim S4x512 ![] bcast_S_S4x512 main_cst_8
  let main_v26 : IVec S4x512 1 := cmpf .olt main_v24 main_v25
  let main_c_9 : IVec S_ 1 := constantI S_ 1 1#1
  let main_v27 : IVec S_ 1 := (fun x v => Host.reduce IntOp.andi x v reducesTo_S4x512_S_d0_1 h_S_) main_v26 main_c_9
  let main_v28 : IVec S_ 1 := andi main_v23 main_v27
  let main_c_10 : IVec S_ 32 := constantI S_ 32 0#32
  let main_v29 : IVec S4x512 32 := broadcastInDim S4x512 ![] bcast_S_S4x512 main_c_10
  let main_v30 : IVec S4x512 1 := cmpi .sge main_arg6 main_v29
  let main_c_11 : IVec S_ 1 := constantI S_ 1 1#1
  let main_v31 : IVec S_ 1 := (fun x v => Host.reduce IntOp.andi x v reducesTo_S4x512_S_d0_1 h_S_) main_v30 main_c_11
  let main_v32 : IVec S_ 1 := andi main_v28 main_v31
  let main_c_12 : IVec S_ 32 := constantI S_ 32 64000#32
  fn_part2 (F := F) main_arg6 main_v32 main_c_12

def fn {F : FTy → Type} [FloatOps F] (main_arg0 : FVec F S4x512x2048 .f32) (main_arg1 : FVec F S64000x2048 .f32) (main_arg2 : FVec F S4x512 .f32) (main_arg3 : FVec F S4 .f32) (main_arg4 : FVec F S4x512 .f32) (main_arg5 : FVec F S4x512 .f32) (main_arg6 : IVec S4x512 32) : IVec S_ 1 :=
  let main_v0 : FVec F S4x512x2048 .f32 := Host.absf main_arg0
  let main_cst : FVec F S_ .f32 := constant S_ .f32 0x7F800000#32
  let main_v1 : FVec F S4x512x2048 .f32 := broadcastInDim S4x512x2048 ![] bcast_S_S4x512x2048 main_cst
  let main_v2 : IVec S4x512x2048 1 := cmpf .olt main_v0 main_v1
  let main_c : IVec S_ 1 := constantI S_ 1 1#1
  let main_v3 : IVec S_ 1 := (fun x v => Host.reduce IntOp.andi x v reducesTo_S4x512x2048_S_d0_1_2 h_S_) main_v2 main_c
  let main_v4 : FVec F S64000x2048 .f32 := Host.absf main_arg1
  let main_cst_0 : FVec F S_ .f32 := constant S_ .f32 0x7F800000#32
  let main_v5 : FVec F S64000x2048 .f32 := broadcastInDim S64000x2048 ![] bcast_S_S64000x2048 main_cst_0
  let main_v6 : IVec S64000x2048 1 := cmpf .olt main_v4 main_v5
  let main_c_1 : IVec S_ 1 := constantI S_ 1 1#1
  let main_v7 : IVec S_ 1 := (fun x v => Host.reduce IntOp.andi x v reducesTo_S64000x2048_S_d0_1 h_S_) main_v6 main_c_1
  let main_v8 : IVec S_ 1 := andi main_v3 main_v7
  let main_v9 : FVec F S4x512 .f32 := Host.absf main_arg2
  let main_cst_2 : FVec F S_ .f32 := constant S_ .f32 0x7F800000#32
  let main_v10 : FVec F S4x512 .f32 := broadcastInDim S4x512 ![] bcast_S_S4x512 main_cst_2
  let main_v11 : IVec S4x512 1 := cmpf .olt main_v9 main_v10
  let main_c_3 : IVec S_ 1 := constantI S_ 1 1#1
  let main_v12 : IVec S_ 1 := (fun x v => Host.reduce IntOp.andi x v reducesTo_S4x512_S_d0_1 h_S_) main_v11 main_c_3
  let main_v13 : IVec S_ 1 := andi main_v8 main_v12
  let main_v14 : FVec F S4 .f32 := Host.absf main_arg3
  let main_cst_4 : FVec F S_ .f32 := constant S_ .f32 0x7F800000#32
  let main_v15 : FVec F S4 .f32 := broadcastInDim S4 ![] bcast_S_S4 main_cst_4
  let main_v16 : IVec S4 1 := cmpf .olt main_v14 main_v15
  fn_part1 (F := F) main_arg4 main_arg5 main_arg6 main_v13 main_v16
-- ==== Kernel.lean ====
abbrev S4x512x2048 : Shape := ⟨3, ![4, 512, 2048]⟩
abbrev S64000x2048 : Shape := ⟨2, ![64000, 2048]⟩
abbrev S4x512 : Shape := ⟨2, ![4, 512]⟩
abbrev S4 : Shape := ⟨1, ![4]⟩
abbrev S2048x2048 : Shape := ⟨2, ![2048, 2048]⟩
abbrev S_ : Shape := ⟨0, ![]⟩
abbrev S2048x1 : Shape := ⟨2, ![2048, 1]⟩
abbrev S4x1 : Shape := ⟨2, ![4, 1]⟩
abbrev S1024x2048 : Shape := ⟨2, ![1024, 2048]⟩
abbrev S3200x2048 : Shape := ⟨2, ![3200, 2048]⟩
abbrev S1024x1 : Shape := ⟨2, ![1024, 1]⟩
abbrev S1024x3200 : Shape := ⟨2, ![1024, 3200]⟩
abbrev S1024 : Shape := ⟨1, ![1024]⟩

abbrev nBuf : Space → Nat
  | .hbm => 40
  | .vmem => 19
  | .smem => 0
  | _ => 0

abbrev bufTy : (tb : Table) → Fin (tcTables nBuf tb) → BufTy
  | .hbm, ⟨0, _⟩ => ⟨S4x512x2048, .f32⟩
  | .hbm, ⟨1, _⟩ => ⟨S64000x2048, .f32⟩
  | .hbm, ⟨2, _⟩ => ⟨S4x512, .f32⟩
  | .hbm, ⟨3, _⟩ => ⟨S4, .f32⟩
  | .hbm, ⟨4, _⟩ => ⟨S4x512, .f32⟩
  | .hbm, ⟨5, _⟩ => ⟨S4x512, .f32⟩
  | .hbm, ⟨6, _⟩ => ⟨S4x512, .i32⟩
  | .hbm, ⟨7, _⟩ => ⟨S2048x2048, .f32⟩
  | .hbm, ⟨8, _⟩ => ⟨S2048x2048, .bf16⟩
  | .hbm, ⟨9, _⟩ => ⟨S64000x2048, .bf16⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S4x512, .i32⟩
  | .hbm, ⟨14, _⟩ => ⟨S4x512, .i32⟩
  | .hbm, ⟨15, _⟩ => ⟨S_, .i32⟩
  | .hbm, ⟨16, _⟩ => ⟨S4x512, .i32⟩
  | .hbm, ⟨17, _⟩ => ⟨S4x512, .i32⟩
  | .hbm, ⟨18, _⟩ => ⟨S2048x1, .i32⟩
  | .hbm, ⟨19, _⟩ => ⟨S2048x1, .f32⟩
  | .hbm, ⟨20, _⟩ => ⟨S2048x1, .f32⟩
  | .hbm, ⟨21, _⟩ => ⟨S4x1, .f32⟩
  | .hbm, ⟨22, _⟩ => ⟨S4x512, .f32⟩
  | .hbm, ⟨23, _⟩ => ⟨S2048x1, .f32⟩
  | .hbm, ⟨24, _⟩ => ⟨S2048x1, .f32⟩
  | .hbm, ⟨25, _⟩ => ⟨S2048x1, .f32⟩
  | .hbm, ⟨26, _⟩ => ⟨S4x512, .f32⟩
  | .hbm, ⟨27, _⟩ => ⟨S_, .f32⟩
  | .hbm, ⟨28, _⟩ => ⟨S4, .f32⟩
  | .hbm, ⟨29, _⟩ => ⟨S_, .f32⟩
  | .hbm, ⟨30, _⟩ => ⟨S4, .f32⟩
  | .hbm, ⟨31, _⟩ => ⟨S_, .f32⟩
  | .hbm, ⟨32, _⟩ => ⟨S_, .f32⟩
  | .hbm, ⟨33, _⟩ => ⟨S4, .f32⟩
  | .hbm, ⟨34, _⟩ => ⟨S4, .f32⟩
  | .hbm, ⟨35, _⟩ => ⟨S4, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .local _ .vmem, ⟨0, _⟩ => ⟨S1024x2048, .bf16⟩
  | .local _ .vmem, ⟨1, _⟩ => ⟨S1024x2048, .bf16⟩
  | .local _ .vmem, ⟨2, _⟩ => ⟨S3200x2048, .bf16⟩
  | .local _ .vmem, ⟨3, _⟩ => ⟨S3200x2048, .bf16⟩
  | .local _ .vmem, ⟨4, _⟩ => ⟨S1024x1, .i32⟩
  | .local _ .vmem, ⟨5, _⟩ => ⟨S1024x1, .i32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | .local _ .vmem, ⟨16, _⟩ => ⟨S1024x1, .f32⟩
  | .local _ .vmem, ⟨17, _⟩ => ⟨S1024x1, .f32⟩
  | .local _ .vmem, ⟨18, _⟩ => ⟨S1024x1, .f32⟩
  | _, _ => ⟨S4x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_c_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_call1_v0 : Ref sig .tc := ⟨.hbm, 32, rfl⟩
abbrev main_call1_v1 : Ref sig .tc := ⟨.hbm, 33, rfl⟩
abbrev main_v15 : Ref sig .tc := ⟨.hbm, 34, rfl⟩
abbrev main_v16 : Ref sig .tc := ⟨.hbm, 35, rfl⟩
abbrev main_cst_3 : Ref sig .tc := ⟨.hbm, 36, rfl⟩
abbrev main_v17 : Ref sig .tc := ⟨.hbm, 37, rfl⟩
abbrev main_cst_4 : Ref sig .tc := ⟨.hbm, 38, rfl⟩
abbrev main_v18 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 20], ![false, false]⟩

def k0_cond2 (i : grid0.Coords) : BitVec 1 :=
  let arg1 : BitVec 32 := BitVec.ofNat 32 (i 1).val
  let c19_i32 : BitVec 32 := 19#32
  let v45 : BitVec 1 := Scalar.cmpi .eq arg1 c19_i32
  let v46 : BitVec 32 := Scalar.extui v45
  let c0_i32_22 : BitVec 32 := 0#32
  let v47 : BitVec 1 := Scalar.cmpi .ne v46 c0_i32_22
  v47

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3200x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  shapeCasts_S4x512x2048_S2048x2048 : S4x512x2048.ShapeCasts S2048x2048
  bitsLt_bf16_f32 : FTy.bits .bf16 < FTy.bits .f32
  bcast_S_S4x512 : S_.BroadcastsInDim S4x512 (![] : Fin 0 → Fin S4x512.rank)
  shapeCasts_S4x512_S2048x1 : S4x512.ShapeCasts S2048x1
  bcast_S4_S4x1_0 : S4.BroadcastsInDim S4x1 (![0] : Fin 1 → Fin S4x1.rank)
  bcast_S4x1_S4x512_0_1 : S4x1.BroadcastsInDim S4x512 (![0, 1] : Fin 2 → Fin S4x512.rank)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S3200x2048_S3200x2048_0_0 : ∀ a, (![0, 0] : Fin 2 → Nat) a + S3200x2048.size a ≤ S3200x2048.size a
  h_S3200x2048 : 0 < S3200x2048.numel
  shapeCasts_S3200x2048_S3200x2048 : S3200x2048.ShapeCasts S3200x2048
  iota_S1024x3200_d1_w32 : S1024x3200.Iotas .tc 32 [1]
  broadcasts_S1024x1_S1024x3200 : S1024x1.Broadcasts S1024x3200
  reduces_S1024x3200_S1024 : S1024x3200.Reduces [1] S1024
  shapeCasts_S1024_S1024x1 : S1024.ShapeCasts S1024x1
  shapeCasts_S2048x1_S4x512 : S2048x1.ShapeCasts S4x512
  reducesTo_S4x512_S4_d1 : S4x512.ReducesTo [1] S4
  h_S_ : 0 < S_.numel
  bcast_S_S4 : S_.BroadcastsInDim S4 (![] : Fin 0 → Fin S4.rank)
  reducesTo_S4_S_d0 : S4.ReducesTo [0] S_
  dot_S1024x2048_S3200x2048_S1024x3200_1_1_0_0_n_n_wf : DotDims.WF S1024x2048 S3200x2048 S1024x3200 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S2048x2048.size a
  hwx0_0 : ∀ i : grid0.Coords, EltTy.bits .bf16 = 32 ∨ (Rect.block (s := S2048x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x2048.size a ≤ S64000x2048.size a
  hwx0_1 : ∀ i : grid0.Coords, EltTy.bits .bf16 = 32 ∨ (Rect.block (s := S64000x2048) S3200x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S2048x1.size a
  hwx0_2 : ∀ i : grid0.Coords, EltTy.bits .i32 = 32 ∨ (Rect.block (s := S2048x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S2048x1.size a
  hwx0_3 : ∀ i : grid0.Coords, EltTy.bits .f32 = 32 ∨ (Rect.block (s := S2048x1) S1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S2048x1.size a
  hwx0_4 : ∀ i : grid0.Coords, EltTy.bits .f32 = 32 ∨ (Rect.block (s := S2048x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S2048x1.size a
  hwx0_5 : ∀ i : grid0.Coords, EltTy.bits .f32 = 32 ∨ (Rect.block (s := S2048x1) S1024x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S2048x1.size a
  hwx0_6 : ∀ i : grid0.Coords, EltTy.bits .f32 = 32 ∨ (Rect.block (s := S2048x1) S1024x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1.size a ≤ S2048x1.size a
  hwx0_7 : ∀ i : grid0.Coords, EltTy.bits .f32 = 32 ∨ (Rect.block (s := S2048x1) S1024x1.size (cc0_transform_7 i) (hinb0_7 i)).WholeWords (EltTy.packing .f32)

variable [Facts₀]

def dot_S1024x2048_S3200x2048_S1024x3200_1_1_0_0_n_n : DotDims S1024x2048 S3200x2048 S1024x3200 where
  lhsContracting := [1]
  rhsContracting := [1]
  lhsNonContracting := [0]
  rhsNonContracting := [0]
  lhsBatch := []
  rhsBatch := []
  wf := dot_S1024x2048_S3200x2048_S1024x3200_1_1_0_0_n_n_wf

abbrev win0_0 : Pipeline.Window sig grid0 :=
  Pipeline.Window.ofSpec (Memref.whole main_v1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S3200x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1024x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1024x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v11) S1024x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S4x512x2048 : Shape := ⟨3, ![4, 512, 2048]⟩
abbrev S64000x2048 : Shape := ⟨2, ![64000, 2048]⟩
abbrev S4x512 : Shape := ⟨2, ![4, 512]⟩
abbrev S4 : Shape := ⟨1, ![4]⟩
abbrev S4x512x64000 : Shape := ⟨3, ![4, 512, 64000]⟩
abbrev S_ : Shape := ⟨0, ![]⟩
abbrev S4x512x1 : Shape := ⟨3, ![4, 512, 1]⟩
abbrev S4x512x1x1 : Shape := ⟨4, ![4, 512, 1, 1]⟩
abbrev S1 : Shape := ⟨1, ![1]⟩
abbrev S1x1x1x1 : Shape := ⟨4, ![1, 1, 1, 1]⟩
abbrev S4x1 : Shape := ⟨2, ![4, 1]⟩

abbrev nBuf : Space → Nat
  | .hbm => 88
  | .vmem => 0
  | .smem => 0
  | _ => 0

abbrev bufTy : (tb : Table) → Fin (tcTables nBuf tb) → BufTy
  | .hbm, ⟨0, _⟩ => ⟨S4x512x2048, .f32⟩
  | .hbm, ⟨1, _⟩ => ⟨S64000x2048, .f32⟩
  | .hbm, ⟨2, _⟩ => ⟨S4x512, .f32⟩
  | .hbm, ⟨3, _⟩ => ⟨S4, .f32⟩
  | .hbm, ⟨4, _⟩ => ⟨S4x512, .f32⟩
  | .hbm, ⟨5, _⟩ => ⟨S4x512, .f32⟩
  | .hbm, ⟨6, _⟩ => ⟨S4x512, .i32⟩
  | .hbm, ⟨7, _⟩ => ⟨S4x512x64000, .f32⟩
  | .hbm, ⟨8, _⟩ => ⟨S_, .f32⟩
  | .hbm, ⟨9, _⟩ => ⟨S4x512, .f32⟩
  | .hbm, ⟨10, _⟩ => ⟨S_, .f32⟩
  | .hbm, ⟨11, _⟩ => ⟨S4x512, .f32⟩
  | .hbm, ⟨12, _⟩ => ⟨S4x512, .f32⟩
  | .hbm, ⟨13, _⟩ => ⟨S4x512x1, .f32⟩
  | .hbm, ⟨14, _⟩ => ⟨S4x512x64000, .f32⟩
  | .hbm, ⟨15, _⟩ => ⟨S4x512x64000, .f32⟩
  | .hbm, ⟨16, _⟩ => ⟨S4x512x64000, .f32⟩
  | .hbm, ⟨17, _⟩ => ⟨S_, .f32⟩
  | .hbm, ⟨18, _⟩ => ⟨S4x512, .f32⟩
  | .hbm, ⟨19, _⟩ => ⟨S4x512x1, .f32⟩
  | .hbm, ⟨20, _⟩ => ⟨S4x512x1, .f32⟩
  | .hbm, ⟨21, _⟩ => ⟨S4x512x64000, .f32⟩
  | .hbm, ⟨22, _⟩ => ⟨S4x512x64000, .f32⟩
  | .hbm, ⟨23, _⟩ => ⟨S4x512x1, .i32⟩
  | .hbm, ⟨24, _⟩ => ⟨S_, .i32⟩
  | .hbm, ⟨25, _⟩ => ⟨S4x512x1, .i32⟩
  | .hbm, ⟨26, _⟩ => ⟨S4x512x1, .i1⟩
  | .hbm, ⟨27, _⟩ => ⟨S_, .i32⟩
  | .hbm, ⟨28, _⟩ => ⟨S4x512x1, .i32⟩
  | .hbm, ⟨29, _⟩ => ⟨S4x512x1, .i32⟩
  | .hbm, ⟨30, _⟩ => ⟨S4x512x1, .i32⟩
  | .hbm, ⟨31, _⟩ => ⟨S4x512x1x1, .i32⟩
  | .hbm, ⟨32, _⟩ => ⟨S1, .i32⟩
  | .hbm, ⟨33, _⟩ => ⟨S_, .i32⟩
  | .hbm, ⟨34, _⟩ => ⟨S4x512x1x1, .i32⟩
  | .hbm, ⟨35, _⟩ => ⟨S4x512x1x1, .i1⟩
  | .hbm, ⟨36, _⟩ => ⟨S1x1x1x1, .i32⟩
  | .hbm, ⟨37, _⟩ => ⟨S4x512x1x1, .i32⟩
  | .hbm, ⟨38, _⟩ => ⟨S4x512x1x1, .i1⟩
  | .hbm, ⟨39, _⟩ => ⟨S4x512x1x1, .i1⟩
  | .hbm, ⟨40, _⟩ => ⟨S_, .i1⟩
  | .hbm, ⟨41, _⟩ => ⟨S4x512x1, .i1⟩
  | .hbm, ⟨42, _⟩ => ⟨S4x512x1, .f32⟩
  | .hbm, ⟨43, _⟩ => ⟨S_, .f32⟩
  | .hbm, ⟨44, _⟩ => ⟨S4x512x1, .f32⟩
  | .hbm, ⟨45, _⟩ => ⟨S4x512x1, .f32⟩
  | .hbm, ⟨46, _⟩ => ⟨S4x512, .f32⟩
  | .hbm, ⟨47, _⟩ => ⟨S4x512, .f32⟩
  | .hbm, ⟨48, _⟩ => ⟨S4x512, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S4x512, .f32⟩
  | .hbm, ⟨53, _⟩ => ⟨S4x512, .f32⟩
  | .hbm, ⟨54, _⟩ => ⟨S_, .f32⟩
  | .hbm, ⟨55, _⟩ => ⟨S4x512, .f32⟩
  | .hbm, ⟨56, _⟩ => ⟨S4x512, .f32⟩
  | .hbm, ⟨57, _⟩ => ⟨S4x1, .f32⟩
  | .hbm, ⟨58, _⟩ => ⟨S4x512, .f32⟩
  | .hbm, ⟨59, _⟩ => ⟨S4x512, .f32⟩
  | .hbm, ⟨60, _⟩ => ⟨S4x512, .f32⟩
  | .hbm, ⟨61, _⟩ => ⟨S4x512, .f32⟩
  | .hbm, ⟨62, _⟩ => ⟨S4x512, .f32⟩
  | .hbm, ⟨63, _⟩ => ⟨S4x512, .f32⟩
  | .hbm, ⟨64, _⟩ => ⟨S4x512, .f32⟩
  | .hbm, ⟨65, _⟩ => ⟨S4x512, .f32⟩
  | .hbm, ⟨66, _⟩ => ⟨S4x512, .f32⟩
  | .hbm, ⟨67, _⟩ => ⟨S_, .f32⟩
  | .hbm, ⟨68, _⟩ => ⟨S4x512, .f32⟩
  | .hbm, ⟨69, _⟩ => ⟨S4x512, .f32⟩
  | .hbm, ⟨70, _⟩ => ⟨S_, .f32⟩
  | .hbm, ⟨71, _⟩ => ⟨S4x512, .f32⟩
  | .hbm, ⟨72, _⟩ => ⟨S4x512, .f32⟩
  | .hbm, ⟨73, _⟩ => ⟨S4x512, .f32⟩
  | .hbm, ⟨74, _⟩ => ⟨S4x512, .f32⟩
  | .hbm, ⟨75, _⟩ => ⟨S_, .f32⟩
  | .hbm, ⟨76, _⟩ => ⟨S4, .f32⟩
  | .hbm, ⟨77, _⟩ => ⟨S_, .f32⟩
  | .hbm, ⟨78, _⟩ => ⟨S4, .f32⟩
  | .hbm, ⟨79, _⟩ => ⟨S_, .f32⟩
  | .hbm, ⟨80, _⟩ => ⟨S_, .f32⟩
  | .hbm, ⟨81, _⟩ => ⟨S4, .f32⟩
  | .hbm, ⟨82, _⟩ => ⟨S4, .f32⟩
  | .hbm, ⟨83, _⟩ => ⟨S4, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | _, _ => ⟨S4x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_cst : Ref sig .tc := ⟨.hbm, 8, rfl⟩
abbrev main_call0_v0 : Ref sig .tc := ⟨.hbm, 9, rfl⟩
abbrev main_call0_cst_0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_cst_1 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_v1 : Ref sig .tc := ⟨.hbm, 22, rfl⟩
abbrev main_v2 : Ref sig .tc := ⟨.hbm, 23, rfl⟩
abbrev main_call1_c : Ref sig .tc := ⟨.hbm, 24, rfl⟩
abbrev main_call1_v0 : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_c_1 : Ref sig .tc := ⟨.hbm, 32, rfl⟩
abbrev main_call1_c_2 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_3 : Ref sig .tc := ⟨.hbm, 40, rfl⟩
abbrev main_call1_v12 : Ref sig .tc := ⟨.hbm, 41, rfl⟩
abbrev main_call1_v13 : Ref sig .tc := ⟨.hbm, 42, rfl⟩
abbrev main_call1_cst : Ref sig .tc := ⟨.hbm, 43, rfl⟩
abbrev main_call1_v14 : Ref sig .tc := ⟨.hbm, 44, rfl⟩
abbrev main_v3 : Ref sig .tc := ⟨.hbm, 45, rfl⟩
abbrev main_v4 : Ref sig .tc := ⟨.hbm, 46, rfl⟩
abbrev main_v5 : Ref sig .tc := ⟨.hbm, 47, rfl⟩
abbrev main_v6 : Ref sig .tc := ⟨.hbm, 48, rfl⟩
abbrev main_cst : Ref sig .tc := ⟨.hbm, 49, rfl⟩
abbrev main_cst_0 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_v7 : Ref sig .tc := ⟨.hbm, 56, rfl⟩
abbrev main_v8 : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_cst_1 : Ref sig .tc := ⟨.hbm, 67, rfl⟩
abbrev main_v18 : Ref sig .tc := ⟨.hbm, 68, rfl⟩
abbrev main_v19 : Ref sig .tc := ⟨.hbm, 69, rfl⟩
abbrev main_cst_2 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_cst_3 : Ref sig .tc := ⟨.hbm, 75, rfl⟩
abbrev main_v24 : Ref sig .tc := ⟨.hbm, 76, rfl⟩
abbrev main_cst_4 : Ref sig .tc := ⟨.hbm, 77, rfl⟩
abbrev main_v25 : Ref sig .tc := ⟨.hbm, 78, rfl⟩
abbrev main_cst_5 : Ref sig .tc := ⟨.hbm, 79, rfl⟩
abbrev main_call3_v0 : Ref sig .tc := ⟨.hbm, 80, rfl⟩
abbrev main_call3_v1 : Ref sig .tc := ⟨.hbm, 81, rfl⟩
abbrev main_v26 : Ref sig .tc := ⟨.hbm, 82, rfl⟩
abbrev main_v27 : Ref sig .tc := ⟨.hbm, 83, rfl⟩
abbrev main_cst_6 : Ref sig .tc := ⟨.hbm, 84, rfl⟩
abbrev main_v28 : Ref sig .tc := ⟨.hbm, 85, rfl⟩
abbrev main_cst_7 : Ref sig .tc := ⟨.hbm, 86, rfl⟩
abbrev main_v29 : Ref sig .tc := ⟨.hbm, 87, rfl⟩

abbrev nD : Nat := 1
abbrev τ : Topo := Topo.v7x

variable {F : FTy → Type} [FloatOps F]

class Facts₀ : Prop where
  reducesTo_S4x512x64000_S4x512_d2 : S4x512x64000.ReducesTo [2] S4x512
  h_S_ : 0 < S_.numel
  bcast_S_S4x512 : S_.BroadcastsInDim S4x512 (![] : Fin 0 → Fin S4x512.rank)
  bcast_S4x512_S4x512x1_0_1 : S4x512.BroadcastsInDim S4x512x1 (![0, 1] : Fin 2 → Fin S4x512x1.rank)
  bcast_S4x512x1_S4x512x64000_0_1_2 : S4x512x1.BroadcastsInDim S4x512x64000 (![0, 1, 2] : Fin 3 → Fin S4x512x64000.rank)
  bcast_S_S4x512x1 : S_.BroadcastsInDim S4x512x1 (![] : Fin 0 → Fin S4x512x1.rank)
  shapeCasts_S4x512x1_S4x512x1x1 : S4x512x1.ShapeCasts S4x512x1x1
  bcast_S_S4x512x1x1 : S_.BroadcastsInDim S4x512x1x1 (![] : Fin 0 → Fin S4x512x1x1.rank)
  bcast_S1_S1x1x1x1_3 : S1.BroadcastsInDim S1x1x1x1 (![3] : Fin 1 → Fin S1x1x1x1.rank)
  bcast_S1x1x1x1_S4x512x1x1_0_1_2_3 : S1x1x1x1.BroadcastsInDim S4x512x1x1 (![0, 1, 2, 3] : Fin 4 → Fin S4x512x1x1.rank)
  reducesTo_S4x512x1x1_S4x512x1_d3 : S4x512x1x1.ReducesTo [3] S4x512x1
  shapeCasts_S4x512x1_S4x512 : S4x512x1.ShapeCasts S4x512
  bcast_S4_S4x1_0 : S4.BroadcastsInDim S4x1 (![0] : Fin 1 → Fin S4x1.rank)
  bcast_S4x1_S4x512_0_1 : S4x1.BroadcastsInDim S4x512 (![0, 1] : Fin 2 → Fin S4x512.rank)
  reducesTo_S4x512_S4_d1 : S4x512.ReducesTo [1] S4
  bcast_S_S4 : S_.BroadcastsInDim S4 (![] : Fin 0 → Fin S4.rank)
  reducesTo_S4_S_d0 : S4.ReducesTo [0] S_
  dot_S4x512x2048_S64000x2048_S4x512x64000_2_1_01_0_n_n_wf : DotDims.WF S4x512x2048 S64000x2048 S4x512x64000 [2] [1] [0, 1] [0] [] []
  gather_S4x512x64000_S4x512x1x1_S4x512x1_n_2_01_01_2_3_111_wf : GatherDims.WF S4x512x64000 S4x512x1x1 S4x512x1 [] [2] [0, 1] [2] [0, 1] 3 ![1, 1, 1]

variable [Facts₀]

def dot_S4x512x2048_S64000x2048_S4x512x64000_2_1_01_0_n_n : DotDims S4x512x2048 S64000x2048 S4x512x64000 where
  lhsContracting := [2]
  rhsContracting := [1]
  lhsNonContracting := [0, 1]
  rhsNonContracting := [0]
  lhsBatch := []
  rhsBatch := []
  wf := dot_S4x512x2048_S64000x2048_S4x512x64000_2_1_01_0_n_n_wf
def gather_S4x512x64000_S4x512x1x1_S4x512x1_n_2_01_01_2_3_111 : GatherDims S4x512x64000 S4x512x1x1 S4x512x1 where
  offsetDims := []
  collapsedSliceDims := [2]
  operandBatchingDims := [0, 1]
  startIndicesBatchingDims := [0, 1]
  startIndexMap := [2]
  indexVectorDim := 3
  sliceSizes := ![1, 1, 1]
  wf := gather_S4x512x64000_S4x512x1x1_S4x512x1_n_2_01_01_2_3_111_wf

class Facts : Prop extends Facts₀ where

variable [Facts]
-- ==== Proof.Spec.lean ====
/-
  The mathematics both programs compute for one token, and the running state the tiled program keeps.

  For one row of logits x (one token's scores over the vocabulary of 64000 words) and the token's selected word:
  the log-probability of the selected word is  x[sel] - log (sum over v of exp x[v]).  One program computes it in two
  passes over the whole row (subtract the row's maximum, exponentiate, sum, take the logarithm); the other scans the row
  in 20 tiles of 3200 words and keeps a running maximum, a running sum of exponentials rescaled to the running
  maximum, and a running sum that picks out the selected word's logit.  From the log-probability both then form
  the same clipped-ratio loss with a KL penalty, weighted by the token's mask.
-/
import Idealize.ShloMosaic.PureOps.Ideal

noncomputable section

open scoped BigOperators

namespace Grpo

open Idealize.ShloMosaic

/-- The loss of one token from its log-probability `logp`, the old policy's and the reference policy's
    log-probabilities, the sequence's advantage and the token's mask:
    ( -min (ratio * adv, clip (ratio, 0.8, 1.2) * adv) + 0.04 * (exp d - d - 1) ) * mask, with
    ratio = exp (logp - old) and d = ref - logp. The four literals are the f32 words both programs carry. -/
def tokenLoss (logp old ref adv mask : EReal) : EReal :=
  ((0 - min (Ideal.exp (logp - old) * adv)
        (min (Ideal.ofBits .f32 0x3F99999A#32) (max (Ideal.ofBits .f32 0x3F4CCCCD#32) (Ideal.exp (logp - old))) * adv))
    + Ideal.ofBits .f32 0x3D23D70A#32
        * ((Ideal.exp (ref - logp) - (ref - logp)) - Ideal.ofBits .f32 0x3F800000#32)) * mask

/-- The maximum of one tile of 3200 logits, from -∞. -/
def tileMax (z : Fin 3200 → EReal) : EReal := (Finset.univ : Finset (Fin 3200)).fold max (Ideal.ofBits .f32 0xFF800000#32) z

/-- The running maximum after a tile. -/
def stepM (m : EReal) (z : Fin 3200 → EReal) : EReal := max m (tileMax z)

/-- The running sum of exponentials after a tile: the old sum rescaled to the new maximum, plus the tile's terms. -/
def stepL (m l : EReal) (z : Fin 3200 → EReal) : EReal :=
  Ideal.exp (m - stepM m z) * l + ∑ c : Fin 3200, Ideal.exp (z c - stepM m z)

/-- Whether column `c` of tile `j` is the selected word `w`: the 32-bit comparison of `w` with `j * 3200 + c`. -/
def hit (w : BitVec 32) (j : ℕ) (c : Fin 3200) : BitVec 1 :=
  IntOp.cmpi .eq w (IntOp.addi (Scalar.muli (BitVec.ofNat 32 j) 3200#32) (BitVec.ofNat 32 c.val))

/-- The tile's contribution to the selected logit: the tile's logit at the selected column, 0 at the others, summed. -/
def selSum (w : BitVec 32) (j : ℕ) (z : Fin 3200 → EReal) : EReal :=
  ∑ c : Fin 3200, Scalar.select (hit w j c) (z c) (Ideal.ofBits .f32 0x00000000#32)

/-- Tile `j` of a row of logits. -/
def tile (x : ℕ → EReal) (j : ℕ) : Fin 3200 → EReal := fun c => x (j * 3200 + c.val)

/-- The state after tile `j` of a row: (running maximum, running sum of exponentials, running selected logit).
    The first tile starts from (-∞, 0, 0). -/
def st (x : ℕ → EReal) (w : BitVec 32) : ℕ → EReal × EReal × EReal
  | 0 => (stepM (Ideal.ofBits .f32 0xFF800000#32) (tile x 0),
          stepL (Ideal.ofBits .f32 0xFF800000#32) (Ideal.ofBits .f32 0x00000000#32) (tile x 0),
          Ideal.ofBits .f32 0x00000000#32 + selSum w 0 (tile x 0))
  | j + 1 => (stepM (st x w j).1 (tile x (j + 1)),
              stepL (st x w j).1 (st x w j).2.1 (tile x (j + 1)),
              (st x w j).2.2 + selSum w (j + 1) (tile x (j + 1)))

/-- The tiled program's log-probability from its final state: selected logit - (maximum + log sum). -/
def logpOfState (p : EReal × EReal × EReal) : EReal := p.2.2 - (p.1 + Ideal.log p.2.1)

/-- The two-pass log-probability of word `v` in a row `x` of 64000 logits:
    (x v - M) - log (0 + sum of exp (x u - M)), M = max (-∞, the row's maximum from -∞). -/
def refLogp (x : Fin 64000 → EReal) (v : Fin 64000) : EReal :=
  (x v - max (Ideal.ofBits .f32 0xFF800000#32) ((Finset.univ : Finset (Fin 64000)).fold max (Ideal.ofBits .f32 0xFF800000#32) x))
    - Ideal.log (Ideal.ofBits .f32 0x00000000#32
        + ∑ u : Fin 64000, Ideal.exp (x u - max (Ideal.ofBits .f32 0xFF800000#32)
            ((Finset.univ : Finset (Fin 64000)).fold max (Ideal.ofBits .f32 0xFF800000#32) x)))

end Grpo

end
-- ==== Proof.Tail.lean ====
/-
  The last step both programs share: from the per-token losses (4 sequences of 512 tokens, already weighted by the
  mask) and the mask, each sequence's loss is the sum of its tokens' losses divided by max (1, the sum of its mask),
  and the result is the sum of the four sequence losses divided by 4.
-/
import Idealize.ShloMosaic.PureOps.Ideal
import Idealize.ShloMosaic.Lib.ValueIdx

noncomputable section

namespace Grpo

open Idealize.ShloMosaic

abbrev T4x512 : Shape := ⟨2, ![4, 512]⟩
abbrev T4 : Shape := ⟨1, ![4]⟩
abbrev T0 : Shape := ⟨0, ![]⟩

theorem red_T4x512_T4 : T4x512.ReducesTo [1] T4 := by decide
theorem red_T4_T0 : T4.ReducesTo [0] T0 := by decide
theorem pos_T0 : 0 < T0.numel := by decide
theorem bc_T0_T4 : T0.BroadcastsInDim T4 (![] : Fin 0 → Fin T4.rank) := by decide

/-- Token (b, s) of the 4 × 512 layout is token b * 512 + s of the flat layout of 2048 tokens. -/
def tok (y : T4x512.Idx) : Fin 2048 :=
  ⟨(y 0).val * 512 + (y 1).val, by
    have h0 : (y 0).val < 4 := ValueIdx.idx2_lt0 y
    have h1 : (y 1).val < 512 := ValueIdx.idx2_lt1 y
    omega⟩

/-- The masked mean over each sequence, then the mean over the four sequences. -/
def seqMean (x mask : FVec Ideal T4x512 .f32) : FVec Ideal T0 .f32 :=
  Host.divf
    (Host.reduceAdd
      (Host.divf
        (Host.reduceAdd x (constant (F := Ideal) T0 .f32 0x00000000#32) red_T4x512_T4 pos_T0)
        (maximumf (broadcastInDim T4 ![] bc_T0_T4 (constant (F := Ideal) T0 .f32 0x3F800000#32))
          (Host.reduceAdd mask (constant (F := Ideal) T0 .f32 0x00000000#32) red_T4x512_T4 pos_T0)))
      (constant (F := Ideal) T0 .f32 0x00000000#32) red_T4_T0 pos_T0)
    (constant (F := Ideal) T0 .f32 0x40800000#32)

end Grpo

end
-- ==== Proof.LibTakeAlongAxis3.lean ====
/-
  Reading `take_along_axis` on the last axis of a rank-3 table at an index.

  For a table `x : [A, B, N]` and an integer array `idx : [A, B, 1, 1]`, the gather whose two leading axes are
  batching axes (paired with the two leading axes of the indices), whose last operand axis is collapsed and is the
  one the start index names, and whose slices have one element, produces the array `[A, B, 1]` with
      result[a, b, 0] = x[a, b, clamp (idx[a, b, 0, 0])],
  the start index read as a signed integer and clamped into `[0, N - 1]`.  This file proves exactly that equation
  from the definition of the gather's operand index (start + batching coordinate + offset coordinate on every axis).
-/
import Idealize.ShloMosaic.Lib.ValueIdx
import Idealize.ShloMosaic.PureOps.Reduce

noncomputable section

namespace Idealize.ShloMosaic.TakeAlongAxis3

open Idealize.ShloMosaic Idealize.ShloMosaic.ValueIdx

variable {α : Type}

/-- The dimension numbers of `take_along_axis` on the last axis: operand `[A, B, N]`, start indices `[A, B, 1, 1]`,
    result `[A, B, 1]`; axes 0 and 1 batching on both sides, axis 2 of the operand collapsed and start-indexed, the
    index vector on axis 3, all slice sizes one.  The side conditions `wf` are decided on literal shapes. -/
abbrev takeDims3 (A B N : Nat)
    (wf : GatherDims.WF ⟨3, ![A, B, N]⟩ ⟨4, ![A, B, 1, 1]⟩ ⟨3, ![A, B, 1]⟩ [] [2] [0, 1] [2] [0, 1] 3 ![1, 1, 1]) :
    GatherDims ⟨3, ![A, B, N]⟩ ⟨4, ![A, B, 1, 1]⟩ ⟨3, ![A, B, 1]⟩ where
  offsetDims := []
  collapsedSliceDims := [2]
  operandBatchingDims := [0, 1]
  startIndicesBatchingDims := [0, 1]
  startIndexMap := [2]
  indexVectorDim := 3
  sliceSizes := ![1, 1, 1]
  wf := wf

/-- The gather read at `(a, b, 0)`: the table at `(a, b, ·)` and the start index `idx[a, b, 0, 0]` read signed and
    clamped into `[0, N - 1]`. -/
theorem gather_take3_apply {A B N w : Nat} (hN : 0 < N)
    (wf : GatherDims.WF ⟨3, ![A, B, N]⟩ ⟨4, ![A, B, 1, 1]⟩ ⟨3, ![A, B, 1]⟩ [] [2] [0, 1] [2] [0, 1] 3 ![1, 1, 1])
    (x : (⟨3, ![A, B, N]⟩ : Shape).Idx → α) (idx : IVec ⟨4, ![A, B, 1, 1]⟩ w) (a : Fin A) (b : Fin B) :
    Host.gather (takeDims3 A B N wf) x idx (ix3 a b (0 : Fin 1))
      = x (ix3 a b ⟨min (idx (ix4 a b (0 : Fin 1) (0 : Fin 1))).toInt.toNat (N - 1), by omega⟩) := by
  unfold Host.gather
  congr 1
  funext e
  refine Fin.ext ?_
  match e with
  | ⟨0, _⟩ =>
    have hb : (0 : Fin 3) ∈ (takeDims3 A B N wf).operandBatchingDims := List.mem_cons_self
    show (takeDims3 A B N wf).start (ix3 a b (0 : Fin 1)) idx 0 + (takeDims3 A B N wf).batchCoord (ix3 a b (0 : Fin 1)) 0
        + (takeDims3 A B N wf).offCoord (ix3 a b (0 : Fin 1)) 0 = a.val
    rw [GatherDims.start_batching _ _ _ _ hb,
      GatherDims.offCoord_eq_zero _ _ _ (fun h => ((GatherDims.mem_sKept _ _).mp h).2 hb)]
    unfold GatherDims.batchCoord
    rw [dif_pos hb, Nat.zero_add, Nat.add_zero]
    rfl
  | ⟨1, _⟩ =>
    have hb : (1 : Fin 3) ∈ (takeDims3 A B N wf).operandBatchingDims := List.mem_cons_of_mem _ (List.mem_singleton.mpr rfl)
    show (takeDims3 A B N wf).start (ix3 a b (0 : Fin 1)) idx 1 + (takeDims3 A B N wf).batchCoord (ix3 a b (0 : Fin 1)) 1
        + (takeDims3 A B N wf).offCoord (ix3 a b (0 : Fin 1)) 1 = b.val
    rw [GatherDims.start_batching _ _ _ _ hb,
      GatherDims.offCoord_eq_zero _ _ _ (fun h => ((GatherDims.mem_sKept _ _).mp h).2 hb)]
    unfold GatherDims.batchCoord
    rw [dif_pos hb, Nat.zero_add, Nat.add_zero]
    rfl
  | ⟨2, _⟩ =>
    have hc : (2 : Fin 3) ∈ (takeDims3 A B N wf).collapsedSliceDims := List.mem_singleton.mpr rfl
    have hm : (2 : Fin 3) ∈ (takeDims3 A B N wf).startIndexMap := List.mem_singleton.mpr rfl
    have hnb : (2 : Fin 3) ∉ (takeDims3 A B N wf).operandBatchingDims := (takeDims3 A B N wf).sim_disjoint 2 hm
    show (takeDims3 A B N wf).start (ix3 a b (0 : Fin 1)) idx 2 + (takeDims3 A B N wf).batchCoord (ix3 a b (0 : Fin 1)) 2
        + (takeDims3 A B N wf).offCoord (ix3 a b (0 : Fin 1)) 2 = min (idx (ix4 a b (0 : Fin 1) (0 : Fin 1))).toInt.toNat (N - 1)
    rw [GatherDims.batchCoord_eq_zero _ _ _ hnb,
      GatherDims.offCoord_eq_zero _ _ _ (fun h => ((GatherDims.mem_sKept _ _).mp h).1 hc)]
    simp only [Nat.add_zero]
    unfold GatherDims.start
    rw [dif_pos hm]
    have hsi : (takeDims3 A B N wf).siIdx (ix3 a b (0 : Fin 1)) ⟨List.idxOf (2 : Fin 3) (takeDims3 A B N wf).startIndexMap,
        List.idxOf_lt_length_iff.2 hm⟩ = ix4 a b (0 : Fin 1) (0 : Fin 1) := by
      funext c; refine Fin.ext ?_
      match c with
      | ⟨0, _⟩ => rfl
      | ⟨1, _⟩ => rfl
      | ⟨2, _⟩ => rfl
      | ⟨3, _⟩ => rfl
    rw [hsi]
    rfl

end Idealize.ShloMosaic.TakeAlongAxis3

end
-- ==== Proof.RefValue.lean ====
/-
  What the reference program computes, in the specification's words.

  The reference forms every token's row of 64000 logits (the token's hidden vector against every word's embedding),
  takes the row's log-softmax in two passes (subtract the maximum, exponentiate, sum, take the logarithm, subtract),
  picks the entry at the token's selected word, forms from it the clipped-ratio loss with the KL penalty weighted by
  the mask, and finishes with the masked mean per sequence and the mean over the four sequences.

  Read at one token (a, b):
    * the entry of the log-softmax at word v is the two-pass log-probability of the token's row at v;
    * when every selected id lies in 0 .. 63999, the pick does nothing but read that entry: the "negative id" wrap
      is the identity, the in-range mask is one everywhere, and the clamp of the gather's start index is the id;
    * the arithmetic after the pick is the specification's token loss (a negation where it writes "0 - ·");
    * everything after the per-token losses is the shared last step, carried as one function and never opened.
-/
import proofs.«411799_j56813827392019_3_alg».proof.Proof.RefRead
import proofs.«411799_j56813827392019_3_alg».proof.Proof.Spec
import proofs.«411799_j56813827392019_3_alg».proof.Proof.Tail
import proofs.«411799_j56813827392019_3_alg».proof.Proof.LibTakeAlongAxis3
import Idealize.ShloMosaic.Lib.ValueIdx
import Idealize.ShloMosaic.Lib.ReduceAll
import Idealize.ShloMosaic.PureOps.Reduce
import Idealize.ShloMosaic.PureOps.Ideal.Laws

noncomputable section

namespace Cert.ReferenceIdeal.RefVal

open Idealize.ShloMosaic Idealize.ShloMosaic.ValueIdx Idealize.SL.Sem Cert.ReferenceIdeal Cert.ReferenceIdeal.Gen
open Cert.ReferenceIdeal.Read
open scoped BigOperators

/-- One token's row of logits: the product of the token's hidden vector with every word's embedding. -/
def row (x0 : Vec Ideal S4x512x2048 .f32) (x1 : Vec Ideal S64000x2048 .f32) (a : Fin 4) (b : Fin 512) : Fin 64000 → EReal :=
  fun v => ∑ k : Fin 2048, x0 (ix3 a b k) * x1 (ix2 v k)

/-- The witness naming the index "(a, b) with v inserted on the last axis". -/
theorem redW : S4x512x64000.Reduces [2] S4x512 := by decide

theorem lift_eq (a : Fin 4) (b : Fin 512) (v : Fin 64000) : redW.lift (ix2 a b) v = ix3 a b v := by
  funext e
  refine Fin.ext ?_
  match e with
  | ⟨0, _⟩ => rfl
  | ⟨1, _⟩ => rfl
  | ⟨2, _⟩ => rfl

/-- A logit is the dot product over the 2048 hidden coordinates. -/
theorem logit_eq (x0 : Vec Ideal S4x512x2048 .f32) (x1 : Vec Ideal S64000x2048 .f32) (a : Fin 4) (b : Fin 512) (v : Fin 64000) :
    val_main_v0 (F := Ideal) x0 x1 (ix3 a b v) = row x0 x1 a b v := by
  rw [val_main_v0_apply]
  refine Finset.sum_congr rfl fun k _ => ?_
  have el : lidx_main_v0 (ix3 a b v) k = ix3 a b k := by
    funext e; match e with | ⟨0, _⟩ => rfl | ⟨1, _⟩ => rfl | ⟨2, _⟩ => rfl
  have er : ridx_main_v0 (ix3 a b v) k = ix2 v k := by
    funext e; match e with | ⟨0, _⟩ => rfl | ⟨1, _⟩ => rfl
  rw [el, er]

/-- The row's maximum from -∞. -/
theorem rowmax_eq (x0 : Vec Ideal S4x512x2048 .f32) (x1 : Vec Ideal S64000x2048 .f32) (a : Fin 4) (b : Fin 512) :
    val_main_call0_v0 (F := Ideal) x0 x1 (ix2 a b)
      = (Finset.univ : Finset (Fin 64000)).fold max (Ideal.ofBits .f32 0xFF800000#32) (row x0 x1 a b) := by
  unfold val_main_call0_v0
  rw [Host.reduce_eq_fold_single FloatOps.maximumf _ _ reducesTo_S4x512x64000_S4x512_d2 redW h_S_ (ix2 a b)]
  show (Finset.univ : Finset (Fin 64000)).fold max (Ideal.ofBits .f32 0xFF800000#32)
      (val_main_v0 (F := Ideal) x0 x1 ∘ redW.lift (ix2 a b)) = _
  refine congrArg (fun f => (Finset.univ : Finset (Fin 64000)).fold max (Ideal.ofBits .f32 0xFF800000#32) f) ?_
  funext v
  exact (congrArg (val_main_v0 (F := Ideal) x0 x1) (lift_eq a b v)).trans (logit_eq x0 x1 a b v)

/-- The maximum the reference subtracts: max (-∞, the row's maximum from -∞). -/
def rowM (x0 : Vec Ideal S4x512x2048 .f32) (x1 : Vec Ideal S64000x2048 .f32) (a : Fin 4) (b : Fin 512) : EReal :=
  max (Ideal.ofBits .f32 0xFF800000#32)
    ((Finset.univ : Finset (Fin 64000)).fold max (Ideal.ofBits .f32 0xFF800000#32) (row x0 x1 a b))

theorem M_eq (x0 : Vec Ideal S4x512x2048 .f32) (x1 : Vec Ideal S64000x2048 .f32) (a : Fin 4) (b : Fin 512) :
    val_main_call0_v2 (F := Ideal) x0 x1 (ix2 a b) = rowM x0 x1 a b := by
  rw [val_main_call0_v2_apply, val_main_call0_v1_apply, val_main_call0_cst_0_apply, rowmax_eq]
  rfl

/-- A logit minus the row's maximum. -/
theorem shifted_eq (x0 : Vec Ideal S4x512x2048 .f32) (x1 : Vec Ideal S64000x2048 .f32) (a : Fin 4) (b : Fin 512) (v : Fin 64000) :
    val_main_call0_v5 (F := Ideal) x0 x1 (ix3 a b v) = row x0 x1 a b v - rowM x0 x1 a b := by
  have e : idx_main_call0_v3 (idx_main_call0_v4 (ix3 a b v)) = ix2 a b := by
    funext e; match e with | ⟨0, _⟩ => rfl | ⟨1, _⟩ => rfl
  rw [val_main_call0_v5_apply, val_main_call0_v4_apply, val_main_call0_v3_apply, e, M_eq, logit_eq]
  rfl

/-- The sum of the exponentials of the shifted row, from 0. -/
theorem sumexp_eq (x0 : Vec Ideal S4x512x2048 .f32) (x1 : Vec Ideal S64000x2048 .f32) (a : Fin 4) (b : Fin 512) :
    val_main_call0_v7 (F := Ideal) x0 x1 (ix2 a b)
      = Ideal.ofBits .f32 0x00000000#32 + ∑ u : Fin 64000, Ideal.exp (row x0 x1 a b u - rowM x0 x1 a b) := by
  rw [val_main_call0_v7_apply, val_main_call0_cst_1_apply]
  refine congrArg (fun s => Ideal.ofBits .f32 0x00000000#32 + s) (Finset.sum_congr rfl fun u _ => ?_)
  have e : idx_main_call0_v7 (ix2 a b) u = ix3 a b u := by
    funext e; match e with | ⟨0, _⟩ => rfl | ⟨1, _⟩ => rfl | ⟨2, _⟩ => rfl
  rw [e, val_main_call0_v6_apply, shifted_eq]
  rfl

/-- The reference's log-softmax at word v of token (a, b) is the two-pass log-probability of the token's row. -/
theorem logsoftmax_eq (x0 : Vec Ideal S4x512x2048 .f32) (x1 : Vec Ideal S64000x2048 .f32) (a : Fin 4) (b : Fin 512) (v : Fin 64000) :
    val_main_v1 (F := Ideal) x0 x1 (ix3 a b v) = Grpo.refLogp (row x0 x1 a b) v := by
  have e : idx_main_call0_v8 (idx_main_call0_v10 (ix3 a b v)) = ix2 a b := by
    funext e; match e with | ⟨0, _⟩ => rfl | ⟨1, _⟩ => rfl
  rw [val_main_v1_apply, val_main_call0_v10_apply, val_main_call0_v9_apply, val_main_call0_v8_apply, e, sumexp_eq, shifted_eq,
    Ideal.subf_def, Ideal.hostUnary_log_def]
  unfold Grpo.refLogp rowM
  rfl

/-! ### The selected ids: in range, so the index normalisation, the in-range mask and the clamp all do nothing -/

theorem toInt_zero32 : (0#32 : BitVec 32).toInt = 0 := by decide
theorem toInt_63999 : (63999#32 : BitVec 32).toInt = 63999 := by decide

/-- With a nonnegative id, "id < 0 ? id + 64000 : id" is the id. -/
theorem v4_eq (x6 : Vec Ideal S4x512 .i32) (hnn : ∀ y, 0 ≤ (x6 y).toInt) (j : S4x512x1.Idx) :
    val_main_call1_v4 (F := Ideal) x6 j = x6 (idx_main_v2 j) := by
  rw [val_main_call1_v4_apply, val_main_call1_v1_apply, val_main_v2_apply, val_main_call1_v0_apply, val_main_call1_c_apply]
  refine if_neg fun h => ?_
  have h' := IntOp.cmpi_slt.mp h
  rw [toInt_zero32] at h'
  exact absurd h' (not_lt.mpr (hnn _))

theorem v5_eq (x6 : Vec Ideal S4x512 .i32) (hnn : ∀ y, 0 ≤ (x6 y).toInt) (i : S4x512x1x1.Idx) :
    val_main_call1_v5 (F := Ideal) x6 i = x6 (idx_main_v2 (idx_main_call1_v5 i)) := by
  rw [val_main_call1_v5_apply, v4_eq x6 hnn]

/-- With an id in 0 .. 63999 the in-range test holds at every position. -/
theorem v11_eq (x6 : Vec Ideal S4x512 .i32) (hnn : ∀ y, 0 ≤ (x6 y).toInt) (hle : ∀ y, (x6 y).toInt ≤ 63999)
    (i : S4x512x1x1.Idx) : val_main_call1_v11 (F := Ideal) x6 i = 1#1 := by
  rw [val_main_call1_v11_apply, val_main_call1_v7_apply, val_main_call1_v10_apply, v5_eq x6 hnn,
    val_main_call1_v6_apply, val_main_call1_c_2_apply, val_main_call1_v9_apply, val_main_call1_v8_apply,
    val_main_call1_c_1_apply]
  refine IntOp.andi_eq_one.mpr ⟨IntOp.cmpi_sge.mpr ?_, IntOp.cmpi_sle.mpr ?_⟩
  · rw [toInt_zero32]; exact hnn _
  · rw [toInt_63999]; exact hle _

/-- A left fold of "and" over ones, from one, is one. -/
theorem foldl_andi_ones {ι : Type} (f : ι → BitVec 1) (hf : ∀ n, f n = 1#1) :
    ∀ l : List ι, l.foldl (fun r n => IntOp.andi r (f n)) 1#1 = 1#1
  | [] => rfl
  | n :: l => by
    have h11 : IntOp.andi (1#1 : BitVec 1) 1#1 = 1#1 := by decide
    rw [List.foldl_cons, hf n, h11]
    exact foldl_andi_ones f hf l

/-- So the reduced mask is one everywhere. -/
theorem v12_eq (x6 : Vec Ideal S4x512 .i32) (hnn : ∀ y, 0 ≤ (x6 y).toInt) (hle : ∀ y, (x6 y).toInt ≤ 63999)
    (j : S4x512x1.Idx) : val_main_call1_v12 (F := Ideal) x6 j = 1#1 := by
  unfold val_main_call1_v12
  rw [Host.reduce_eq_foldl]
  exact foldl_andi_ones _ (v11_eq x6 hnn hle) _

theorem idx5_eq (a : Fin 4) (b : Fin 512) :
    idx_main_v2 (idx_main_call1_v5 (ix4 a b (0 : Fin 1) (0 : Fin 1))) = ix2 a b := by
  funext e
  refine Fin.ext ?_
  have ha := a.isLt
  have hb := b.isLt
  match e with
  | ⟨0, _⟩ =>
    show (((a.val * 512 + b.val) * 1 + 0) * 1 + 0) / 512 = a.val
    omega
  | ⟨1, _⟩ =>
    show (((a.val * 512 + b.val) * 1 + 0) * 1 + 0) / 1 % 512 = b.val
    omega

/-- The gather reads the log-softmax at the (clamped) id. -/
theorem v13_eq (x0 : Vec Ideal S4x512x2048 .f32) (x1 : Vec Ideal S64000x2048 .f32) (x6 : Vec Ideal S4x512 .i32)
    (hnn : ∀ y, 0 ≤ (x6 y).toInt) (a : Fin 4) (b : Fin 512) :
    val_main_call1_v13 (F := Ideal) x0 x1 x6 (ix3 a b (0 : Fin 1))
      = val_main_v1 (F := Ideal) x0 x1 (ix3 a b ⟨min (x6 (ix2 a b)).toInt.toNat (64000 - 1), by omega⟩) := by
  unfold val_main_call1_v13
  refine (Idealize.ShloMosaic.TakeAlongAxis3.gather_take3_apply (by decide)
    gather_S4x512x64000_S4x512x1x1_S4x512x1_n_2_01_01_2_3_111_wf (val_main_v1 (F := Ideal) x0 x1)
    (val_main_call1_v5 (F := Ideal) x6) a b).trans ?_
  refine congrArg (fun v => val_main_v1 (F := Ideal) x0 x1 (ix3 a b v)) (Fin.ext ?_)
  show min (val_main_call1_v5 (F := Ideal) x6 (ix4 a b (0 : Fin 1) (0 : Fin 1))).toInt.toNat (64000 - 1)
    = min (x6 (ix2 a b)).toInt.toNat (64000 - 1)
  rw [v5_eq x6 hnn, idx5_eq]

theorem idx4_eq (a : Fin 4) (b : Fin 512) : idx_main_v4 (ix2 a b) = ix3 a b (0 : Fin 1) := by
  funext e
  refine Fin.ext ?_
  have ha := a.isLt
  have hb := b.isLt
  match e with
  | ⟨0, _⟩ =>
    show (a.val * 512 + b.val) / 512 = a.val
    omega
  | ⟨1, _⟩ =>
    show (a.val * 512 + b.val) / 1 % 512 = b.val
    omega
  | ⟨2, _⟩ => rfl

/-- What take_along_axis returns for token (a, b) when every id is in range: the two-pass log-probability of the
    token's row at the selected word. -/
theorem taken_eq (x0 : Vec Ideal S4x512x2048 .f32) (x1 : Vec Ideal S64000x2048 .f32) (x6 : Vec Ideal S4x512 .i32)
    (sel : S4x512.Idx → Fin 64000) (hsel : ∀ y : S4x512.Idx, (x6 y).toInt = ((sel y).val : ℤ)) (a : Fin 4) (b : Fin 512) :
    val_main_v4 (F := Ideal) x0 x1 x6 (ix2 a b) = Grpo.refLogp (row x0 x1 a b) (sel (ix2 a b)) := by
  have hnn : ∀ y, 0 ≤ (x6 y).toInt := fun y => by rw [hsel y]; exact Int.natCast_nonneg _
  have hle : ∀ y, (x6 y).toInt ≤ 63999 := fun y => by rw [hsel y]; have := (sel y).isLt; omega
  rw [val_main_v4_apply, idx4_eq, val_main_v3_apply, v12_eq x6 hnn hle, v13_eq x0 x1 x6 hnn]
  refine (select_one _ _).trans ?_
  have hi : (⟨min (x6 (ix2 a b)).toInt.toNat (64000 - 1), by omega⟩ : Fin 64000) = sel (ix2 a b) := by
    refine Fin.ext ?_
    show min (x6 (ix2 a b)).toInt.toNat (64000 - 1) = (sel (ix2 a b)).val
    rw [hsel (ix2 a b), Int.toNat_natCast]
    have := (sel (ix2 a b)).isLt
    omega
  rw [hi, logsoftmax_eq]

/-! ### The loss of one token -/

/-- The reference's arithmetic after the gather is the specification's token loss: the only difference in spelling is
    a negation where the specification writes "0 - ·". -/
theorem tokenLoss_eq (logp old ref adv mask : EReal) :
    FloatOps.mulf (F := Ideal) (φ := .f32)
      (FloatOps.addf
        (FloatOps.hostNegf (FloatOps.minimumf
          (FloatOps.mulf (FloatOps.hostUnary .exp (FloatOps.subf logp old)) adv)
          (FloatOps.mulf
            (FloatOps.minimumf (FloatOps.ofBits .f32 0x3F99999A#32)
              (FloatOps.maximumf (FloatOps.ofBits .f32 0x3F4CCCCD#32) (FloatOps.hostUnary .exp (FloatOps.subf logp old))))
            adv)))
        (FloatOps.mulf (FloatOps.ofBits .f32 0x3D23D70A#32)
          (FloatOps.subf
            (FloatOps.subf (FloatOps.hostUnary .exp (FloatOps.subf ref logp)) (FloatOps.subf ref logp))
            (FloatOps.ofBits .f32 0x3F800000#32))))
      mask
    = Grpo.tokenLoss logp old ref adv mask := by
  unfold Grpo.tokenLoss
  rw [zero_sub]
  rfl

theorem idx89_eq (a : Fin 4) (b : Fin 512) : idx_main_v8 (idx_main_v9 (ix2 a b)) = ix1 a := by
  funext e; match e with | ⟨0, _⟩ => rfl
theorem idx811_eq (a : Fin 4) (b : Fin 512) : idx_main_v8 (idx_main_v11 (ix2 a b)) = ix1 a := by
  funext e; match e with | ⟨0, _⟩ => rfl

/-- The masked loss of token (a, b), in terms of what take_along_axis returned for it. -/
theorem v23_eq (x0 : Vec Ideal S4x512x2048 .f32) (x1 : Vec Ideal S64000x2048 .f32) (x2 : Vec Ideal S4x512 .f32)
    (x3 : Vec Ideal S4 .f32) (x4 x5 : Vec Ideal S4x512 .f32) (x6 : Vec Ideal S4x512 .i32) (a : Fin 4) (b : Fin 512) :
    val_main_v23 (F := Ideal) x0 x1 x2 x3 x4 x5 x6 (ix2 a b)
      = Grpo.tokenLoss (val_main_v4 (F := Ideal) x0 x1 x6 (ix2 a b)) (x4 (ix2 a b)) (x5 (ix2 a b)) (x3 (ix1 a)) (x2 (ix2 a b)) := by
  simp only [val_main_v23_apply, val_main_v22_apply, val_main_v14_apply, val_main_v13_apply, val_main_v10_apply,
    val_main_v12_apply, val_main_v7_apply, val_main_call2_v2_apply, val_main_v6_apply, val_main_v5_apply,
    val_main_v9_apply, val_main_v11_apply, val_main_v8_apply, val_main_call2_v4_apply, val_main_call2_v3_apply,
    val_main_cst_0_apply, val_main_call2_v1_apply, val_main_call2_v0_apply, val_main_cst_apply,
    val_main_v21_apply, val_main_v20_apply, val_main_cst_2_apply, val_main_v19_apply, val_main_v17_apply,
    val_main_v16_apply, val_main_v15_apply, val_main_v18_apply, val_main_cst_1_apply, idx89_eq, idx811_eq]
  exact tokenLoss_eq _ _ _ _ _

/-! ### The last step, carried whole -/

/-- From the masked token losses on, the reference is the shared last step applied to them and to the mask. -/
theorem tail_eq (x0 : Vec Ideal S4x512x2048 .f32) (x1 : Vec Ideal S64000x2048 .f32) (x2 : Vec Ideal S4x512 .f32)
    (x3 : Vec Ideal S4 .f32) (x4 x5 : Vec Ideal S4x512 .f32) (x6 : Vec Ideal S4x512 .i32) :
    val_main_v29 (F := Ideal) x0 x1 x2 x3 x4 x5 x6
      = Grpo.seqMean (val_main_v23 (F := Ideal) x0 x1 x2 x3 x4 x5 x6) x2 := by
  unfold val_main_v29 val_main_v28 val_main_v27 val_main_v26 val_main_v25 val_main_v24 val_main_call3_v1
    val_main_call3_v0 val_main_cst_7 val_main_cst_6 val_main_cst_5 val_main_cst_4 val_main_cst_3 Grpo.seqMean
  rfl

/-! ### The result -/

variable (m : (ℓ : Loc nD τ sig) → Buf (Elt Ideal) ℓ)

/-- The seven arguments as the memory holds them on device c, each at its array type. -/
abbrev b0 (c : Dev nD) : Vec Ideal S4x512x2048 .f32 := m ((c.tc : Thread nD τ).loc main_arg0)
abbrev b1 (c : Dev nD) : Vec Ideal S64000x2048 .f32 := m ((c.tc : Thread nD τ).loc main_arg1)
abbrev b2 (c : Dev nD) : Vec Ideal S4x512 .f32 := m ((c.tc : Thread nD τ).loc main_arg2)
abbrev b3 (c : Dev nD) : Vec Ideal S4 .f32 := m ((c.tc : Thread nD τ).loc main_arg3)
abbrev b4 (c : Dev nD) : Vec Ideal S4x512 .f32 := m ((c.tc : Thread nD τ).loc main_arg4)
abbrev b5 (c : Dev nD) : Vec Ideal S4x512 .f32 := m ((c.tc : Thread nD τ).loc main_arg5)
abbrev b6 (c : Dev nD) : Vec Ideal S4x512 .i32 := m ((c.tc : Thread nD τ).loc main_arg6)

/-- The reference's result as the shared last step applied to each token's loss, every id in range (sel y its value). -/
theorem result_eq (c : Dev nD) (sel : S4x512.Idx → Fin 64000)
    (hsel : ∀ y : S4x512.Idx, (b6 m c y).toInt = ((sel y).val : ℤ)) :
    Cert.ReferenceIdeal.Value.res_main_v29 (F := Ideal) m c
      = Grpo.seqMean (fun y : Grpo.T4x512.Idx =>
          Grpo.tokenLoss
            (Grpo.refLogp (fun v : Fin 64000 => ∑ k : Fin 2048,
                b0 m c (ix3 ⟨(y 0).val, idx2_lt0 y⟩ ⟨(y 1).val, idx2_lt1 y⟩ k)
                  * b1 m c (ix2 v k)) (sel y))
            (b4 m c y)
            (b5 m c y)
            (b3 m c (ix1 ⟨(y 0).val, idx2_lt0 y⟩))
            (b2 m c y))
          (b2 m c) := by
  refine (Read.val_main_v29_eq m c).trans ?_
  refine (tail_eq (b0 m c) (b1 m c) (b2 m c) (b3 m c) (b4 m c) (b5 m c) (b6 m c)).trans ?_
  refine congrArg (fun x => Grpo.seqMean x (b2 m c)) (funext fun y => ?_)
  obtain ⟨a, b, rfl⟩ : ∃ (a : Fin 4) (b : Fin 512), y = ix2 a b := ⟨y 0, y 1, eq_ix2 y⟩
  rw [v23_eq, taken_eq (b0 m c) (b1 m c) (b6 m c) sel hsel]
  rfl

end Cert.ReferenceIdeal.RefVal

end
-- ==== Proof.PreFacts.lean ====
/-
  What the printed input predicate says, as plain facts about the inputs: if the predicate evaluates to the
  one-bit word 1, then every entry of the six real-valued inputs is a real number (neither +∞ nor -∞), and
  every entry of the integer input, read as a signed number, lies in [0, 64000).
-/
import proofs.«411799_j56813827392019_3_alg».proof.Pre_finite_inputs
import Idealize.ShloMosaic.PureOps.Ideal
import Idealize.ShloMosaic.Lib.ReduceAll
import Idealize.ShloMosaic.Lib.StableHlo.Predicate
import Idealize.ShloMosaic.Lib.ValueIdx

namespace Cert.PreFacts

open Idealize.ShloMosaic Cert.Pre_finite_inputs

/-- The rank-0 shape has exactly one index. -/
instance subsingleton_rank0_idx : Subsingleton S_.Idx := ⟨fun a b => funext fun d => d.elim0⟩

/-- The 32-bit pattern with all exponent bits set and a zero fraction denotes +∞. -/
theorem inf_word : Ideal.ofBits .f32 0x7F800000#32 = (⊤ : EReal) := by simp [Ideal.ofBits, Ideal.ieee]

/-- If max x (-x) compares strictly below +∞ then x is a real number. -/
theorem real_of_abs_lt (x : EReal)
    (h : Ideal.cmp .olt (max x (-x)) (Ideal.ofBits .f32 0x7F800000#32) = 1#1) : x ≠ ⊤ ∧ x ≠ ⊥ := by
  rw [inf_word] at h
  have hlt : max x (-x) < ⊤ := by
    simpa [Ideal.cmp, StableHlo.Predicate.ofBool_eq_one_iff] using h
  rw [max_lt_iff] at hlt
  refine ⟨ne_of_lt hlt.1, ?_⟩
  rintro rfl
  simp at hlt

/-- A conjunction of two one-bit arrays that is 1 at an index has both conjuncts 1 there. -/
theorem and_split {s : Shape} (x y : IVec s 1) (i : s.Idx) (h : andi x y i = 1#1) : x i = 1#1 ∧ y i = 1#1 :=
  IntOp.andi_eq_one.1 h

/-- "All entries satisfy |x| < +∞" being true makes every entry a real number. -/
theorem float_all {s : Shape} {axes : List (Fin s.rank)} (dims : Fin S_.rank → Fin s.rank) (hb : S_.BroadcastsInDim s dims)
    (hr : s.ReducesTo axes S_) (h0 : 0 < S_.numel) (x : FVec Ideal s .f32)
    (e : Host.reduce IntOp.andi (cmpf .olt (Host.absf x) (broadcastInDim s dims hb (constant (F := Ideal) S_ .f32 0x7F800000#32)))
      (constantI S_ 1 1#1) hr h0 ValueIdx.ix0 = 1#1) (i : s.Idx) : x i ≠ ⊤ ∧ x i ≠ ⊥ := by
  have hi := Host.reduce_andi_all _ _ hr h0 _ e i
  exact real_of_abs_lt (x i) hi

/-- "All entries are ≥ 0 (signed)" being true gives the bound at every entry. -/
theorem int_ge_all {s : Shape} {axes : List (Fin s.rank)} (dims : Fin S_.rank → Fin s.rank) (hb : S_.BroadcastsInDim s dims)
    (hr : s.ReducesTo axes S_) (h0 : 0 < S_.numel) (x : IVec s 32)
    (e : Host.reduce IntOp.andi (cmpi .sge x (broadcastInDim s dims hb (constantI S_ 32 0#32)))
      (constantI S_ 1 1#1) hr h0 ValueIdx.ix0 = 1#1) (i : s.Idx) : 0 ≤ (x i).toInt := by
  have hi : IntOp.cmpi .sge (x i) 0#32 = 1#1 := Host.reduce_andi_all _ _ hr h0 _ e i
  rw [IntOp.cmpi_sge] at hi
  exact hi

/-- "All entries are < 64000 (signed)" being true gives the bound at every entry. -/
theorem int_lt_all {s : Shape} {axes : List (Fin s.rank)} (dims : Fin S_.rank → Fin s.rank) (hb : S_.BroadcastsInDim s dims)
    (hr : s.ReducesTo axes S_) (h0 : 0 < S_.numel) (x : IVec s 32)
    (e : Host.reduce IntOp.andi (cmpi .slt x (broadcastInDim s dims hb (constantI S_ 32 64000#32)))
      (constantI S_ 1 1#1) hr h0 ValueIdx.ix0 = 1#1) (i : s.Idx) : (x i).toInt < 64000 := by
  have hi : IntOp.cmpi .slt (x i) 64000#32 = 1#1 := Host.reduce_andi_all _ _ hr h0 _ e i
  rw [IntOp.cmpi_slt] at hi
  exact hi

open Idealize.ShloMosaic Cert.Pre_finite_inputs in
theorem of_pre [Cert.Pre_finite_inputs.Facts] (a0 : FVec Ideal S4x512x2048 .f32) (a1 : FVec Ideal S64000x2048 .f32) (a2 : FVec Ideal S4x512 .f32)
    (a3 : FVec Ideal S4 .f32) (a4 a5 : FVec Ideal S4x512 .f32) (a6 : IVec S4x512 32)
    (h : Cert.Pre_finite_inputs.fn (F := Ideal) a0 a1 a2 a3 a4 a5 a6 = (fun _ => 1#1)) :
    (∀ i, a0 i ≠ ⊤ ∧ a0 i ≠ ⊥) ∧ (∀ i, a1 i ≠ ⊤ ∧ a1 i ≠ ⊥) ∧ (∀ i, a2 i ≠ ⊤ ∧ a2 i ≠ ⊥) ∧ (∀ i, a3 i ≠ ⊤ ∧ a3 i ≠ ⊥)
      ∧ (∀ i, a4 i ≠ ⊤ ∧ a4 i ≠ ⊥) ∧ (∀ i, a5 i ≠ ⊤ ∧ a5 i ≠ ⊥) ∧ (∀ i, 0 ≤ (a6 i).toInt ∧ (a6 i).toInt < 64000) := by
  have h36 := congrFun h ValueIdx.ix0
  dsimp only [fn, fn_part1, fn_part2] at h36
  obtain ⟨h32, h35⟩ := and_split _ _ _ h36
  obtain ⟨h28, h31⟩ := and_split _ _ _ h32
  obtain ⟨h23, h27⟩ := and_split _ _ _ h28
  obtain ⟨h18, h22⟩ := and_split _ _ _ h23
  obtain ⟨h13, h17⟩ := and_split _ _ _ h18
  obtain ⟨h8, h12⟩ := and_split _ _ _ h13
  obtain ⟨h3, h7⟩ := and_split _ _ _ h8
  exact ⟨float_all _ _ _ _ a0 h3, float_all _ _ _ _ a1 h7, float_all _ _ _ _ a2 h12, float_all _ _ _ _ a3 h17,
    float_all _ _ _ _ a4 h22, float_all _ _ _ _ a5 h27,
    fun i => ⟨int_ge_all _ _ _ _ a6 h31 i, int_lt_all _ _ _ _ a6 h35 i⟩⟩

end Cert.PreFacts
-- ==== Proof.KDefs.lean ====
/-
  Names for what the tiled program's one region reads and what it leaves, at the extended reals.

  The region stages seven arrays: the hidden rows (2048 tokens by 2048 features), the vocabulary rows (64000 words by
  2048 features), and five columns of 2048 entries (the selected word of each token, the old and the reference
  log-probabilities, the advantage and the mask of each token). Row ρ's logits are the dot products of hidden row ρ
  with every vocabulary row. The region's output column holds, for every token, the loss formed from the state the
  scan of its row of logits ends in.
-/
import proofs.«411799_j56813827392019_3_alg».proof.Proof.Gen.KernelIdeal.Frame
import proofs.«411799_j56813827392019_3_alg».proof.Proof.Spec
import Idealize.ShloMosaic.Lib.ValueIdx

noncomputable section

open scoped BigOperators

namespace Cert.KernelIdeal.KVal

open Idealize.ShloMosaic Idealize.ShloMosaic.ValueIdx Idealize.SL.Sem Cert.KernelIdeal Cert.KernelIdeal.Gen

variable (m : (ℓ : Loc nD τ sig) → Buf (Elt Ideal) ℓ)

/-- The hidden rows as the region finds them. -/
abbrev hidA (c : Dev nD) : Vec Ideal S2048x2048 .bf16 := V m c main_v1
/-- The vocabulary rows as the region finds them. -/
abbrev wgtA (c : Dev nD) : Vec Ideal S64000x2048 .bf16 := V m c main_v2
/-- The selected word of each token. -/
abbrev idsA (c : Dev nD) : Vec Ideal S2048x1 .i32 := V m c main_v4
/-- The old policy's log-probability of each token. -/
abbrev oldA (c : Dev nD) : Vec Ideal S2048x1 .f32 := V m c main_v5
/-- The reference policy's log-probability of each token. -/
abbrev refA (c : Dev nD) : Vec Ideal S2048x1 .f32 := V m c main_v6
/-- The advantage of each token's sequence. -/
abbrev advA (c : Dev nD) : Vec Ideal S2048x1 .f32 := V m c main_v9
/-- The mask of each token. -/
abbrev mskA (c : Dev nD) : Vec Ideal S2048x1 .f32 := V m c main_v10

/-- Row ρ's logits as a function of the word's number (0 past the vocabulary's end). -/
def xrow (c : Dev nD) (ρ : Fin 2048) : ℕ → EReal :=
  fun v => if h : v < 64000 then ∑ k : Fin 2048, hidA m c (ix2 ρ k) * wgtA m c (ix2 ⟨v, h⟩ k) else 0

/-- The scan's state for token ρ after tile j of its row. -/
def stK (c : Dev nD) (ρ : Fin 2048) (j : ℕ) : EReal × EReal × EReal :=
  Grpo.st (xrow m c ρ) (idsA m c (ix2 ρ 0)) j

/-- Token ρ's loss as the region leaves it. -/
def lossK (c : Dev nD) (ρ : Fin 2048) : EReal :=
  Grpo.tokenLoss (Grpo.logpOfState (stK m c ρ 19)) (oldA m c (ix2 ρ 0)) (refA m c (ix2 ρ 0)) (advA m c (ix2 ρ 0)) (mskA m c (ix2 ρ 0))

end Cert.KernelIdeal.KVal

end
-- ==== Proof.KHost.lean ====
/-
  The seven staged arrays in terms of the program's argument arrays.

  Before the tiled region runs, the program lays its arguments out token by token. Token ρ = b · 512 + s is position s of
  sequence b (4 sequences of 512 positions). The hidden states [4, 512, 2048] are flattened to 2048 rows and narrowed
  to the 16-bit format, the vocabulary rows are narrowed likewise; at the extended reals a narrowing changes nothing.
  The selected words [4, 512] are first clipped into 0 … 63999 (a signed maximum with 0, then a signed minimum with
  63999) and then flattened to a column; the old and the reference log-probabilities and the mask are flattened to
  columns; the advantage, one number per sequence, is repeated along its sequence's 512 positions and flattened.
  A flattening keeps the row-major position, and b · 512 + s is the row-major position of (b, s).
-/
import proofs.«411799_j56813827392019_3_alg».proof.Proof.KDefs
import Idealize.ShloMosaic.Lib.Pipeline.Value
import Idealize.ShloMosaic.Lib.StableHlo.Run

noncomputable section

namespace Cert.KernelIdeal.KVal

open Idealize.ShloMosaic Idealize.ShloMosaic.ValueIdx Idealize.SL.Sem Cert.KernelIdeal Cert.KernelIdeal.Gen
open Idealize.ShloMosaic.StableHlo Idealize.ShloMosaic.TcCoe

variable (m : (ℓ : Loc nD τ sig) → Buf (Elt Ideal) ℓ)

/-- Position s of sequence b and token b · 512 + s of the flattened column have the same row-major position. -/
theorem rowMajor_token (b : Fin 4) (s : Fin 512) (h : b.val * 512 + s.val < 2048) :
    (S4x512.rowMajor (ix2 b s)).val = (S2048x1.rowMajor (ix2 ⟨b.val * 512 + s.val, h⟩ 0)).val := by
  rw [Shape.rowMajor_val_two, Shape.rowMajor_val_two]
  show b.val * 512 + s.val = (b.val * 512 + s.val) * 1 + 0
  omega

/-- The hidden rows: the hidden states flattened, then narrowed. -/
theorem hidA_eq (c : Dev nD) : (V m c main_v1 : S2048x2048.Idx → EReal) =
    (truncf .bf16 (shapeCast S2048x2048 (m ((c : Thread nD τ).loc main_arg0) : Vec Ideal S4x512x2048 .f32) shapeCasts_S4x512x2048_S2048x2048) bitsLt_bf16_f32 : FVec Ideal S2048x2048 .bf16) := by
  dsimp only [Gen.V, Gen.V0]
  simp only [Gen.hostOps0, Gen.hostOps0_1, Gen.hostOps0_2, List.flatten_cons, List.flatten_nil, List.append_nil, List.cons_append, List.nil_append]
  after_results
  rfl

/-- Feature k of token b · 512 + s is the hidden state at (b, s, k). -/
theorem hidA_apply (c : Dev nD) (b : Fin 4) (s : Fin 512) (k : Fin 2048) (h : b.val * 512 + s.val < 2048) :
    hidA m c (ix2 ⟨b.val * 512 + s.val, h⟩ k) = (m ((c : Thread nD τ).loc main_arg0) : Vec Ideal S4x512x2048 .f32) (ix3 b s k) := by
  show V m c main_v1 (ix2 ⟨b.val * 512 + s.val, h⟩ k) = _
  rw [hidA_eq, truncf_apply]
  refine shapeCast_apply _ _ _ _ ?_
  show (S4x512x2048.rowMajor (ix3 b s k)).val = (S2048x2048.rowMajor (ix2 ⟨b.val * 512 + s.val, h⟩ k)).val
  rw [Shape.rowMajor_val_two, Shape.rowMajor_val_three]
  rfl

/-- The vocabulary rows: the argument narrowed. -/
theorem wgtA_eq (c : Dev nD) : (V m c main_v2 : S64000x2048.Idx → EReal) =
    (truncf .bf16 (m ((c : Thread nD τ).loc main_arg1) : Vec Ideal S64000x2048 .f32) bitsLt_bf16_f32 : FVec Ideal S64000x2048 .bf16) := by
  dsimp only [Gen.V, Gen.V0]
  simp only [Gen.hostOps0, Gen.hostOps0_1, Gen.hostOps0_2, List.flatten_cons, List.flatten_nil, List.append_nil, List.cons_append, List.nil_append]
  after_results

/-- Entry by entry they are the argument's. -/
theorem wgtA_apply (c : Dev nD) (i : S64000x2048.Idx) : wgtA m c i = (m ((c : Thread nD τ).loc main_arg1) : Vec Ideal S64000x2048 .f32) i := by
  show V m c main_v2 i = _
  rw [wgtA_eq, truncf_apply]

/-- The selected words: the argument clipped from below by 0 and from above by 63999, then flattened. -/
theorem idsA_eq (c : Dev nD) : (V m c main_v4 : S2048x1.Idx → BitVec 32) =
    shapeCast S2048x1 (minsi (broadcastInDim S4x512 ![] bcast_S_S4x512 (constantI S_ 32 63999#32))
      (maxsi (broadcastInDim S4x512 ![] bcast_S_S4x512 (constantI S_ 32 0#32)) (m ((c : Thread nD τ).loc main_arg6) : Vec Ideal S4x512 .i32))) shapeCasts_S4x512_S2048x1 := by
  dsimp only [Gen.V, Gen.V0]
  simp only [Gen.hostOps0, Gen.hostOps0_1, Gen.hostOps0_2, List.flatten_cons, List.flatten_nil, List.append_nil, List.cons_append, List.nil_append]
  after_results
  rfl

/-- Token b · 512 + s's selected word is the clipped word at (b, s). -/
theorem idsA_apply (c : Dev nD) (b : Fin 4) (s : Fin 512) (h : b.val * 512 + s.val < 2048) :
    idsA m c (ix2 ⟨b.val * 512 + s.val, h⟩ 0) = IntOp.minsi 63999#32 (IntOp.maxsi 0#32 ((m ((c : Thread nD τ).loc main_arg6) : Vec Ideal S4x512 .i32) (ix2 b s))) := by
  show V m c main_v4 (ix2 ⟨b.val * 512 + s.val, h⟩ 0) = _
  rw [idsA_eq]
  refine (shapeCast_apply _ _ _ (ix2 b s) (rowMajor_token b s h)).trans ?_
  rfl

/-- The old log-probabilities: the argument flattened. -/
theorem oldA_eq (c : Dev nD) : (V m c main_v5 : S2048x1.Idx → EReal) =
    shapeCast S2048x1 (m ((c : Thread nD τ).loc main_arg4) : Vec Ideal S4x512 .f32) shapeCasts_S4x512_S2048x1 := by
  dsimp only [Gen.V, Gen.V0]
  simp only [Gen.hostOps0, Gen.hostOps0_1, Gen.hostOps0_2, List.flatten_cons, List.flatten_nil, List.append_nil, List.cons_append, List.nil_append]
  after_results
  rfl

/-- Token b · 512 + s's is the argument's at (b, s). -/
theorem oldA_apply (c : Dev nD) (b : Fin 4) (s : Fin 512) (h : b.val * 512 + s.val < 2048) :
    oldA m c (ix2 ⟨b.val * 512 + s.val, h⟩ 0) = (m ((c : Thread nD τ).loc main_arg4) : Vec Ideal S4x512 .f32) (ix2 b s) := by
  show V m c main_v5 (ix2 ⟨b.val * 512 + s.val, h⟩ 0) = _
  rw [oldA_eq]
  exact shapeCast_apply _ _ _ _ (rowMajor_token b s h)

/-- The reference log-probabilities: the argument flattened. -/
theorem refA_eq (c : Dev nD) : (V m c main_v6 : S2048x1.Idx → EReal) =
    shapeCast S2048x1 (m ((c : Thread nD τ).loc main_arg5) : Vec Ideal S4x512 .f32) shapeCasts_S4x512_S2048x1 := by
  dsimp only [Gen.V, Gen.V0]
  simp only [Gen.hostOps0, Gen.hostOps0_1, Gen.hostOps0_2, List.flatten_cons, List.flatten_nil, List.append_nil, List.cons_append, List.nil_append]
  after_results
  rfl

/-- Token b · 512 + s's is the argument's at (b, s). -/
theorem refA_apply (c : Dev nD) (b : Fin 4) (s : Fin 512) (h : b.val * 512 + s.val < 2048) :
    refA m c (ix2 ⟨b.val * 512 + s.val, h⟩ 0) = (m ((c : Thread nD τ).loc main_arg5) : Vec Ideal S4x512 .f32) (ix2 b s) := by
  show V m c main_v6 (ix2 ⟨b.val * 512 + s.val, h⟩ 0) = _
  rw [refA_eq]
  exact shapeCast_apply _ _ _ _ (rowMajor_token b s h)

/-- The mask: the argument flattened. -/
theorem mskA_eq (c : Dev nD) : (V m c main_v10 : S2048x1.Idx → EReal) =
    shapeCast S2048x1 (m ((c : Thread nD τ).loc main_arg2) : Vec Ideal S4x512 .f32) shapeCasts_S4x512_S2048x1 := by
  dsimp only [Gen.V, Gen.V0]
  simp only [Gen.hostOps0, Gen.hostOps0_1, Gen.hostOps0_2, List.flatten_cons, List.flatten_nil, List.append_nil, List.cons_append, List.nil_append]
  after_results
  rfl

/-- Token b · 512 + s's is the argument's at (b, s). -/
theorem mskA_apply (c : Dev nD) (b : Fin 4) (s : Fin 512) (h : b.val * 512 + s.val < 2048) :
    mskA m c (ix2 ⟨b.val * 512 + s.val, h⟩ 0) = (m ((c : Thread nD τ).loc main_arg2) : Vec Ideal S4x512 .f32) (ix2 b s) := by
  show V m c main_v10 (ix2 ⟨b.val * 512 + s.val, h⟩ 0) = _
  rw [mskA_eq]
  exact shapeCast_apply _ _ _ _ (rowMajor_token b s h)

/-- The advantages: one number per sequence, given a unit axis, repeated along the 512 positions, flattened. -/
theorem advA_eq (c : Dev nD) : (V m c main_v9 : S2048x1.Idx → EReal) =
    shapeCast S2048x1 (broadcastInDim S4x512 ![0, 1] bcast_S4x1_S4x512_0_1 (broadcastInDim S4x1 ![0] bcast_S4_S4x1_0 (m ((c : Thread nD τ).loc main_arg3) : Vec Ideal S4 .f32))) shapeCasts_S4x512_S2048x1 := by
  dsimp only [Gen.V, Gen.V0]
  simp only [Gen.hostOps0, Gen.hostOps0_1, Gen.hostOps0_2, List.flatten_cons, List.flatten_nil, List.append_nil, List.cons_append, List.nil_append]
  after_results
  rfl

/-- Token b · 512 + s's advantage is sequence b's. -/
theorem advA_apply (c : Dev nD) (b : Fin 4) (s : Fin 512) (h : b.val * 512 + s.val < 2048) :
    advA m c (ix2 ⟨b.val * 512 + s.val, h⟩ 0) = (m ((c : Thread nD τ).loc main_arg3) : Vec Ideal S4 .f32) (ix1 b) := by
  show V m c main_v9 (ix2 ⟨b.val * 512 + s.val, h⟩ 0) = _
  rw [advA_eq]
  refine (shapeCast_apply _ _ _ (ix2 b s) (rowMajor_token b s h)).trans ?_
  refine (broadcastInDim_apply (s := S4x1) (t := S4x512) _ _ _ (ix2 b s) (ix2 b 0) ?_).trans ?_
  · intro a
    match a with
    | ⟨0, _⟩ => rfl
    | ⟨1, _⟩ => rfl
  refine broadcastInDim_apply (s := S4) (t := S4x1) _ _ _ (ix2 b 0) (ix1 b) ?_
  intro a
  match a with
  | ⟨0, _⟩ => rfl

end Cert.KernelIdeal.KVal

end
-- ==== Proof.KPieces.lean ====
/-
  What one grid step leaves behind, read as values.

  The grid walks the column tiles of each row block. Three per-row running quantities are carried from tile
  to tile in three buffers: a running maximum, a running sum of exponentials taken relative to that maximum,
  and a running sum of the entries picked out by the token ids. At the first tile of a row block the three are
  reset (to -infinity, 0 and 0) and then updated from the tile; at every other tile they are updated from what
  the tile before left; at the last tile the output block is moreover computed from the three updated
  quantities and four further per-row inputs.

  Each statement below says: the buffer (or the output block), after the step, holds exactly the named
  function of the step's input blocks and of the carried values. The functions themselves stay closed here; no
  arithmetic is done. The proofs only read the writes back: every write covers its whole buffer, so the last
  one decides the contents, and every read of a buffer sees either the block handed in or the covering write
  made earlier in the same step.
-/
import proofs.«411799_j56813827392019_3_alg».proof.Proof.Gen.KernelIdeal.Frame
import Idealize.ShloMosaic.Lib.Pipeline.Value

noncomputable section

namespace Cert.KernelIdeal.KPieces

open Idealize.ShloMosaic Idealize.ShloMosaic.Tactic Cert.KernelIdeal Cert.KernelIdeal.Gen

variable {F : FTy → Type} [FloatOps F]

/-- The offset of a block that starts at the origin of a two-axis buffer is the zero offset. -/
private theorem hz : (![0, 0] : Fin 2 → Nat) = fun _ => 0 := funext fun a => by fin_cases a <;> rfl

/-! ## First tile of a row block: the three running buffers are reset, then updated -/

/-- First tile, running maximum: the reset value is written, read back, and updated with the tile's row maxima. -/
theorem sout_A_0 (c : Dev nD) (i : grid0.Coords) (arg2 : Memref sig .tc .vmem S1024x2048 .bf16) (harg2 : arg2.IsWhole) (arg3 : Memref sig .tc .vmem S3200x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : cond0_0 i) (hc1 : ¬cond0_1 i) (x0 : Vec F S1024x2048 .bf16) (x1 : Vec F S3200x2048 .bf16) (x2 : Vec F S1024x1 .i32) (x3 : Vec F S1024x1 .f32) (x4 : Vec F S1024x1 .f32) (x5 : Vec F S1024x1 .f32) (x6 : Vec F S1024x1 .f32) :
    sout0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 = k0_pay11 x0 x1 (k0_pay4 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2 x3 x4 x5 x6)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread, harg5.read_unread, harg6.read_unread, harg7.read_unread, harg8.read_unread, harg10.read_unread, harg11.read_unread, harg12.read_unread, View.ld_unit_zero (S := S1024x1) hz, View.ld_unit_zero (S := S1024x2048) hz, View.ld_unit_zero (S := S3200x2048) hz, View.readCov_unit_zero (S := S1024x1) _ hz]

/-- First tile, running sum of exponentials: updated from the reset maximum and the reset sum. -/
theorem sout_A_1 (c : Dev nD) (i : grid0.Coords) (arg2 : Memref sig .tc .vmem S1024x2048 .bf16) (harg2 : arg2.IsWhole) (arg3 : Memref sig .tc .vmem S3200x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : cond0_0 i) (hc1 : ¬cond0_1 i) (x0 : Vec F S1024x2048 .bf16) (x1 : Vec F S3200x2048 .bf16) (x2 : Vec F S1024x1 .i32) (x3 : Vec F S1024x1 .f32) (x4 : Vec F S1024x1 .f32) (x5 : Vec F S1024x1 .f32) (x6 : Vec F S1024x1 .f32) :
    sout0_A_1 c i arg2 harg2 arg3 harg3 arg4 harg4 arg5 harg5 arg6 harg6 arg7 harg7 arg8 harg8 arg9 harg9 arg10 harg10 arg11 harg11 arg12 harg12 hc0 hc1 x0 x1 x2 x3 x4 x5 x6 = k0_pay1 (k0_pay10 x0 x1 (k0_pay4 (F := F)) (k0_pay5 (F := F))) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 hc1 x0 x1 x2 x3 x4 x5 x6)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread, harg5.read_unread, harg6.read_unread, harg7.read_unread, harg8.read_unread, harg10.read_unread, harg11.read_unread, harg12.read_unread, View.ld_unit_zero (S := S1024x1) hz, View.ld_unit_zero (S := S1024x2048) hz, View.ld_unit_zero (S := S3200x2048) hz, View.readCov_unit_zero (S := S1024x1) _ hz]

/-- First tile, running picked sum: the tile's picked entries added to the reset value. -/
theorem sout_A_2 (c : Dev nD) (i : grid0.Coords) (arg2 : Memref sig .tc .vmem S1024x2048 .bf16) (harg2 : arg2.IsWhole) (arg3 : Memref sig .tc .vmem S3200x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : cond0_0 i) (hc1 : ¬cond0_1 i) (x0 : Vec F S1024x2048 .bf16) (x1 : Vec F S3200x2048 .bf16) (x2 : Vec F S1024x1 .i32) (x3 : Vec F S1024x1 .f32) (x4 : Vec F S1024x1 .f32) (x5 : Vec F S1024x1 .f32) (x6 : Vec F S1024x1 .f32) :
    sout0_A_2 c i arg2 harg2 arg3 harg3 arg4 harg4 arg5 harg5 arg6 harg6 arg7 harg7 arg8 harg8 arg9 harg9 arg10 harg10 arg11 harg11 arg12 harg12 hc0 hc1 x0 x1 x2 x3 x4 x5 x6 = k0_pay2 (k0_pay8 i x0 x1 x2) (k0_pay6 (F := F)) := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 hc0 hc1 x0 x1 x2 x3 x4 x5 x6)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread, harg5.read_unread, harg6.read_unread, harg7.read_unread, harg8.read_unread, harg10.read_unread, harg11.read_unread, harg12.read_unread, View.ld_unit_zero (S := S1024x1) hz, View.ld_unit_zero (S := S1024x2048) hz, View.ld_unit_zero (S := S3200x2048) hz, View.readCov_unit_zero (S := S1024x1) _ hz]

/-! ## A middle tile: each running buffer is updated from what the tile before left -/

/-- Middle tile, running maximum: the carried maximum updated with the tile's row maxima. -/
theorem sout_B_0 (c : Dev nD) (i : grid0.Coords) (arg2 : Memref sig .tc .vmem S1024x2048 .bf16) (harg2 : arg2.IsWhole) (arg3 : Memref sig .tc .vmem S3200x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : ¬cond0_0 i) (hc1 : ¬cond0_1 i) (x0 : Vec F S1024x2048 .bf16) (x1 : Vec F S3200x2048 .bf16) (x2 : Vec F S1024x1 .i32) (x3 : Vec F S1024x1 .f32) (x4 : Vec F S1024x1 .f32) (x5 : Vec F S1024x1 .f32) (x6 : Vec F S1024x1 .f32) (xs0 xs1 xs2 : Vec F S1024x1 .f32) :
    sout0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 = k0_pay11 x0 x1 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg10.read_unread, harg11.read_unread, harg12.read_unread, View.ld_unit_zero (S := S1024x1) hz, View.ld_unit_zero (S := S1024x2048) hz, View.ld_unit_zero (S := S3200x2048) hz, View.readCov_unit_zero (S := S1024x1) _ hz]

/-- Middle tile, running sum of exponentials: rescaled to the new maximum and increased by the tile's sum;
    it is computed from the carried maximum and the carried sum, not from the maximum just written. -/
theorem sout_B_1 (c : Dev nD) (i : grid0.Coords) (arg2 : Memref sig .tc .vmem S1024x2048 .bf16) (harg2 : arg2.IsWhole) (arg3 : Memref sig .tc .vmem S3200x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : ¬cond0_0 i) (hc1 : ¬cond0_1 i) (x0 : Vec F S1024x2048 .bf16) (x1 : Vec F S3200x2048 .bf16) (x2 : Vec F S1024x1 .i32) (x3 : Vec F S1024x1 .f32) (x4 : Vec F S1024x1 .f32) (x5 : Vec F S1024x1 .f32) (x6 : Vec F S1024x1 .f32) (xs0 xs1 xs2 : Vec F S1024x1 .f32) :
    sout0_B_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 = k0_pay1 (k0_pay10 x0 x1 xs0 xs1) := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg10.read_unread, harg11.read_unread, harg12.read_unread, View.ld_unit_zero (S := S1024x1) hz, View.ld_unit_zero (S := S1024x2048) hz, View.ld_unit_zero (S := S3200x2048) hz, View.readCov_unit_zero (S := S1024x1) _ hz]

/-- Middle tile, running picked sum: the tile's picked entries added to the carried value. -/
theorem sout_B_2 (c : Dev nD) (i : grid0.Coords) (arg2 : Memref sig .tc .vmem S1024x2048 .bf16) (harg2 : arg2.IsWhole) (arg3 : Memref sig .tc .vmem S3200x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : ¬cond0_0 i) (hc1 : ¬cond0_1 i) (x0 : Vec F S1024x2048 .bf16) (x1 : Vec F S3200x2048 .bf16) (x2 : Vec F S1024x1 .i32) (x3 : Vec F S1024x1 .f32) (x4 : Vec F S1024x1 .f32) (x5 : Vec F S1024x1 .f32) (x6 : Vec F S1024x1 .f32) (xs0 xs1 xs2 : Vec F S1024x1 .f32) :
    sout0_B_2 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 = k0_pay2 (k0_pay8 i x0 x1 x2) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg10.read_unread, harg11.read_unread, harg12.read_unread, View.ld_unit_zero (S := S1024x1) hz, View.ld_unit_zero (S := S1024x2048) hz, View.ld_unit_zero (S := S3200x2048) hz, View.readCov_unit_zero (S := S1024x1) _ hz]

/-! ## The last tile: the same update, and the output block computed from the updated buffers -/

/-- Last tile, running maximum: as at a middle tile. -/
theorem sout_C_0 (c : Dev nD) (i : grid0.Coords) (arg2 : Memref sig .tc .vmem S1024x2048 .bf16) (harg2 : arg2.IsWhole) (arg3 : Memref sig .tc .vmem S3200x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : ¬cond0_0 i) (hc1 : cond0_1 i) (x0 : Vec F S1024x2048 .bf16) (x1 : Vec F S3200x2048 .bf16) (x2 : Vec F S1024x1 .i32) (x3 : Vec F S1024x1 .f32) (x4 : Vec F S1024x1 .f32) (x5 : Vec F S1024x1 .f32) (x6 : Vec F S1024x1 .f32) (xs0 xs1 xs2 : Vec F S1024x1 .f32) :
    sout0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 = k0_pay11 x0 x1 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg10.read_unread, harg11.read_unread, harg12.read_unread, View.ld_unit_zero (S := S1024x1) hz, View.ld_unit_zero (S := S1024x2048) hz, View.ld_unit_zero (S := S3200x2048) hz, View.readCov_unit_zero (S := S1024x1) _ hz]

/-- Last tile, running sum of exponentials: as at a middle tile. -/
theorem sout_C_1 (c : Dev nD) (i : grid0.Coords) (arg2 : Memref sig .tc .vmem S1024x2048 .bf16) (harg2 : arg2.IsWhole) (arg3 : Memref sig .tc .vmem S3200x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : ¬cond0_0 i) (hc1 : cond0_1 i) (x0 : Vec F S1024x2048 .bf16) (x1 : Vec F S3200x2048 .bf16) (x2 : Vec F S1024x1 .i32) (x3 : Vec F S1024x1 .f32) (x4 : Vec F S1024x1 .f32) (x5 : Vec F S1024x1 .f32) (x6 : Vec F S1024x1 .f32) (xs0 xs1 xs2 : Vec F S1024x1 .f32) :
    sout0_C_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 = k0_pay1 (k0_pay10 x0 x1 xs0 xs1) := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg10.read_unread, harg11.read_unread, harg12.read_unread, View.ld_unit_zero (S := S1024x1) hz, View.ld_unit_zero (S := S1024x2048) hz, View.ld_unit_zero (S := S3200x2048) hz, View.readCov_unit_zero (S := S1024x1) _ hz]

/-- Last tile, running picked sum: as at a middle tile. -/
theorem sout_C_2 (c : Dev nD) (i : grid0.Coords) (arg2 : Memref sig .tc .vmem S1024x2048 .bf16) (harg2 : arg2.IsWhole) (arg3 : Memref sig .tc .vmem S3200x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : ¬cond0_0 i) (hc1 : cond0_1 i) (x0 : Vec F S1024x2048 .bf16) (x1 : Vec F S3200x2048 .bf16) (x2 : Vec F S1024x1 .i32) (x3 : Vec F S1024x1 .f32) (x4 : Vec F S1024x1 .f32) (x5 : Vec F S1024x1 .f32) (x6 : Vec F S1024x1 .f32) (xs0 xs1 xs2 : Vec F S1024x1 .f32) :
    sout0_C_2 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 = k0_pay2 (k0_pay8 i x0 x1 x2) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg10.read_unread, harg11.read_unread, harg12.read_unread, View.ld_unit_zero (S := S1024x1) hz, View.ld_unit_zero (S := S1024x2048) hz, View.ld_unit_zero (S := S3200x2048) hz, View.readCov_unit_zero (S := S1024x1) _ hz]

/-- Last tile, output block: computed from the three quantities as just updated (each read back from its
    buffer after the update was written) and from the four per-row inputs. -/
theorem out_C_7 (c : Dev nD) (i : grid0.Coords) (arg2 : Memref sig .tc .vmem S1024x2048 .bf16) (harg2 : arg2.IsWhole) (arg3 : Memref sig .tc .vmem S3200x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : ¬cond0_0 i) (hc1 : cond0_1 i) (x0 : Vec F S1024x2048 .bf16) (x1 : Vec F S3200x2048 .bf16) (x2 : Vec F S1024x1 .i32) (x3 : Vec F S1024x1 .f32) (x4 : Vec F S1024x1 .f32) (x5 : Vec F S1024x1 .f32) (x6 : Vec F S1024x1 .f32) (xs0 xs1 xs2 : Vec F S1024x1 .f32) :
    out0_C_7 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 = k0_pay3 (k0_pay11 x0 x1 xs0) (k0_pay1 (k0_pay10 x0 x1 xs0 xs1)) (k0_pay2 (k0_pay8 i x0 x1 x2) xs2) x3 x4 x5 x6 := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg10.read_unread, harg11.read_unread, harg12.read_unread, View.ld_unit_zero (S := S1024x1) hz, View.ld_unit_zero (S := S1024x2048) hz, View.ld_unit_zero (S := S3200x2048) hz, View.readCov_unit_zero (S := S1024x1) _ hz]

end Cert.KernelIdeal.KPieces

end
-- ==== Proof.LibRowsDot.lean ====
/-
  A matrix product of an M-by-K array with an N-by-K array, both contracted on their last axis, read at an entry.

  With dimension numbers "columns of the left against columns of the right, no batch axis", the operand indices
  at result entry (r, c) and contraction position k are (r, k) on the left and (c, k) on the right: each result
  entry is the dot product of a row of the left with a row of the right. So, over the extended reals, a product
  accumulated into the zero array and a host dot_general are both  ∑ k, lhs (r, k) * rhs (c, k).  Stated for any
  dimension record of that form, whatever its extents.
-/
import Idealize.ShloMosaic.Lib.ValueIdx
import Idealize.ShloMosaic.PureOps.Ideal.Laws

noncomputable section

namespace Idealize.ShloMosaic.RowsDot

open Idealize.ShloMosaic Idealize.ShloMosaic.ValueIdx

variable {M K N : Nat}

/-- The dimension numbers of an M×K by N×K product, rows against rows: last axis against last axis, nothing batched. -/
structure IsRowsByRows (d : DotDims (⟨2, ![M, K]⟩ : Shape) (⟨2, ![N, K]⟩ : Shape) (⟨2, ![M, N]⟩ : Shape)) : Prop where
  lc : d.lhsContracting = [1]
  rc : d.rhsContracting = [1]
  ln : d.lhsNonContracting = [0]
  rn : d.rhsNonContracting = [0]
  lb : d.lhsBatch = []
  rb : d.rhsBatch = []

variable {d : DotDims (⟨2, ![M, K]⟩ : Shape) (⟨2, ![N, K]⟩ : Shape) (⟨2, ![M, N]⟩ : Shape)}

/-- One axis is contracted. -/
theorem IsRowsByRows.rank_contr (h : IsRowsByRows d) : d.contr.rank = 1 := by
  rw [d.rank_contr, h.lc]; rfl

/-- Its extent is K. -/
theorem IsRowsByRows.size_contr (h : IsRowsByRows d) : d.contr.size ⟨0, by rw [h.rank_contr]; exact Nat.one_pos⟩ = K := by
  have e := d.size_contr 0 (by rw [h.lc]; exact Nat.one_pos)
  rw [e]
  simp only [h.lc, List.getElem_cons_zero]
  rfl

/-- A result index read at two positions that are the same number is the same coordinate. -/
private theorem coord_congr (j : (⟨2, ![M, N]⟩ : Shape).Idx) (p q : Nat) (hp : p < (⟨2, ![M, N]⟩ : Shape).rank)
    (hq : q < (⟨2, ![M, N]⟩ : Shape).rank) (e : p = q) : (j ⟨p, hp⟩).val = (j ⟨q, hq⟩).val := by
  subst e; rfl

/-- The left operand's row is the result's row. -/
theorem IsRowsByRows.lhs_row (h : IsRowsByRows d) (j : (⟨2, ![M, N]⟩ : Shape).Idx) (k : d.contr.Idx) :
    (d.lhsIdx j k 0).val = (j 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  exact coord_congr j _ _ _ _ (by simp [h.lb, h.ln])

/-- The left operand's column is the contraction position. -/
theorem IsRowsByRows.lhs_col (h : IsRowsByRows d) (j : (⟨2, ![M, N]⟩ : Shape).Idx) (k : d.contr.Idx) :
    (d.lhsIdx j k 1).val = (k ⟨0, by rw [h.rank_contr]; exact Nat.one_pos⟩).val :=
  d.lhsIdx_val_of_single h.lc j k

/-- The right operand's row is the result's column. -/
theorem IsRowsByRows.rhs_row (h : IsRowsByRows d) (j : (⟨2, ![M, N]⟩ : Shape).Idx) (k : d.contr.Idx) :
    (d.rhsIdx j k 0).val = (j 1).val := by
  have hb : (0 : Fin (⟨2, ![N, K]⟩ : Shape).rank) ∉ d.rhsBatch := by rw [h.rb]; exact List.not_mem_nil
  have hn : (0 : Fin (⟨2, ![N, K]⟩ : Shape).rank) ∈ d.rhsNonContracting := by rw [h.rn]; exact List.mem_singleton.mpr rfl
  unfold DotDims.rhsIdx
  rw [dif_neg hb, dif_pos hn]
  simp only [Fin.val_cast]
  exact coord_congr j _ _ _ _ (by simp [h.lb, h.ln, h.rn])

/-- The right operand's column is the contraction position. -/
theorem IsRowsByRows.rhs_col (h : IsRowsByRows d) (j : (⟨2, ![M, N]⟩ : Shape).Idx) (k : d.contr.Idx) :
    (d.rhsIdx j k 1).val = (k ⟨0, by rw [h.rank_contr]; exact Nat.one_pos⟩).val :=
  d.rhsIdx_val_of_single h.rc j k

/-- The sum over the contraction shape's positions, re-indexed by its one coordinate: entry (r, c) of the product
    is the dot product of row r of the left operand with row c of the right operand. -/
theorem IsRowsByRows.sum_contr (h : IsRowsByRows d) {α : Type} [AddCommMonoid α] [Mul α]
    (lhs : (⟨2, ![M, K]⟩ : Shape).Idx → α) (rhs : (⟨2, ![N, K]⟩ : Shape).Idx → α) (r : Fin M) (c : Fin N) :
    ∑ k : d.contr.Idx, lhs (d.lhsIdx (ix2 r c) k) * rhs (d.rhsIdx (ix2 r c) k)
      = ∑ k : Fin K, lhs (ix2 r k) * rhs (ix2 c k) := by
  rw [← Equiv.sum_comp (contrEquiv1 d K h.rank_contr h.size_contr).symm]
  refine Finset.sum_congr rfl fun k _ => ?_
  have hk := contrEquiv1_symm_val d K h.rank_contr h.size_contr k
  have el : d.lhsIdx (ix2 r c) ((contrEquiv1 d K h.rank_contr h.size_contr).symm k) = ix2 r k :=
    funext fun a => Fin.ext (by
      match a with
      | ⟨0, _⟩ => exact h.lhs_row _ _
      | ⟨1, _⟩ => exact (h.lhs_col _ _).trans hk)
  have er : d.rhsIdx (ix2 r c) ((contrEquiv1 d K h.rank_contr h.size_contr).symm k) = ix2 c k :=
    funext fun a => Fin.ext (by
      match a with
      | ⟨0, _⟩ => exact h.rhs_row _ _
      | ⟨1, _⟩ => exact (h.rhs_col _ _).trans hk)
  rw [el, er]

/-- A kernel's product into the zero accumulator, over the extended reals, at entry (r, c). -/
theorem IsRowsByRows.matmul_zero_apply (h : IsRowsByRows d) {φ₁ φ₂ : FTy} (prec : Option ContractPrecision)
    (lhs : FVec Ideal (⟨2, ![M, K]⟩ : Shape) φ₁) (rhs : FVec Ideal (⟨2, ![N, K]⟩ : Shape) φ₂) (r : Fin M) (c : Fin N) :
    FloatOps.matmul d prec lhs rhs (constant (⟨2, ![M, N]⟩ : Shape) .f32 0x00000000#32) (ix2 r c)
      = ∑ k : Fin K, lhs (ix2 r k) * rhs (ix2 c k) := by
  rw [Ideal.matmul_constant_zero_apply]
  exact h.sum_contr lhs rhs r c

/-- A host dot_general, over the extended reals, at entry (r, c). -/
theorem IsRowsByRows.dotGeneral_apply (h : IsRowsByRows d) {φ₁ φ₂ : FTy} (prec : Option ContractPrecision) (sched : HostSchedule)
    (lhs : FVec Ideal (⟨2, ![M, K]⟩ : Shape) φ₁) (rhs : FVec Ideal (⟨2, ![N, K]⟩ : Shape) φ₂) (r : Fin M) (c : Fin N) :
    FloatOps.dotGeneral d prec sched lhs rhs (ix2 r c) = ∑ k : Fin K, lhs (ix2 r k) * rhs (ix2 c k) := by
  rw [Ideal.dotGeneral_apply]
  exact h.sum_contr lhs rhs r c

end Idealize.ShloMosaic.RowsDot

end
-- ==== Proof.KPay.lean ====
/-
  The values the tiled program's body stores, read at one row.

  The body handles a block of 1024 token rows against one tile of 3200 vocabulary rows. Every value it stores is a
  column of 1024 numbers (shape [1024, 1]); read at row p, each is a scalar expression in the logits of row p against
  the tile, z c = ∑ k, x0 (p, k) * x1 (c, k): the running maximum max m (max over c of z c), the rescaled running sum
  exp (m - m') * l + ∑ c, exp (z c - m'), the selected logit's running sum v + ∑ c, (z c if column c of this tile is
  the selected word, else 0), and at the last tile the token's loss from the final state. The steps that are not
  pointwise are a product of two matrices on their last axes, a maximum and two sums along the 3200 lanes, a column
  [1024] viewed as [1024, 1], and a column [1024, 1] repeated along 3200 lanes; each is read at an index first, then
  the stored values follow by pushing the index through the pointwise operations.
-/
import proofs.«411799_j56813827392019_3_alg».proof.Proof.Gen.KernelIdeal.Skeleton
import proofs.«411799_j56813827392019_3_alg».proof.Proof.Spec
import proofs.«411799_j56813827392019_3_alg».proof.Proof.LibRowsDot
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.KPay

open Idealize.ShloMosaic Idealize.ShloMosaic.ValueIdx Cert.KernelIdeal Cert.KernelIdeal.Gen

/-! ## The layout steps at an index -/

/-- A column [a] viewed as [a, 1] reads, at (i, u), the column at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] repeated along b lanes reads, at (p, c), the column at (p, 0). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index of row p with lane c put back is (p, c). -/
theorem lift_ix1 (h : S1024x3200.Reduces [1] S1024) (p : Fin 1024) (c : Fin 3200) : h.lift (ix1 p) c = ix2 p c := by
  funext a
  refine Fin.ext ?_
  match a with
  | ⟨0, _⟩ => rfl
  | ⟨1, _⟩ => rfl

/-- A sum along the 3200 lanes, at row p. -/
theorem laneSum_apply (src : FVec Ideal S1024x3200 .f32) (h : S1024x3200.Reduces [1] S1024) (hφ : FKind.Formats .f32)
    (hacc : (0x00000000#32 : BitVec 32) = FKind.add.neutral .f32 hφ) (p : Fin 1024) :
    multiReduction (F := Ideal) .add [1] S1024 src 0x00000000#32 h hφ hacc (ix1 p) = ∑ c : Fin 3200, src (ix2 p c) := by
  refine (Ideal.multiReduction_add_single src 0x00000000#32 h hφ hacc (ix1 p)).trans ?_
  exact Finset.sum_congr rfl fun c _ => congrArg src (lift_ix1 h p c)

/-- A maximum along the 3200 lanes from -∞, at row p. -/
theorem laneMax_apply (src : FVec Ideal S1024x3200 .f32) (h : S1024x3200.Reduces [1] S1024) (hφ : FKind.Formats .f32)
    (hacc : (0xFF800000#32 : BitVec 32) = FKind.maximumf.neutral .f32 hφ) (p : Fin 1024) :
    multiReduction (F := Ideal) .maximumf [1] S1024 src 0xFF800000#32 h hφ hacc (ix1 p)
      = (Finset.univ : Finset (Fin 3200)).fold max (Ideal.ofBits .f32 0xFF800000#32) (fun c => src (ix2 p c)) := by
  refine (Ideal.multiReduction_maximumf_single src 0xFF800000#32 h hφ hacc (ix1 p)).trans ?_
  exact congrArg (fun f : Fin 3200 → EReal => (Finset.univ : Finset (Fin 3200)).fold max (Ideal.ofBits .f32 0xFF800000#32) f)
    (funext fun c => congrArg src (lift_ix1 h p c))

/-! ## The logits -/

/-- The product's dimension numbers are rows against rows. -/
theorem dot_rows : RowsDot.IsRowsByRows dot_S1024x2048_S3200x2048_S1024x3200_1_1_0_0_n_n :=
  ⟨rfl, rfl, rfl, rfl, rfl, rfl⟩

/-- the 3200 logits of row p of the row block against the tile's 3200 vocabulary rows -/
def zt (x0 : FVec Ideal S1024x2048 .bf16) (x1 : FVec Ideal S3200x2048 .bf16) (p : Fin 1024) : Fin 3200 → EReal :=
  fun c => ∑ k : Fin 2048, x0 (ix2 p k) * x1 (ix2 c k)

theorem pay7_apply (x0 : FVec Ideal S1024x2048 .bf16) (x1 : FVec Ideal S3200x2048 .bf16) (p : Fin 1024) (c : Fin 3200) :
    k0_pay7 (F := Ideal) x0 x1 (ix2 p c) = zt x0 x1 p c := by
  unfold k0_pay7
  rw [shapeCast_self, shapeCast_self]
  exact dot_rows.matmul_zero_apply none x0 x1 p c

/-! ## The first tile's initial state -/

theorem pay4_apply (p : Fin 1024) : (k0_pay4 (F := Ideal)) (ix2 p 0) = Ideal.ofBits .f32 0xFF800000#32 := by
  unfold k0_pay4
  rw [shapeCast_self]
  rfl

theorem pay5_apply (p : Fin 1024) : (k0_pay5 (F := Ideal)) (ix2 p 0) = Ideal.ofBits .f32 0x00000000#32 := by
  unfold k0_pay5
  rw [shapeCast_self]
  rfl

theorem pay6_apply (p : Fin 1024) : (k0_pay6 (F := Ideal)) (ix2 p 0) = Ideal.ofBits .f32 0x00000000#32 := by
  unfold k0_pay6
  rw [shapeCast_self]
  rfl

/-! ## The running maximum -/

/-- The running maximum after the tile, at row p. -/
theorem pay9_apply (x0 : FVec Ideal S1024x2048 .bf16) (x1 : FVec Ideal S3200x2048 .bf16) (v22 : FVec Ideal S1024x1 .f32) (p : Fin 1024) :
    k0_pay9 (F := Ideal) x0 x1 v22 (ix2 p 0) = Grpo.stepM (v22 (ix2 p 0)) (zt x0 x1 p) := by
  unfold k0_pay9
  refine (maximumf_apply _ _ _).trans ?_
  unfold Grpo.stepM Grpo.tileMax
  refine congrArg (max (v22 (ix2 p 0))) ?_
  refine (shapeCast_a_a1_apply _ _ p 0).trans ?_
  refine (laneMax_apply _ _ _ _ p).trans ?_
  exact congrArg (fun f : Fin 3200 → EReal => (Finset.univ : Finset (Fin 3200)).fold max (Ideal.ofBits .f32 0xFF800000#32) f)
    (funext fun c => pay7_apply x0 x1 p c)

theorem pay11_apply (x0 : FVec Ideal S1024x2048 .bf16) (x1 : FVec Ideal S3200x2048 .bf16) (v22 : FVec Ideal S1024x1 .f32) (p : Fin 1024) :
    k0_pay11 (F := Ideal) x0 x1 v22 (ix2 p 0) = Grpo.stepM (v22 (ix2 p 0)) (zt x0 x1 p) := by
  unfold k0_pay11
  rw [shapeCast_self]
  exact pay9_apply x0 x1 v22 p

/-! ## The running sum of exponentials -/

/-- The running sum after the tile, at row p. -/
theorem pay10_apply (x0 : FVec Ideal S1024x2048 .bf16) (x1 : FVec Ideal S3200x2048 .bf16) (v22 v29 : FVec Ideal S1024x1 .f32) (p : Fin 1024) :
    k0_pay10 (F := Ideal) x0 x1 v22 v29 (ix2 p 0) = Grpo.stepL (v22 (ix2 p 0)) (v29 (ix2 p 0)) (zt x0 x1 p) := by
  unfold k0_pay10
  refine (addf_apply _ _ _).trans ?_
  unfold Grpo.stepL
  refine congrArg₂ (fun a b : EReal => a + b) ?_ ?_
  · refine (mulf_apply _ _ _).trans ?_
    refine congrArg (fun a : EReal => a * v29 (ix2 p 0)) ?_
    show Ideal.exp (v22 (ix2 p 0) - k0_pay9 (F := Ideal) x0 x1 v22 (ix2 p 0)) = _
    rw [pay9_apply]
  · refine (shapeCast_a_a1_apply _ _ p 0).trans ?_
    refine (laneSum_apply _ _ _ _ p).trans ?_
    refine Finset.sum_congr rfl fun c _ => ?_
    show Ideal.exp (k0_pay7 (F := Ideal) x0 x1 (ix2 p c)
      - broadcastTo S1024x3200 (k0_pay9 (F := Ideal) x0 x1 v22) broadcasts_S1024x1_S1024x3200 (ix2 p c)) = _
    rw [broadcastTo_a1_ab_apply, pay7_apply, pay9_apply]

theorem pay1_pay10_apply (x0 : FVec Ideal S1024x2048 .bf16) (x1 : FVec Ideal S3200x2048 .bf16) (v22 v29 : FVec Ideal S1024x1 .f32) (p : Fin 1024) :
    k0_pay1 (F := Ideal) (k0_pay10 x0 x1 v22 v29) (ix2 p 0) = Grpo.stepL (v22 (ix2 p 0)) (v29 (ix2 p 0)) (zt x0 x1 p) := by
  unfold k0_pay1
  rw [shapeCast_self]
  exact pay10_apply x0 x1 v22 v29 p

/-! ## The selected logit -/

/-- The tile's contribution to the selected logit, at row p. -/
theorem pay8_apply (i : grid0.Coords) (x0 : FVec Ideal S1024x2048 .bf16) (x1 : FVec Ideal S3200x2048 .bf16) (x2 : IVec S1024x1 32)
    (p : Fin 1024) :
    k0_pay8 (F := Ideal) i x0 x1 x2 (ix2 p 0) = Grpo.selSum (x2 (ix2 p 0)) (i 1).val (zt x0 x1 p) := by
  unfold k0_pay8
  refine (shapeCast_a_a1_apply _ _ p 0).trans ?_
  refine (laneSum_apply _ _ _ _ p).trans ?_
  unfold Grpo.selSum
  refine Finset.sum_congr rfl fun c _ => ?_
  refine (select_apply _ _ _ _).trans ?_
  refine congrArg₂ (fun (b : BitVec 1) (a : EReal) => Scalar.select b a (Ideal.ofBits .f32 0x00000000#32)) ?_ (pay7_apply x0 x1 p c)
  unfold Grpo.hit
  show IntOp.cmpi .eq
      (broadcastTo S1024x3200 (shapeCast S1024x1 x2 shapeCasts_S1024x1_S1024x1) broadcasts_S1024x1_S1024x3200 (ix2 p c))
      (IntOp.addi (Scalar.muli (BitVec.ofNat 32 (i 1).val) 3200#32) (iota .tc S1024x3200 32 [1] iota_S1024x3200_d1_w32 (ix2 p c))) = _
  rw [broadcastTo_a1_ab_apply, shapeCast_self, iota_single_apply]

theorem pay2_pay8_apply (i : grid0.Coords) (x0 : FVec Ideal S1024x2048 .bf16) (x1 : FVec Ideal S3200x2048 .bf16) (x2 : IVec S1024x1 32)
    (v40 : FVec Ideal S1024x1 .f32) (p : Fin 1024) :
    k0_pay2 (F := Ideal) (k0_pay8 i x0 x1 x2) v40 (ix2 p 0) = v40 (ix2 p 0) + Grpo.selSum (x2 (ix2 p 0)) (i 1).val (zt x0 x1 p) := by
  unfold k0_pay2
  rw [shapeCast_self]
  refine (addf_apply _ _ _).trans ?_
  rw [pay8_apply]

/-! ## The loss at the last tile -/

/-- The token loss with its zero written as the f32 word the program carries. -/
theorem tokenLoss_word (logp old ref adv mask : EReal) :
    Grpo.tokenLoss logp old ref adv mask
      = ((Ideal.ofBits .f32 0x00000000#32 - min (Ideal.exp (logp - old) * adv)
            (min (Ideal.ofBits .f32 0x3F99999A#32) (max (Ideal.ofBits .f32 0x3F4CCCCD#32) (Ideal.exp (logp - old))) * adv))
          + Ideal.ofBits .f32 0x3D23D70A#32
            * ((Ideal.exp (ref - logp) - (ref - logp)) - Ideal.ofBits .f32 0x3F800000#32)) * mask := by
  unfold Grpo.tokenLoss
  rw [Ideal.ofBits_zero_f32]

theorem pay3_apply (v48 v49 v52 v54 v56 v58 v60 : FVec Ideal S1024x1 .f32) (p : Fin 1024) :
    k0_pay3 (F := Ideal) v48 v49 v52 v54 v56 v58 v60 (ix2 p 0)
      = Grpo.tokenLoss (Grpo.logpOfState (v48 (ix2 p 0), v49 (ix2 p 0), v52 (ix2 p 0))) (v54 (ix2 p 0)) (v56 (ix2 p 0)) (v58 (ix2 p 0)) (v60 (ix2 p 0)) := by
  unfold k0_pay3
  rw [shapeCast_self, shapeCast_self, shapeCast_self, shapeCast_self]
  refine Eq.trans ?_ (tokenLoss_word _ _ _ _ _).symm
  rfl

end Cert.KernelIdeal.KPay

end
-- ==== Proof.KBlocks.lean ====
/-
  Each input window's block at a grid point, read at an index of the block, is the staged array read at the
  corresponding row.

  The grid has 2 × 20 points; point t works on row block t / 20 (1024 tokens) and on vocabulary tile t % 20
  (3200 words). The hidden rows and the five per-token columns move with the row block, the vocabulary rows with the
  tile. An element of a block sits in the array at (block number) × (block extent) + (its coordinate in the block) on
  every axis, so the reads below are arithmetic on the two block numbers, which are decided once over the 40 points.
-/
import proofs.«411799_j56813827392019_3_alg».proof.Proof.KDefs

noncomputable section

namespace Cert.KernelIdeal.KVal

open Idealize.ShloMosaic Idealize.ShloMosaic.ValueIdx Idealize.SL.Sem Cert.KernelIdeal Cert.KernelIdeal.Gen

variable (m : (ℓ : Loc nD τ sig) → Buf (Elt Ideal) ℓ)

/-- The block numbers of the seven input windows at point t: the row block t / 20 for the hidden rows and the five
    columns, the tile t % 20 for the vocabulary rows; the second block number is always 0. -/
theorem idx_maps : ∀ t : Fin cfg0.N,
    (win0_0.index t (0 : Fin 2) = t.val / 20 ∧ win0_0.index t (1 : Fin 2) = 0)
    ∧ (win0_1.index t (0 : Fin 2) = t.val % 20 ∧ win0_1.index t (1 : Fin 2) = 0)
    ∧ (win0_2.index t (0 : Fin 2) = t.val / 20 ∧ win0_2.index t (1 : Fin 2) = 0)
    ∧ (win0_3.index t (0 : Fin 2) = t.val / 20 ∧ win0_3.index t (1 : Fin 2) = 0)
    ∧ (win0_4.index t (0 : Fin 2) = t.val / 20 ∧ win0_4.index t (1 : Fin 2) = 0)
    ∧ (win0_5.index t (0 : Fin 2) = t.val / 20 ∧ win0_5.index t (1 : Fin 2) = 0)
    ∧ (win0_6.index t (0 : Fin 2) = t.val / 20 ∧ win0_6.index t (1 : Fin 2) = 0) :=
  (by decide +kernel : ∀ t : Fin grid0.N, _)

/-- The second grid coordinate of point t is the tile number t % 20. -/
theorem coord1_val (t : Fin cfg0.N) : ((grid0.coords t) 1).val = t.val % 20 :=
  (by decide +kernel : ∀ t : Fin grid0.N, ((grid0.coords t) 1).val = t.val % 20) t

/-- Row p, feature k of the hidden block at point t is row (t / 20) · 1024 + p of the hidden rows. -/
theorem iblk0_apply (c : Dev nD) (t : Fin cfg0.N) (p : Fin 1024) (k : Fin 2048) (hρ : t.val / 20 * 1024 + p.val < 2048) :
    (iblk m c 0 t : Vec Ideal S1024x2048 .bf16) (ix2 p k) = hidA m c (ix2 ⟨t.val / 20 * 1024 + p.val, hρ⟩ k) := by
  obtain ⟨⟨e0, e1⟩, -⟩ := idx_maps t
  show V m c main_v1 (((cfg0.win 0).blk t).view.emb (ix2 p k)) = V m c main_v1 (ix2 ⟨t.val / 20 * 1024 + p.val, hρ⟩ k)
  refine congrArg (V m c main_v1) ?_
  funext a; apply Fin.ext
  match a with
  | ⟨0, _⟩ => show win0_0.index t (0 : Fin 2) * 1024 + 1 * p.val = t.val / 20 * 1024 + p.val; omega
  | ⟨1, _⟩ => show win0_0.index t (1 : Fin 2) * 2048 + 1 * k.val = k.val; omega

/-- Word cc, feature k of the vocabulary block at point t is word (t % 20) · 3200 + cc of the vocabulary rows. -/
theorem iblk1_apply (c : Dev nD) (t : Fin cfg0.N) (cc : Fin 3200) (k : Fin 2048) (hv : t.val % 20 * 3200 + cc.val < 64000) :
    (iblk m c 1 t : Vec Ideal S3200x2048 .bf16) (ix2 cc k) = wgtA m c (ix2 ⟨t.val % 20 * 3200 + cc.val, hv⟩ k) := by
  obtain ⟨-, ⟨e0, e1⟩, -⟩ := idx_maps t
  show V m c main_v2 (((cfg0.win 1).blk t).view.emb (ix2 cc k)) = V m c main_v2 (ix2 ⟨t.val % 20 * 3200 + cc.val, hv⟩ k)
  refine congrArg (V m c main_v2) ?_
  funext a; apply Fin.ext
  match a with
  | ⟨0, _⟩ => show win0_1.index t (0 : Fin 2) * 3200 + 1 * cc.val = t.val % 20 * 3200 + cc.val; omega
  | ⟨1, _⟩ => show win0_1.index t (1 : Fin 2) * 2048 + 1 * k.val = k.val; omega

/-- Entry p of the block of selected words at point t is token (t / 20) · 1024 + p's. -/
theorem iblk2_apply (c : Dev nD) (t : Fin cfg0.N) (p : Fin 1024) (hρ : t.val / 20 * 1024 + p.val < 2048) :
    (iblk m c 2 t : Vec Ideal S1024x1 .i32) (ix2 p 0) = idsA m c (ix2 ⟨t.val / 20 * 1024 + p.val, hρ⟩ 0) := by
  obtain ⟨-, -, ⟨e0, e1⟩, -⟩ := idx_maps t
  show V m c main_v4 (((cfg0.win 2).blk t).view.emb (ix2 p 0)) = V m c main_v4 (ix2 ⟨t.val / 20 * 1024 + p.val, hρ⟩ 0)
  refine congrArg (V m c main_v4) ?_
  funext a; apply Fin.ext
  match a with
  | ⟨0, _⟩ => show win0_2.index t (0 : Fin 2) * 1024 + 1 * p.val = t.val / 20 * 1024 + p.val; omega
  | ⟨1, _⟩ => show win0_2.index t (1 : Fin 2) * 1 + 1 * (0 : Fin 1).val = (0 : Fin 1).val; omega

/-- Entry p of the block of old log-probabilities at point t is token (t / 20) · 1024 + p's. -/
theorem iblk3_apply (c : Dev nD) (t : Fin cfg0.N) (p : Fin 1024) (hρ : t.val / 20 * 1024 + p.val < 2048) :
    (iblk m c 3 t : Vec Ideal S1024x1 .f32) (ix2 p 0) = oldA m c (ix2 ⟨t.val / 20 * 1024 + p.val, hρ⟩ 0) := by
  obtain ⟨-, -, -, ⟨e0, e1⟩, -⟩ := idx_maps t
  show V m c main_v5 (((cfg0.win 3).blk t).view.emb (ix2 p 0)) = V m c main_v5 (ix2 ⟨t.val / 20 * 1024 + p.val, hρ⟩ 0)
  refine congrArg (V m c main_v5) ?_
  funext a; apply Fin.ext
  match a with
  | ⟨0, _⟩ => show win0_3.index t (0 : Fin 2) * 1024 + 1 * p.val = t.val / 20 * 1024 + p.val; omega
  | ⟨1, _⟩ => show win0_3.index t (1 : Fin 2) * 1 + 1 * (0 : Fin 1).val = (0 : Fin 1).val; omega

/-- Entry p of the block of reference log-probabilities at point t is token (t / 20) · 1024 + p's. -/
theorem iblk4_apply (c : Dev nD) (t : Fin cfg0.N) (p : Fin 1024) (hρ : t.val / 20 * 1024 + p.val < 2048) :
    (iblk m c 4 t : Vec Ideal S1024x1 .f32) (ix2 p 0) = refA m c (ix2 ⟨t.val / 20 * 1024 + p.val, hρ⟩ 0) := by
  obtain ⟨-, -, -, -, ⟨e0, e1⟩, -⟩ := idx_maps t
  show V m c main_v6 (((cfg0.win 4).blk t).view.emb (ix2 p 0)) = V m c main_v6 (ix2 ⟨t.val / 20 * 1024 + p.val, hρ⟩ 0)
  refine congrArg (V m c main_v6) ?_
  funext a; apply Fin.ext
  match a with
  | ⟨0, _⟩ => show win0_4.index t (0 : Fin 2) * 1024 + 1 * p.val = t.val / 20 * 1024 + p.val; omega
  | ⟨1, _⟩ => show win0_4.index t (1 : Fin 2) * 1 + 1 * (0 : Fin 1).val = (0 : Fin 1).val; omega

/-- Entry p of the block of advantages at point t is token (t / 20) · 1024 + p's. -/
theorem iblk5_apply (c : Dev nD) (t : Fin cfg0.N) (p : Fin 1024) (hρ : t.val / 20 * 1024 + p.val < 2048) :
    (iblk m c 5 t : Vec Ideal S1024x1 .f32) (ix2 p 0) = advA m c (ix2 ⟨t.val / 20 * 1024 + p.val, hρ⟩ 0) := by
  obtain ⟨-, -, -, -, -, ⟨e0, e1⟩, -⟩ := idx_maps t
  show V m c main_v9 (((cfg0.win 5).blk t).view.emb (ix2 p 0)) = V m c main_v9 (ix2 ⟨t.val / 20 * 1024 + p.val, hρ⟩ 0)
  refine congrArg (V m c main_v9) ?_
  funext a; apply Fin.ext
  match a with
  | ⟨0, _⟩ => show win0_5.index t (0 : Fin 2) * 1024 + 1 * p.val = t.val / 20 * 1024 + p.val; omega
  | ⟨1, _⟩ => show win0_5.index t (1 : Fin 2) * 1 + 1 * (0 : Fin 1).val = (0 : Fin 1).val; omega

/-- Entry p of the block of masks at point t is token (t / 20) · 1024 + p's. -/
theorem iblk6_apply (c : Dev nD) (t : Fin cfg0.N) (p : Fin 1024) (hρ : t.val / 20 * 1024 + p.val < 2048) :
    (iblk m c 6 t : Vec Ideal S1024x1 .f32) (ix2 p 0) = mskA m c (ix2 ⟨t.val / 20 * 1024 + p.val, hρ⟩ 0) := by
  obtain ⟨-, -, -, -, -, -, ⟨e0, e1⟩⟩ := idx_maps t
  show V m c main_v10 (((cfg0.win 6).blk t).view.emb (ix2 p 0)) = V m c main_v10 (ix2 ⟨t.val / 20 * 1024 + p.val, hρ⟩ 0)
  refine congrArg (V m c main_v10) ?_
  funext a; apply Fin.ext
  match a with
  | ⟨0, _⟩ => show win0_6.index t (0 : Fin 2) * 1024 + 1 * p.val = t.val / 20 * 1024 + p.val; omega
  | ⟨1, _⟩ => show win0_6.index t (1 : Fin 2) * 1 + 1 * (0 : Fin 1).val = (0 : Fin 1).val; omega

end Cert.KernelIdeal.KVal

end
-- ==== Proof.KInv.lean ====
/-
  What the tiled program's carried buffers and output block hold after each of its 40 grid points.

  The grid walks 2 row blocks of 1024 tokens, and for each row block the 20 tiles of 3200 words of the vocabulary.
  Three buffers are carried from point to point: for each row of the block a running maximum of the logits seen so
  far, a running sum of their exponentials relative to that maximum, and a running sum that picks out the logit of
  the row's selected word. The first point of a row block starts them from (-∞, 0, 0) and folds in tile 0; every
  later point folds its tile into what the point before left; the last point of the row block moreover forms each
  token's loss from the three finished quantities.

  So after point t, at row p, the three buffers are the state of the scan of the logits of token (t / 20) * 1024 + p
  after tile t % 20, and at a row block's last point the output block is that token's loss. Both are shown by
  induction on the point's number: each point's contents are one step of the scan applied to the previous point's,
  and the dot products a point forms are exactly the tile of logits the scan's step consumes.
-/
import proofs.«411799_j56813827392019_3_alg».proof.Proof.KDefs
import proofs.«411799_j56813827392019_3_alg».proof.Proof.KPieces
import proofs.«411799_j56813827392019_3_alg».proof.Proof.KPay
import proofs.«411799_j56813827392019_3_alg».proof.Proof.KBlocks

noncomputable section

open scoped BigOperators

namespace Cert.KernelIdeal.KVal

open Idealize.ShloMosaic Idealize.ShloMosaic.ValueIdx Idealize.SL.Sem Cert.KernelIdeal Cert.KernelIdeal.Gen

variable (m : (ℓ : Loc nD τ sig) → Buf (Elt Ideal) ℓ)

/-! ## Names of literal type for a grid point's input blocks and for what the point before left -/

/-- The block of hidden rows at a grid point. -/
abbrev xb0 (c : Dev nD) (t : Fin cfg0.N) : Vec Ideal S1024x2048 .bf16 := iblk m c 0 t
/-- The tile of vocabulary rows at a grid point. -/
abbrev xb1 (c : Dev nD) (t : Fin cfg0.N) : Vec Ideal S3200x2048 .bf16 := iblk m c 1 t
/-- The block of selected words at a grid point. -/
abbrev xb2 (c : Dev nD) (t : Fin cfg0.N) : Vec Ideal S1024x1 .i32 := iblk m c 2 t
/-- The blocks of old and reference log-probabilities, advantages and masks at a grid point. -/
abbrev xb3 (c : Dev nD) (t : Fin cfg0.N) : Vec Ideal S1024x1 .f32 := iblk m c 3 t
abbrev xb4 (c : Dev nD) (t : Fin cfg0.N) : Vec Ideal S1024x1 .f32 := iblk m c 4 t
abbrev xb5 (c : Dev nD) (t : Fin cfg0.N) : Vec Ideal S1024x1 .f32 := iblk m c 5 t
abbrev xb6 (c : Dev nD) (t : Fin cfg0.N) : Vec Ideal S1024x1 .f32 := iblk m c 6 t

/-- What the grid point before `t` left: the output block, then the running maximum, the running sum of
    exponentials and the running selected logit. -/
abbrev pv (c : Dev nD) (t : Fin cfg0.N) :
    Vec Ideal S1024x1 .f32 × Vec Ideal S1024x1 .f32 × Vec Ideal S1024x1 .f32 × Vec Ideal S1024x1 .f32 :=
  outsAt0 m c (t.val - 1) (Nat.lt_of_le_of_lt (Nat.sub_le _ _) t.isLt)

/-! ## The tile a grid point sees -/

/-- The 3200 dot products row p of the block forms at grid point t are tile t % 20 of the logits of token
    (t / 20) * 1024 + p: both blocks are read off their arrays at that row and at those words, all of them
    inside the vocabulary. -/
theorem zt_eq (c : Dev nD) (t : Fin cfg0.N) (p : Fin 1024) (hρ : t.val / 20 * 1024 + p.val < 2048) :
    KPay.zt (xb0 m c t) (xb1 m c t) p = Grpo.tile (xrow m c ⟨t.val / 20 * 1024 + p.val, hρ⟩) (t.val % 20) := by
  funext cc
  have hv : t.val % 20 * 3200 + cc.val < 64000 := by have := cc.isLt; omega
  show ∑ k : Fin 2048, xb0 m c t (ix2 p k) * xb1 m c t (ix2 cc k)
    = xrow m c ⟨t.val / 20 * 1024 + p.val, hρ⟩ (t.val % 20 * 3200 + cc.val)
  unfold xrow
  rw [dif_pos hv]
  refine Finset.sum_congr rfl fun k _ => ?_
  exact congrArg₂ (· * ·) (iblk0_apply m c t p k hρ) (iblk1_apply m c t cc k hv)

/-! ## One step of the scan, read off each kind of grid point -/

/-- First tile of a row block: the running maximum is the step from -∞. -/
theorem sc0_A (c : Dev nD) (t : Fin cfg0.N) (h0 : t.val % 20 = 0) (h1 : ¬t.val % 20 = 19) (p : Fin 1024) :
    (outsAt0 m c t.val t.isLt).2.1 (ix2 p 0) = Grpo.stepM (Ideal.ofBits .f32 0xFF800000#32) (KPay.zt (xb0 m c t) (xb1 m c t) p) := by
  rw [outsAt0_A m c t h0 h1]; dsimp only
  refine (congrFun (KPieces.sout_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)) (ix2 p 0)).trans ?_
  refine (KPay.pay11_apply (iblk m c 0 t) (iblk m c 1 t) k0_pay4 p).trans ?_
  exact congrArg (fun a => Grpo.stepM a (KPay.zt (xb0 m c t) (xb1 m c t) p)) (KPay.pay4_apply p)

/-- First tile of a row block: the running sum of exponentials is the step from (-∞, 0). -/
theorem sc1_A (c : Dev nD) (t : Fin cfg0.N) (h0 : t.val % 20 = 0) (h1 : ¬t.val % 20 = 19) (p : Fin 1024) :
    (outsAt0 m c t.val t.isLt).2.2.1 (ix2 p 0) = Grpo.stepL (Ideal.ofBits .f32 0xFF800000#32) (Ideal.ofBits .f32 0x00000000#32) (KPay.zt (xb0 m c t) (xb1 m c t) p) := by
  rw [outsAt0_A m c t h0 h1]; dsimp only
  refine (congrFun (KPieces.sout_A_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)) (ix2 p 0)).trans ?_
  refine (KPay.pay1_pay10_apply (iblk m c 0 t) (iblk m c 1 t) k0_pay4 k0_pay5 p).trans ?_
  exact congrArg₂ (fun a b => Grpo.stepL a b (KPay.zt (xb0 m c t) (xb1 m c t) p)) (KPay.pay4_apply p) (KPay.pay5_apply p)

/-- First tile of a row block: the running selected logit is the tile's selected sum added to 0. -/
theorem sc2_A (c : Dev nD) (t : Fin cfg0.N) (h0 : t.val % 20 = 0) (h1 : ¬t.val % 20 = 19) (p : Fin 1024) :
    (outsAt0 m c t.val t.isLt).2.2.2 (ix2 p 0)
      = (Ideal.ofBits .f32 0x00000000#32) + Grpo.selSum (xb2 m c t (ix2 p 0)) ((grid0.coords t) 1).val (KPay.zt (xb0 m c t) (xb1 m c t) p) := by
  rw [outsAt0_A m c t h0 h1]; dsimp only
  refine (congrFun (KPieces.sout_A_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)) (ix2 p 0)).trans ?_
  refine (KPay.pay2_pay8_apply (grid0.coords t) (iblk m c 0 t) (iblk m c 1 t) (iblk m c 2 t) k0_pay6 p).trans ?_
  exact congrArg (fun a => a + Grpo.selSum (xb2 m c t (ix2 p 0)) ((grid0.coords t) 1).val (KPay.zt (xb0 m c t) (xb1 m c t) p)) (KPay.pay6_apply p)

/-- A later tile: the running maximum is the step from what the tile before left. -/
theorem sc0_S (c : Dev nD) (t : Fin cfg0.N) (h0 : ¬t.val % 20 = 0) (p : Fin 1024) :
    (outsAt0 m c t.val t.isLt).2.1 (ix2 p 0) = Grpo.stepM ((pv m c t).2.1 (ix2 p 0)) (KPay.zt (xb0 m c t) (xb1 m c t) p) := by
  by_cases h1 : t.val % 20 = 19
  · rw [outsAt0_C m c t h0 h1]; dsimp only
    refine (congrFun (KPieces.sout_C_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (pv m c t).2.1 (pv m c t).2.2.1 (pv m c t).2.2.2) (ix2 p 0)).trans ?_
    exact KPay.pay11_apply (iblk m c 0 t) (iblk m c 1 t) (pv m c t).2.1 p
  · rw [outsAt0_B m c t h0 h1]; dsimp only
    refine (congrFun (KPieces.sout_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (pv m c t).2.1 (pv m c t).2.2.1 (pv m c t).2.2.2) (ix2 p 0)).trans ?_
    exact KPay.pay11_apply (iblk m c 0 t) (iblk m c 1 t) (pv m c t).2.1 p

/-- A later tile: the running sum of exponentials is the step from what the tile before left. -/
theorem sc1_S (c : Dev nD) (t : Fin cfg0.N) (h0 : ¬t.val % 20 = 0) (p : Fin 1024) :
    (outsAt0 m c t.val t.isLt).2.2.1 (ix2 p 0)
      = Grpo.stepL ((pv m c t).2.1 (ix2 p 0)) ((pv m c t).2.2.1 (ix2 p 0)) (KPay.zt (xb0 m c t) (xb1 m c t) p) := by
  by_cases h1 : t.val % 20 = 19
  · rw [outsAt0_C m c t h0 h1]; dsimp only
    refine (congrFun (KPieces.sout_C_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (pv m c t).2.1 (pv m c t).2.2.1 (pv m c t).2.2.2) (ix2 p 0)).trans ?_
    exact KPay.pay1_pay10_apply (iblk m c 0 t) (iblk m c 1 t) (pv m c t).2.1 (pv m c t).2.2.1 p
  · rw [outsAt0_B m c t h0 h1]; dsimp only
    refine (congrFun (KPieces.sout_B_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (pv m c t).2.1 (pv m c t).2.2.1 (pv m c t).2.2.2) (ix2 p 0)).trans ?_
    exact KPay.pay1_pay10_apply (iblk m c 0 t) (iblk m c 1 t) (pv m c t).2.1 (pv m c t).2.2.1 p

/-- A later tile: the running selected logit is the tile's selected sum added to what the tile before left. -/
theorem sc2_S (c : Dev nD) (t : Fin cfg0.N) (h0 : ¬t.val % 20 = 0) (p : Fin 1024) :
    (outsAt0 m c t.val t.isLt).2.2.2 (ix2 p 0)
      = (pv m c t).2.2.2 (ix2 p 0) + Grpo.selSum (xb2 m c t (ix2 p 0)) ((grid0.coords t) 1).val (KPay.zt (xb0 m c t) (xb1 m c t) p) := by
  by_cases h1 : t.val % 20 = 19
  · rw [outsAt0_C m c t h0 h1]; dsimp only
    refine (congrFun (KPieces.sout_C_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (pv m c t).2.1 (pv m c t).2.2.1 (pv m c t).2.2.2) (ix2 p 0)).trans ?_
    exact KPay.pay2_pay8_apply (grid0.coords t) (iblk m c 0 t) (iblk m c 1 t) (iblk m c 2 t) (pv m c t).2.2.2 p
  · rw [outsAt0_B m c t h0 h1]; dsimp only
    refine (congrFun (KPieces.sout_B_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (pv m c t).2.1 (pv m c t).2.2.1 (pv m c t).2.2.2) (ix2 p 0)).trans ?_
    exact KPay.pay2_pay8_apply (grid0.coords t) (iblk m c 0 t) (iblk m c 1 t) (iblk m c 2 t) (pv m c t).2.2.2 p

/-- The last tile: the output block is the loss formed from the three running quantities as the point leaves them. -/
theorem out_C (c : Dev nD) (t : Fin cfg0.N) (h0 : ¬t.val % 20 = 0) (h1 : t.val % 20 = 19) (p : Fin 1024) :
    (outsAt0 m c t.val t.isLt).1 (ix2 p 0)
      = Grpo.tokenLoss (Grpo.logpOfState ((outsAt0 m c t.val t.isLt).2.1 (ix2 p 0), (outsAt0 m c t.val t.isLt).2.2.1 (ix2 p 0), (outsAt0 m c t.val t.isLt).2.2.2 (ix2 p 0)))
          (xb3 m c t (ix2 p 0)) (xb4 m c t (ix2 p 0)) (xb5 m c t (ix2 p 0)) (xb6 m c t (ix2 p 0)) := by
  rw [outsAt0_C m c t h0 h1]; dsimp only
  refine (congrFun (KPieces.out_C_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (pv m c t).2.1 (pv m c t).2.2.1 (pv m c t).2.2.2) (ix2 p 0)).trans ?_
  rw [KPieces.sout_C_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (pv m c t).2.1 (pv m c t).2.2.1 (pv m c t).2.2.2, KPieces.sout_C_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (pv m c t).2.1 (pv m c t).2.2.1 (pv m c t).2.2.2, KPieces.sout_C_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (pv m c t).2.1 (pv m c t).2.2.1 (pv m c t).2.2.2]
  exact KPay.pay3_apply (k0_pay11 (iblk m c 0 t) (iblk m c 1 t) (pv m c t).2.1) (k0_pay1 (k0_pay10 (iblk m c 0 t) (iblk m c 1 t) (pv m c t).2.1 (pv m c t).2.2.1)) (k0_pay2 (k0_pay8 (grid0.coords t) (iblk m c 0 t) (iblk m c 1 t) (iblk m c 2 t)) (pv m c t).2.2.2) (iblk m c 3 t) (iblk m c 4 t) (iblk m c 5 t) (iblk m c 6 t) p

/-! ## The scan's state, one step at a time -/

/-- The state after tile 0: one step from (-∞, 0, 0). -/
theorem stK_zero (c : Dev nD) (ρ : Fin 2048) :
    stK m c ρ 0 = (Grpo.stepM (Ideal.ofBits .f32 0xFF800000#32) (Grpo.tile (xrow m c ρ) 0),
      Grpo.stepL (Ideal.ofBits .f32 0xFF800000#32) (Ideal.ofBits .f32 0x00000000#32) (Grpo.tile (xrow m c ρ) 0),
      (Ideal.ofBits .f32 0x00000000#32) + Grpo.selSum (idsA m c (ix2 ρ 0)) 0 (Grpo.tile (xrow m c ρ) 0)) := rfl

/-- The state after tile j + 1: one step from the state after tile j. -/
theorem stK_succ (c : Dev nD) (ρ : Fin 2048) (j : ℕ) :
    stK m c ρ (j + 1) = (Grpo.stepM (stK m c ρ j).1 (Grpo.tile (xrow m c ρ) (j + 1)),
      Grpo.stepL (stK m c ρ j).1 (stK m c ρ j).2.1 (Grpo.tile (xrow m c ρ) (j + 1)),
      (stK m c ρ j).2.2 + Grpo.selSum (idsA m c (ix2 ρ 0)) (j + 1) (Grpo.tile (xrow m c ρ) (j + 1))) := rfl

/-! ## The induction over the grid points -/

/-- A row block's first grid point starts the scan: the three buffers hold the state after tile 0. -/
theorem scratch_first (c : Dev nD) (t : Fin cfg0.N) (h0 : t.val % 20 = 0) (p : Fin 1024)
    (hρ : t.val / 20 * 1024 + p.val < 2048) :
    ((outsAt0 m c t.val t.isLt).2.1 (ix2 p 0), (outsAt0 m c t.val t.isLt).2.2.1 (ix2 p 0), (outsAt0 m c t.val t.isLt).2.2.2 (ix2 p 0))
      = stK m c ⟨t.val / 20 * 1024 + p.val, hρ⟩ (t.val % 20) := by
  have h1 : ¬t.val % 20 = 19 := by omega
  have hz : (KPay.zt (xb0 m c t) (xb1 m c t) p) = Grpo.tile (xrow m c ⟨t.val / 20 * 1024 + p.val, hρ⟩) 0 :=
    (zt_eq m c t p hρ).trans (congrArg (Grpo.tile _) h0)
  refine Eq.trans ?_ (congrArg (stK m c ⟨t.val / 20 * 1024 + p.val, hρ⟩) h0.symm)
  refine Eq.trans ?_ (stK_zero m c ⟨t.val / 20 * 1024 + p.val, hρ⟩).symm
  refine congrArg₂ Prod.mk ?_ (congrArg₂ Prod.mk ?_ ?_)
  · exact (sc0_A m c t h0 h1 p).trans (congrArg (Grpo.stepM _) hz)
  · exact (sc1_A m c t h0 h1 p).trans (congrArg (Grpo.stepL _ _) hz)
  · refine (sc2_A m c t h0 h1 p).trans (congrArg (fun a => _ + a) ?_)
    rw [hz, coord1_val t, h0]
    exact congrArg (fun w => Grpo.selSum w 0 _) (iblk2_apply m c t p hρ)

/-- Any other grid point continues the scan: if the point before left the state after tile j, and this point's tile is
    j + 1, the three buffers hold the state after tile j + 1. -/
theorem scratch_next (c : Dev nD) (t : Fin cfg0.N) (h0 : ¬t.val % 20 = 0) (p : Fin 1024)
    (hρ : t.val / 20 * 1024 + p.val < 2048) (j : ℕ) (hj : t.val % 20 = j + 1)
    (hp : ((pv m c t).2.1 (ix2 p 0), (pv m c t).2.2.1 (ix2 p 0), (pv m c t).2.2.2 (ix2 p 0))
      = stK m c ⟨t.val / 20 * 1024 + p.val, hρ⟩ j) :
    ((outsAt0 m c t.val t.isLt).2.1 (ix2 p 0), (outsAt0 m c t.val t.isLt).2.2.1 (ix2 p 0), (outsAt0 m c t.val t.isLt).2.2.2 (ix2 p 0))
      = stK m c ⟨t.val / 20 * 1024 + p.val, hρ⟩ (t.val % 20) := by
  have hz : (KPay.zt (xb0 m c t) (xb1 m c t) p) = Grpo.tile (xrow m c ⟨t.val / 20 * 1024 + p.val, hρ⟩) (j + 1) :=
    (zt_eq m c t p hρ).trans (congrArg (Grpo.tile _) hj)
  have hp0 : (pv m c t).2.1 (ix2 p 0) = (stK m c ⟨t.val / 20 * 1024 + p.val, hρ⟩ j).1 := congrArg Prod.fst hp
  have hp1 : (pv m c t).2.2.1 (ix2 p 0) = (stK m c ⟨t.val / 20 * 1024 + p.val, hρ⟩ j).2.1 := congrArg (fun s => s.2.1) hp
  have hp2 : (pv m c t).2.2.2 (ix2 p 0) = (stK m c ⟨t.val / 20 * 1024 + p.val, hρ⟩ j).2.2 := congrArg (fun s => s.2.2) hp
  refine Eq.trans ?_ (congrArg (stK m c ⟨t.val / 20 * 1024 + p.val, hρ⟩) hj.symm)
  refine Eq.trans ?_ (stK_succ m c ⟨t.val / 20 * 1024 + p.val, hρ⟩ j).symm
  refine congrArg₂ Prod.mk ?_ (congrArg₂ Prod.mk ?_ ?_)
  · exact (sc0_S m c t h0 p).trans (congrArg₂ Grpo.stepM hp0 hz)
  · refine (sc1_S m c t h0 p).trans ?_
    rw [hp0, hp1, hz]
  · refine (sc2_S m c t h0 p).trans ?_
    rw [hp2, hz, coord1_val t, hj]
    exact congrArg (fun w => _ + Grpo.selSum w (j + 1) _) (iblk2_apply m c t p hρ)

/-- After grid point t the three carried buffers hold, at row p, the scan's state of token (t / 20) * 1024 + p after
    tile t % 20: by induction on the point's number. The point before a point that is not the first of its row
    block is in the same row block, one tile earlier. -/
theorem scratch_aux (c : Dev nD) : ∀ (n : ℕ) (t : Fin cfg0.N), t.val = n → ∀ (p : Fin 1024)
    (hρ : t.val / 20 * 1024 + p.val < 2048),
    ((outsAt0 m c t.val t.isLt).2.1 (ix2 p 0), (outsAt0 m c t.val t.isLt).2.2.1 (ix2 p 0), (outsAt0 m c t.val t.isLt).2.2.2 (ix2 p 0))
      = stK m c ⟨t.val / 20 * 1024 + p.val, hρ⟩ (t.val % 20) := by
  intro n
  induction n with
  | zero =>
    intro t ht p hρ
    exact scratch_first m c t (by omega) p hρ
  | succ k ih =>
    intro t ht p hρ
    by_cases h0 : t.val % 20 = 0
    · exact scratch_first m c t h0 p hρ
    · obtain ⟨j, hj⟩ : ∃ j, t.val % 20 = j + 1 := ⟨t.val % 20 - 1, by omega⟩
      have hρ' : (t.val - 1) / 20 * 1024 + p.val < 2048 := by omega
      have hi := ih ⟨t.val - 1, Nat.lt_of_le_of_lt (Nat.sub_le _ _) t.isLt⟩ (by show t.val - 1 = k; omega) p hρ'
      have hρe : (⟨(t.val - 1) / 20 * 1024 + p.val, hρ'⟩ : Fin 2048) = ⟨t.val / 20 * 1024 + p.val, hρ⟩ :=
        Fin.ext (by show (t.val - 1) / 20 * 1024 + p.val = t.val / 20 * 1024 + p.val; omega)
      have hjm : (t.val - 1) % 20 = j := by omega
      refine scratch_next m c t h0 p hρ j hj ?_
      rw [← hρe, ← hjm]
      exact hi

/-- After grid point t the three carried buffers hold, at row p of the block, the scan's state of token
    (t / 20) * 1024 + p after tile t % 20. -/
theorem scratch_eq (c : Dev nD) (t : Fin cfg0.N) (p : Fin 1024) (hρ : t.val / 20 * 1024 + p.val < 2048) :
    ((outsAt0 m c t.val t.isLt).2.1 (ix2 p 0), (outsAt0 m c t.val t.isLt).2.2.1 (ix2 p 0), (outsAt0 m c t.val t.isLt).2.2.2 (ix2 p 0))
      = stK m c ⟨t.val / 20 * 1024 + p.val, hρ⟩ (t.val % 20) :=
  scratch_aux m c t.val t rfl p hρ

/-- At a row block's last tile the output block holds each token's loss: the loss is formed from the three carried
    quantities as this point leaves them, which are the scan's final state. -/
theorem out_eq (c : Dev nD) (t : Fin cfg0.N) (h19 : t.val % 20 = 19) (p : Fin 1024) (hρ : t.val / 20 * 1024 + p.val < 2048) :
    (outsAt0 m c t.val t.isLt).1 (ix2 p 0) = lossK m c ⟨t.val / 20 * 1024 + p.val, hρ⟩ := by
  have h0 : ¬t.val % 20 = 0 := by omega
  have hs : ((outsAt0 m c t.val t.isLt).2.1 (ix2 p 0), (outsAt0 m c t.val t.isLt).2.2.1 (ix2 p 0), (outsAt0 m c t.val t.isLt).2.2.2 (ix2 p 0)) = stK m c ⟨t.val / 20 * 1024 + p.val, hρ⟩ 19 :=
    (scratch_eq m c t p hρ).trans (congrArg (stK m c ⟨t.val / 20 * 1024 + p.val, hρ⟩) h19)
  refine (out_C m c t h0 h19 p).trans ?_
  exact congr (congr (congr (congr (congrArg Grpo.tokenLoss (congrArg Grpo.logpOfState hs)) (iblk3_apply m c t p hρ))
    (iblk4_apply m c t p hρ)) (iblk5_apply m c t p hρ)) (iblk6_apply m c t p hρ)

end Cert.KernelIdeal.KVal

end
-- ==== Proof.KOut.lean ====
/-
  From the output block at each grid point to the whole output column after the run.

  The run visits 2 row blocks of 1024 tokens, each over 20 vocabulary tiles; point t = 20 r + j is tile j of row
  block r. The output block is carried along a row block's tiles and written back only at the last one
  (t % 20 = 19), where it holds the losses of that block's tokens. Row p of the block at point t is row
  (t / 20) * 1024 + p of the column, so the two write-backs (t = 19 and t = 39) are the two halves of the column
  of losses, and together they fill all 2048 rows: the column ends holding every token's loss.
-/
import proofs.«411799_j56813827392019_3_alg».proof.Proof.KDefs
import proofs.«411799_j56813827392019_3_alg».proof.Proof.KInv
import Idealize.ShloMosaic.Lib.Pipeline.Value
import Idealize.ShloMosaic.Lib.ValueIdx

noncomputable section

namespace Cert.KernelIdeal.KVal

open Idealize.ShloMosaic Idealize.ShloMosaic.ValueIdx Idealize.SL.Sem Cert.KernelIdeal Cert.KernelIdeal.Gen

variable (m : (ℓ : Loc nD τ sig) → Buf (Elt Ideal) ℓ)

namespace Out

/-- Every token's loss, laid out as the output column: row ρ holds token ρ's loss. -/
abbrev lossCol (c : Dev nD) : S2048x1.Idx → EReal := fun y => lossK m c ⟨(y 0).val, idx2_lt0 y⟩

/-- Where the output block sits at each grid point: at point t it is row block t / 20 of the one column. -/
theorem blockPlace : ∀ t : Fin cfg0.N, win0_7.index t (0 : Fin 2) = t.val / 20 ∧ win0_7.index t (1 : Fin 2) = 0 :=
  (by decide +kernel : ∀ t : Fin grid0.N, _)

/-- What a row block's last tile writes back is that block of the column of losses: row p of the block
    at point t is row (t / 20) * 1024 + p of the column, and there the block holds that token's loss. -/
theorem writeBack_eq (c : Dev nD) (t : Fin cfg0.N) (hf : (cfg0.win 7).flush t = true) :
    (dats m 0 c).flushed 7 t = ((cfg0.win 7).blk t).view.read (Elt Ideal) (lossCol m c) := by
  have h19 : t.val % 20 = 19 := (flush0_7 t).mp hf
  have hN : cfg0.N = 40 := N_0
  have ht : t.val < 40 := hN ▸ t.isLt
  obtain ⟨e0, _⟩ := blockPlace t
  show (cfg0.win 7).cut (grid0.coords t) ((dats m 0 c).after 7 t) = _
  rw [after0_7]
  funext y
  have hy0 : (y 0).val < 1024 := (y 0).isLt
  have hy1 : (y 1).val < 1 := (y 1).isLt
  show (outsAt0 m c t.val t.isLt).1 (win0_7.xinj (grid0.coords t) y) = lossCol m c (((cfg0.win 7).blk t).view.emb y)
  -- the block's place y is (row (y 0), column 0)
  have hx : win0_7.xinj (grid0.coords t) y = ix2 ⟨(y 0).val, hy0⟩ 0 := by
    funext a; apply Fin.ext
    match a with
    | ⟨0, _⟩ => rfl
    | ⟨1, _⟩ => show (y 1).val = 0; omega
  have hρ : t.val / 20 * 1024 + (y 0).val < 2048 := by omega
  refine (congrArg (outsAt0 m c t.val t.isLt).1 hx).trans ?_
  refine (out_eq m c t h19 ⟨(y 0).val, hy0⟩ hρ).trans ?_
  -- the same token on both sides: block index times block height plus the row inside the block
  show lossK m c _ = lossK m c _
  refine congrArg (lossK m c) (Fin.ext ?_)
  show t.val / 20 * 1024 + (y 0).val = win0_7.index t (0 : Fin 2) * 1024 + 1 * (y 0).val
  rw [e0]; omega

/-- A place of the column lies under point t's block exactly when, on each axis, it lies in the block's range. -/
theorem mem_outBlock (t : Fin cfg0.N) (i : S2048x1.Idx) :
    i ∈ ((cfg0.win 7).blk t).view.set ↔ ∀ a : Fin 2, win0_7.index t a * S1024x1.size a ≤ (i a).val ∧ (i a).val < win0_7.index t a * S1024x1.size a + S1024x1.size a := by
  show i ∈ ((View.whole main_v11).slice (win0_7.rect t)).set ↔ _
  rw [View.set_slice_whole, Rect.mem_set_unit]
  exact Iff.rfl

/-- Every place of the column is written back: row ρ by the last tile of its row block, point 20 * (ρ / 1024) + 19. -/
theorem covered (i : S2048x1.Idx) :
    ∃ t : Fin cfg0.N, (cfg0.win 7).flush t = true ∧ i ∈ ((cfg0.win 7).blk t).view.set := by
  have hN : cfg0.N = 40 := N_0
  have hi0 : (i 0).val < 2048 := (i 0).isLt
  have hi1 : (i 1).val < 1 := (i 1).isLt
  have hlt : 20 * ((i 0).val / 1024) + 19 < cfg0.N := by rw [hN]; omega
  obtain ⟨e0, e1⟩ := blockPlace ⟨20 * ((i 0).val / 1024) + 19, hlt⟩
  have e0' : win0_7.index ⟨20 * ((i 0).val / 1024) + 19, hlt⟩ (0 : Fin 2) = (20 * ((i 0).val / 1024) + 19) / 20 := e0
  refine ⟨⟨20 * ((i 0).val / 1024) + 19, hlt⟩, (flush0_7 _).mpr (show (20 * ((i 0).val / 1024) + 19) % 20 = 19 by omega), ?_⟩
  rw [mem_outBlock]
  intro a
  match a with
  | ⟨0, _⟩ =>
    show win0_7.index ⟨20 * ((i 0).val / 1024) + 19, hlt⟩ (0 : Fin 2) * 1024 ≤ (i 0).val ∧ (i 0).val < win0_7.index ⟨20 * ((i 0).val / 1024) + 19, hlt⟩ (0 : Fin 2) * 1024 + 1024
    rw [e0']; omega
  | ⟨1, _⟩ =>
    show win0_7.index ⟨20 * ((i 0).val / 1024) + 19, hlt⟩ (1 : Fin 2) * 1 ≤ (i 1).val ∧ (i 1).val < win0_7.index ⟨20 * ((i 0).val / 1024) + 19, hlt⟩ (1 : Fin 2) * 1 + 1
    rw [e1]; omega

end Out

/-- the region's output column after the run: every token's loss -/
theorem final (c : Dev nD) :
    ((dats m 0 c).arrAt 7 cfg0.N : S2048x1.Idx → EReal) = fun y => lossK m c ⟨(y 0).val, idx2_lt0 y⟩ :=
  (dats m 0 c).arrAt_eq_of_cover 7 (Out.lossCol m c) (Out.writeBack_eq m c) Out.covered

end Cert.KernelIdeal.KVal

end
-- ==== Proof.KTail.lean ====
/-
  The tiled program after its one region: the region's output column (2048 per-token losses, one column) is read as
  4 sequences of 512 tokens, each sequence's losses are summed and divided by max (1, the sum of its mask), and the
  four quotients are averaged. This is the shared last step applied to the column and the mask argument; the
  program's arguments are left as they were.
-/
import proofs.«411799_j56813827392019_3_alg».proof.Proof.Gen.KernelIdeal.Frame
import proofs.«411799_j56813827392019_3_alg».proof.Proof.Tail
import Idealize.ShloMosaic.Lib.Pipeline.Value
import Idealize.ShloMosaic.Lib.StableHlo.Run
import Idealize.ShloMosaic.Lib.ValueIdx

set_option maxRecDepth 16384

noncomputable section

namespace Cert.KernelIdeal.KVal

open Idealize.ShloMosaic Idealize.ShloMosaic.ValueIdx Idealize.SL.Sem Cert.KernelIdeal Cert.KernelIdeal.Gen

variable (m : (ℓ : Loc nD τ sig) → Buf (Elt Ideal) ℓ)

/-- Where the region ends, the buffer of its output column holds the column as it stands after the last grid point. -/
theorem read_col (c : Dev nD) :
    Pipeline.withArrays (cfgs 0).spec c (V0 m c) (fun w => (dats m 0 c).arrAt w (cfgs 0).N) (Proc.devRef .tc main_v11)
      = (dats m 0 c).arrAt 7 cfg0.N :=
  Pipeline.withArrays_arr spec0 launch0.win.arr_inj c _ _ 7

/-- The mask argument is no array of the region and nothing before the region writes it: it is read as given. -/
theorem read_mask (c : Dev nD) :
    Pipeline.withArrays (cfgs 0).spec c (V0 m c) (fun w => (dats m 0 c).arrAt w (cfgs 0).N) (Proc.devRef .tc main_arg2)
      = m ((c.tc : Thread nD τ).loc main_arg2) :=
  (Pipeline.withArrays_of_ne _ c (V0 m c) _ main_arg2
    (by exact (by decide : ∀ w, Pipeline.arrRef spec0 w ≠ main_arg2))).trans (V_main_arg2 m c)

/-- A column of 2048 entries recast as 4 rows of 512: entry (b, s) of the rows is entry b * 512 + s of the column,
    both being at the same row-major position. -/
theorem reshape_col (X : S2048x1.Idx → EReal) (h : S2048x1.ShapeCasts S4x512) :
    shapeCast S4x512 X h = fun y : Grpo.T4x512.Idx => X (ix2 (Grpo.tok y) 0) := by
  funext y
  refine shapeCast_apply X h y (ix2 (Grpo.tok y) 0) ?_
  rw [Shape.rowMajor_val_two, Shape.rowMajor_val_two]
  show ((y 0).val * 512 + (y 1).val) * 1 + 0 = (y 0).val * 512 + (y 1).val
  omega

/-- The operations after the region, from any column `X` and mask `M` found in the two buffers they read: they are
    the shared last step on the recast column and the mask. The step itself is never opened: only its first argument
    is rewritten. -/
theorem chain_eq (X : S2048x1.Idx → EReal) (M : Grpo.T4x512.Idx → EReal) (c : Dev nD)
    (hX : Pipeline.withArrays (cfgs 0).spec c (V0 m c) (fun w => (dats m 0 c).arrAt w (cfgs 0).N)
      (Proc.devRef .tc main_v11) = X)
    (hM : Pipeline.withArrays (cfgs 0).spec c (V0 m c) (fun w => (dats m 0 c).arrAt w (cfgs 0).N)
      (Proc.devRef .tc main_arg2) = M) :
    Pipeline.afterTail₀ cfgs (dats m) 0 (V0 m) [hostOps1, hostOps1_1, hostOps1_2] c main_v18
      = Grpo.seqMean (fun y : Grpo.T4x512.Idx => X (ix2 (Grpo.tok y) 0)) M := by
  unfold Pipeline.afterTail₀
  simp only [hostOps1, hostOps1_1, hostOps1_2, List.flatten_cons, List.flatten_nil, List.append_nil, List.cons_append,
    List.nil_append]
  show StableHlo.after _ _ (Proc.devRef .tc main_v18) = _
  after_results
  rw [hX, hM]
  exact congrArg (fun x => Grpo.seqMean x M) (reshape_col X shapeCasts_S2048x1_S4x512)

/-- The result buffer after the last operation: the shared last step on the region's output column and the mask. -/
theorem tail_eq (c : Dev nD) :
    Pipeline.afterTail₀ cfgs (dats m) 0 (V0 m) [hostOps1, hostOps1_1, hostOps1_2] c main_v18
      = Grpo.seqMean (fun y : Grpo.T4x512.Idx => ((dats m 0 c).arrAt 7 cfg0.N : S2048x1.Idx → EReal) (ix2 (Grpo.tok y) 0))
          (m ((c.tc : Thread nD τ).loc main_arg2)) :=
  chain_eq m _ _ c (read_col m c) (read_mask m c)

/-- The tiled program's run with its result NAMED: the shared last step applied to the region's output column (as the library computes it from the proof data) and the mask argument; the arguments end unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v18)
          = Grpo.seqMean (fun y : Grpo.T4x512.Idx => ((dats m 0 c).arrAt 7 cfg0.N : S2048x1.Idx → EReal) (ix2 (Grpo.tok y) 0))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v18 (Pipeline.mem_restRefs_of main_v18 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.KVal

end
-- ==== Proof.LibSoftmaxFold.lean ====
/-
  The online softmax over column tiles, on the extended reals.

  A row of real logits `x v` (v < N) is scanned tile by tile. The scan carries a running maximum `m`, a running
  denominator `l` and, for every output column `d`, a running numerator `a d`; a tile multiplies the old sums by
  `exp (m - m')` and adds the tile's own terms `exp (x v - m')`, where `m'` is the new maximum; a column past
  the row's end carries the logit -∞, whose term is `exp (-∞) = 0`.

  The invariant (`Inv`): the maximum is SOME real `M` (that it is the maximum is never used), the denominator is
  `∑ v < n, exp (x v - M)` and the numerators are `∑ v < n, exp (x v - M) * w d v`. The quotient numerator /
  denominator does not depend on `M` (`exp (-M)` cancels): it is the softmax-weighted average `avg`. The same
  average is what a two-pass softmax computes: `∑ v, (exp (x v - M) / ∑ u, exp (x u - M)) * w v`, for any real `M`.
-/
import Idealize.ShloMosaic.PureOps.Ideal

noncomputable section

open scoped BigOperators

namespace SoftmaxFold

open Idealize.ShloMosaic

/-- The shifted denominator over the first `n` columns. -/
def S (x : ℕ → ℝ) (M : ℝ) (n : ℕ) : ℝ := ∑ v ∈ Finset.range n, Real.exp (x v - M)

/-- The shifted numerator over the first `n` columns, against the weights `w`. -/
def A (x w : ℕ → ℝ) (M : ℝ) (n : ℕ) : ℝ := ∑ v ∈ Finset.range n, Real.exp (x v - M) * w v

/-- The softmax-weighted average of `w` over the first `n` columns. -/
def avg (x w : ℕ → ℝ) (n : ℕ) : ℝ :=
  (∑ v ∈ Finset.range n, Real.exp (x v) * w v) / (∑ v ∈ Finset.range n, Real.exp (x v))

/-- What the scan holds after the first `n` columns: a real maximum, and the two sums shifted by it. -/
def Inv {D : Type} (x : ℕ → ℝ) (w : D → ℕ → ℝ) (n : ℕ) (m l : EReal) (a : D → EReal) : Prop :=
  ∃ M : ℝ, m = (M : EReal) ∧ l = ((S x M n : ℝ) : EReal) ∧ ∀ d, a d = ((A x (w d) M n : ℝ) : EReal)

/-- A finite sum of real numbers, coerced, is the sum of the coercions. -/
theorem coe_sum' {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- Over at least one column the shifted denominator is positive. -/
theorem S_pos (x : ℕ → ℝ) (M : ℝ) {n : ℕ} (hn : 0 < n) : 0 < S x M n :=
  Finset.sum_pos (fun _ _ => Real.exp_pos _) (Finset.nonempty_range_iff.mpr hn.ne')

/-- The factor exp (-M) cancels between the shifted numerator and the shifted denominator. -/
theorem A_div_S (x w : ℕ → ℝ) (M : ℝ) (n : ℕ) : A x w M n / S x M n = avg x w n := by
  have hA : A x w M n = (∑ v ∈ Finset.range n, Real.exp (x v) * w v) * Real.exp (-M) := by
    unfold A
    rw [Finset.sum_mul]
    refine Finset.sum_congr rfl (fun v _ => ?_)
    rw [sub_eq_add_neg, Real.exp_add]; ring
  have hS : S x M n = (∑ v ∈ Finset.range n, Real.exp (x v)) * Real.exp (-M) := by
    unfold S
    rw [Finset.sum_mul]
    refine Finset.sum_congr rfl (fun v _ => ?_)
    rw [sub_eq_add_neg, Real.exp_add]
  rw [hA, hS, avg, mul_div_mul_right _ _ (Real.exp_pos _).ne']

/-- Moving the shift from M to M' multiplies a term by exp (M - M'). -/
theorem exp_shift (t M M' : ℝ) : Real.exp (M - M') * Real.exp (t - M) = Real.exp (t - M') := by
  rw [← Real.exp_add]; congr 1; ring

/-- The denominator at a later column, under a new shift: the old denominator rescaled plus the new columns' terms. -/
theorem S_step (x : ℕ → ℝ) (M M' : ℝ) {off e : ℕ} (h : off ≤ e) :
    S x M' e = Real.exp (M - M') * S x M off + ∑ v ∈ Finset.Ico off e, Real.exp (x v - M') := by
  unfold S
  rw [← Finset.sum_range_add_sum_Ico _ h, Finset.mul_sum]
  congr 1
  exact Finset.sum_congr rfl (fun v _ => (exp_shift _ _ _).symm)

/-- The numerator at a later column, under a new shift. -/
theorem A_step (x w : ℕ → ℝ) (M M' : ℝ) {off e : ℕ} (h : off ≤ e) :
    A x w M' e = Real.exp (M - M') * A x w M off + ∑ v ∈ Finset.Ico off e, Real.exp (x v - M') * w v := by
  unfold A
  rw [← Finset.sum_range_add_sum_Ico _ h, Finset.mul_sum]
  congr 1
  refine Finset.sum_congr rfl (fun v _ => ?_)
  rw [← mul_assoc, exp_shift]

/-- A tile of T columns from column off, its columns past N contributing 0, sums the columns from off to the
    tile's end cut at N. -/
theorem sum_tile (f : ℕ → ℝ) (off T N : ℕ) :
    ∑ k ∈ Finset.range T, (if off + k < N then f (off + k) else 0)
      = ∑ v ∈ Finset.Ico off (min (off + T) N), f v := by
  rw [Finset.sum_Ico_eq_sum_range, ← Finset.sum_filter]
  refine Finset.sum_congr ?_ (fun _ _ => rfl)
  ext k
  simp only [Finset.mem_filter, Finset.mem_range]
  omega

/-- The exponential of a difference of two reals. -/
theorem exp_coe_sub (a b : ℝ) : Ideal.exp ((a : EReal) - (b : EReal)) = ((Real.exp (a - b) : ℝ) : EReal) := by
  rw [← EReal.coe_sub, Ideal.exp_coe]

/-- One masked column's term: a real exponential inside the row, 0 past its end. -/
theorem tile_term {T : ℕ} (x : ℕ → ℝ) (N off : ℕ) (z : Fin T → EReal)
    (hz : ∀ c : Fin T, z c = if off + c.val < N then ((x (off + c.val) : ℝ) : EReal) else ⊥) (M' : ℝ) (c : Fin T) :
    Ideal.exp (z c - (M' : EReal))
      = (((if off + c.val < N then Real.exp (x (off + c.val) - M') else 0 : ℝ)) : EReal) := by
  rw [hz c]
  split_ifs with hc
  · exact exp_coe_sub _ _
  · rw [EReal.bot_sub, Ideal.exp_bot, EReal.coe_zero]

/-- The tile's denominator terms sum to a real sum over the tile's columns inside the row. -/
theorem tile_sum_exp {T : ℕ} (x : ℕ → ℝ) (N off : ℕ) (z : Fin T → EReal)
    (hz : ∀ c : Fin T, z c = if off + c.val < N then ((x (off + c.val) : ℝ) : EReal) else ⊥) (M' : ℝ) :
    ∑ c : Fin T, Ideal.exp (z c - (M' : EReal))
      = ((∑ v ∈ Finset.Ico off (min (off + T) N), Real.exp (x v - M') : ℝ) : EReal) := by
  rw [Finset.sum_congr rfl (fun c _ => tile_term x N off z hz M' c), ← coe_sum',
    Fin.sum_univ_eq_sum_range (fun k => if off + k < N then Real.exp (x (off + k) - M') else 0) T,
    sum_tile (fun v => Real.exp (x v - M'))]

/-- The tile's numerator terms, against masked weights, likewise. -/
theorem tile_sum_exp_mul {T : ℕ} (x w' : ℕ → ℝ) (N off : ℕ) (z wz : Fin T → EReal)
    (hz : ∀ c : Fin T, z c = if off + c.val < N then ((x (off + c.val) : ℝ) : EReal) else ⊥)
    (hw : ∀ c : Fin T, wz c = if off + c.val < N then ((w' (off + c.val) : ℝ) : EReal) else 0) (M' : ℝ) :
    ∑ c : Fin T, Ideal.exp (z c - (M' : EReal)) * wz c
      = ((∑ v ∈ Finset.Ico off (min (off + T) N), Real.exp (x v - M') * w' v : ℝ) : EReal) := by
  have hterm : ∀ c : Fin T, Ideal.exp (z c - (M' : EReal)) * wz c
      = (((if off + c.val < N then Real.exp (x (off + c.val) - M') * w' (off + c.val) else 0 : ℝ)) : EReal) := by
    intro c
    rw [tile_term x N off z hz M' c, hw c]
    split_ifs with hc
    · rw [EReal.coe_mul]
    · rw [EReal.coe_zero, mul_zero]
  rw [Finset.sum_congr rfl (fun c _ => hterm c), ← coe_sum',
    Fin.sum_univ_eq_sum_range (fun k => if off + k < N then Real.exp (x (off + k) - M') * w' (off + k) else 0) T,
    sum_tile (fun v => Real.exp (x v - M') * w' v)]

/-- The maximum of a masked tile is never ⊤. -/
theorem tile_max_ne_top {T : ℕ} (x : ℕ → ℝ) (N off : ℕ) (z : Fin T → EReal)
    (hz : ∀ c : Fin T, z c = if off + c.val < N then ((x (off + c.val) : ℝ) : EReal) else ⊥) :
    (Finset.univ : Finset (Fin T)).fold max ⊥ z < ⊤ := by
  rw [Finset.fold_max_lt]
  refine ⟨bot_lt_top, fun c _ => ?_⟩
  rw [hz c]
  split_ifs
  · exact EReal.coe_lt_top _
  · exact bot_lt_top

/-- One tile of `T` columns starting at column `off`, of a row of `N` columns: from the reset state (at `off = 0`)
    or from the invariant at `off`, the updated maximum, denominator and numerators satisfy the invariant at the
    tile's end (cut at `N`). Columns past `N` carry the logit `⊥` and the weight `0`. -/
theorem Inv.step {D : Type} {T : ℕ} (x : ℕ → ℝ) (w : D → ℕ → ℝ) (N off : ℕ) (z : Fin T → EReal) (ww : D → Fin T → EReal)
    (hz : ∀ c : Fin T, z c = if off + c.val < N then ((x (off + c.val) : ℝ) : EReal) else ⊥)
    (hw : ∀ d (c : Fin T), ww d c = if off + c.val < N then ((w d (off + c.val) : ℝ) : EReal) else 0)
    (m l : EReal) (a : D → EReal)
    (h : (m = ⊥ ∧ l = 0 ∧ (∀ d, a d = 0) ∧ off = 0 ∧ 0 < T ∧ 0 < N) ∨ (Inv x w off m l a ∧ off ≤ N)) :
    Inv x w (min (off + T) N) (max m ((Finset.univ : Finset (Fin T)).fold max ⊥ z))
      (Ideal.exp (m - max m ((Finset.univ : Finset (Fin T)).fold max ⊥ z)) * l
        + ∑ c : Fin T, Ideal.exp (z c - max m ((Finset.univ : Finset (Fin T)).fold max ⊥ z)))
      (fun d => Ideal.exp (m - max m ((Finset.univ : Finset (Fin T)).fold max ⊥ z)) * a d
        + ∑ c : Fin T, Ideal.exp (z c - max m ((Finset.univ : Finset (Fin T)).fold max ⊥ z)) * ww d c) := by
  have hrm_top : (Finset.univ : Finset (Fin T)).fold max ⊥ z < ⊤ := tile_max_ne_top x N off z hz
  generalize hrm : (Finset.univ : Finset (Fin T)).fold max ⊥ z = rm at hrm_top ⊢
  rcases h with ⟨hm, hl, ha, hoff, hT, hN⟩ | ⟨⟨M, hm, hl, ha⟩, hoffN⟩
  · -- from the reset state: the new maximum is the tile's, a real since column 0 is inside the row
    subst hoff hm
    have hz0 : ((x 0 : ℝ) : EReal) ≤ rm := by
      rw [← hrm, Finset.le_fold_max]
      refine Or.inr ⟨⟨0, hT⟩, Finset.mem_univ _, ?_⟩
      rw [hz ⟨0, hT⟩, if_pos (by simpa using hN)]
      exact le_of_eq (by simp)
    have hbot : rm ≠ ⊥ := ne_of_gt (lt_of_lt_of_le (EReal.bot_lt_coe _) hz0)
    have hmn : max ⊥ rm = ((rm.toReal : ℝ) : EReal) := by
      rw [max_eq_right bot_le, EReal.coe_toReal hrm_top.ne hbot]
    rw [hmn]
    refine ⟨rm.toReal, rfl, ?_, fun d => ?_⟩
    · rw [EReal.bot_sub, Ideal.exp_bot, hl, mul_zero, zero_add, tile_sum_exp x N 0 z hz, S, Finset.range_eq_Ico]
    · beta_reduce
      rw [EReal.bot_sub, Ideal.exp_bot, ha d, mul_zero, zero_add,
        tile_sum_exp_mul x (w d) N 0 z (ww d) hz (hw d), A, Finset.range_eq_Ico]
  · -- from the invariant: the new maximum is at least the old real one and below ⊤
    subst hm
    have hmn_top : max (M : EReal) rm < ⊤ := max_lt (EReal.coe_lt_top M) hrm_top
    have hmn_bot : max (M : EReal) rm ≠ ⊥ :=
      ne_of_gt (lt_of_lt_of_le (EReal.bot_lt_coe M) (le_max_left _ _))
    have hmn : max (M : EReal) rm = (((max (M : EReal) rm).toReal : ℝ) : EReal) :=
      (EReal.coe_toReal hmn_top.ne hmn_bot).symm
    generalize (max (M : EReal) rm).toReal = M' at hmn
    rw [hmn]
    have he : off ≤ min (off + T) N := le_min (Nat.le_add_right _ _) hoffN
    refine ⟨M', rfl, ?_, fun d => ?_⟩
    · rw [exp_coe_sub, hl, tile_sum_exp x N off z hz, ← EReal.coe_mul, ← EReal.coe_add, S_step x M M' he]
    · beta_reduce
      rw [exp_coe_sub, ha d, tile_sum_exp_mul x (w d) N off z (ww d) hz (hw d), ← EReal.coe_mul, ← EReal.coe_add,
        A_step x (w d) M M' he]

/-- After at least one column the quotient numerator / denominator is the softmax-weighted average. -/
theorem Inv.div_eq {D : Type} {x : ℕ → ℝ} {w : D → ℕ → ℝ} {n : ℕ} {m l : EReal} {a : D → EReal}
    (h : Inv x w n m l a) (hn : 0 < n) (d : D) : Ideal.div (a d) l = ((avg x (w d) n : ℝ) : EReal) := by
  obtain ⟨M, _, hl, ha⟩ := h
  rw [ha d, hl, Ideal.div_coe (S_pos x M hn).ne', ← EReal.coe_mul, ← A_div_S x (w d) M n, mul_one_div]

/-- A maximum over real entries, from `⊥`, of a nonempty row is a real. -/
theorem fold_max_real {N : ℕ} (hN : 0 < N) (x : Fin N → ℝ) :
    ∃ M : ℝ, (Finset.univ : Finset (Fin N)).fold max (⊥ : EReal) (fun v => ((x v : ℝ) : EReal)) = (M : EReal) := by
  have htop : (Finset.univ : Finset (Fin N)).fold max (⊥ : EReal) (fun v => ((x v : ℝ) : EReal)) < ⊤ := by
    rw [Finset.fold_max_lt]
    exact ⟨bot_lt_top, fun v _ => EReal.coe_lt_top _⟩
  have hge : ((x ⟨0, hN⟩ : ℝ) : EReal)
      ≤ (Finset.univ : Finset (Fin N)).fold max (⊥ : EReal) (fun v => ((x v : ℝ) : EReal)) := by
    rw [Finset.le_fold_max]
    exact Or.inr ⟨⟨0, hN⟩, Finset.mem_univ _, le_refl _⟩
  have hbot := ne_of_gt (lt_of_lt_of_le (EReal.bot_lt_coe _) hge)
  exact ⟨_, (EReal.coe_toReal htop.ne hbot).symm⟩

/-- The two-pass softmax against weights: for ANY real shift `M`, the normalized terms times the weights sum to the
    softmax-weighted average (`x'`, `w'` the row and the weights as functions on `Fin N`). -/
theorem twopass_eq {N : ℕ} (hN : 0 < N) (x w : ℕ → ℝ) (M : ℝ) :
    ∑ v : Fin N, Ideal.div (Ideal.exp (((x v.val : ℝ) : EReal) - (M : EReal)))
        (0 + ∑ u : Fin N, Ideal.exp (((x u.val : ℝ) : EReal) - (M : EReal))) * ((w v.val : ℝ) : EReal)
      = ((avg x w N : ℝ) : EReal) := by
  have hS : (0 : EReal) + ∑ u : Fin N, Ideal.exp (((x u.val : ℝ) : EReal) - (M : EReal))
      = ((S x M N : ℝ) : EReal) := by
    rw [zero_add, S, ← Fin.sum_univ_eq_sum_range (fun v => Real.exp (x v - M)) N, coe_sum']
    exact Finset.sum_congr rfl (fun u _ => exp_coe_sub _ _)
  have hpos := S_pos x M hN
  have hterm : ∀ v : Fin N,
      Ideal.div (Ideal.exp (((x v.val : ℝ) : EReal) - (M : EReal))) ((S x M N : ℝ) : EReal) * ((w v.val : ℝ) : EReal)
        = ((Real.exp (x v.val - M) * w v.val / S x M N : ℝ) : EReal) := by
    intro v
    rw [exp_coe_sub, Ideal.div_coe hpos.ne', ← EReal.coe_mul, ← EReal.coe_mul]
    congr 1; ring
  rw [hS, Finset.sum_congr rfl (fun v _ => hterm v), ← coe_sum',
    Fin.sum_univ_eq_sum_range (fun v => Real.exp (x v - M) * w v / S x M N) N, ← Finset.sum_div,
    ← A_div_S x w M N, A]

/-- A finite sum of real numbers, coerced, is the sum of the coercions. -/
theorem coe_sum {ι : Type} (s : Finset ι) (f : ι → ℝ) : ((∑ i ∈ s, f i : ℝ) : EReal) = ∑ i ∈ s, ((f i : ℝ) : EReal) := by
  exact coe_sum' s f

end SoftmaxFold

end
-- ==== Proof.Math.lean ====
/-
  The tiled scan and the two-pass formula give the same log-probability.

  For a row x of 64000 real logits and a selected word s below 64000, both programs compute
  x s - log (sum over v of exp (x v)). The tiled scan reaches it as  x s - (M + log (sum of exp (x v - M)))  for
  the real M its running maximum ends at; the two-pass formula as  (x s - M') - log (sum of exp (x v - M'))  for the
  row's maximum M'. For every real M,  M + log (sum of exp (x v - M)) = log (sum of exp (x v)), the sum being positive.
-/
import Idealize.ShloMosaic.PureOps.Ideal
import Mathlib.Analysis.SpecialFunctions.Log.Basic
import proofs.«411799_j56813827392019_3_alg».proof.Proof.Spec
import proofs.«411799_j56813827392019_3_alg».proof.Proof.LibSoftmaxFold

noncomputable section

open scoped BigOperators

namespace Grpo

open Idealize.ShloMosaic

/-! ### The two literal words -/

/-- The word of -∞ denotes the bottom element. -/
theorem negInf_word : Ideal.ofBits .f32 0xFF800000#32 = (⊥ : EReal) := by
  simp [Ideal.ofBits, Ideal.ieee]

/-- The word of +0 denotes zero. -/
theorem zero_word : Ideal.ofBits .f32 0x00000000#32 = (0 : EReal) := by
  simp [Ideal.ofBits, Ideal.ieee]

/-! ### Column arithmetic -/

/-- Every column of the 20 tiles lies inside the row. -/
theorem col_lt_row (j c : ℕ) (hj : j ≤ 19) (hc : c < 3200) : j * 3200 + c < 64000 := by omega

/-- A column of tile j lies before the tile's end. -/
theorem col_lt_end (j c : ℕ) (hc : c < 3200) : j * 3200 + c < (j + 1) * 3200 := by omega

/-- A column before a tile's start lies before the tile's end. -/
theorem lt_end_succ (k v : ℕ) (hv : v < k * 3200) : v < (k + 1) * 3200 := by omega

/-- A tile's start inside the row. -/
theorem end_le_row (k : ℕ) (hk : k ≤ 19) : k * 3200 ≤ 64000 := by omega

/-- A tile's end, cut at the row's end. -/
theorem min_end (k : ℕ) (hk : k ≤ 19) : min (k * 3200 + 3200) 64000 = (k + 1) * 3200 := by omega

/-- The first tile holds a word exactly when the word lies before the tile's end. -/
theorem sel_first (n : ℕ) : (0 * 3200 ≤ n ∧ n < (0 + 1) * 3200) ↔ n < (0 + 1) * 3200 := by omega

/-- A word before a tile's start is not in the tile. -/
theorem sel_before (k n : ℕ) (h : n < k * 3200) : ¬ (k * 3200 ≤ n ∧ n < (k + 1) * 3200) := by omega

/-- A word not before a tile's start is in the tile exactly when it lies before the tile's end. -/
theorem sel_after (k n : ℕ) (h : ¬ n < k * 3200) :
    (k * 3200 ≤ n ∧ n < (k + 1) * 3200) ↔ n < (k + 1) * 3200 := by omega

/-- The column of tile j that holds word n, when the tile holds it. -/
theorem col_of_word (j n c : ℕ) (h : j * 3200 ≤ n) : n = j * 3200 + c ↔ c = n - j * 3200 := by omega

/-- That column is one of the tile's 3200. -/
theorem col_of_word_lt (j n : ℕ) (h : j * 3200 ≤ n ∧ n < (j + 1) * 3200) : n - j * 3200 < 3200 := by omega

/-- A word outside tile j is at none of the tile's columns. -/
theorem word_not_in_tile (j n c : ℕ) (hc : c < 3200) (h : ¬ (j * 3200 ≤ n ∧ n < (j + 1) * 3200)) :
    ¬ n = j * 3200 + c := by omega

/-- With j ≤ 19 and c < 3200 the 32-bit product and sum do not wrap. -/
theorem no_wrap (j c : ℕ) (hj : j ≤ 19) (hc : c < 3200) :
    (j % 4294967296 * 3200 % 4294967296 + c % 4294967296) % 4294967296 = j * 3200 + c := by omega

/-! ### The running maximum and the running sum of exponentials -/

/-- A tile of a real row, as the masked tile of a row of 64000 columns (no column of the 20 tiles is masked). -/
theorem tile_real (x : ℕ → ℝ) (j : ℕ) (hj : j ≤ 19) (c : Fin 3200) :
    tile (fun v => ((x v : ℝ) : EReal)) j c
      = if j * 3200 + c.val < 64000 then ((x (j * 3200 + c.val) : ℝ) : EReal) else ⊥ := by
  rw [if_pos (col_lt_row j c.val hj c.isLt)]
  rfl

/-- After tile j the running maximum is some real M and the running sum is the sum of exp (x v - M) over the
    columns scanned so far. -/
theorem st_inv (x : ℕ → ℝ) (w : BitVec 32) (j : ℕ) (hj : j ≤ 19) :
    ∃ M : ℝ, (st (fun v => ((x v : ℝ) : EReal)) w j).1 = (M : EReal)
      ∧ (st (fun v => ((x v : ℝ) : EReal)) w j).2.1 = ((SoftmaxFold.S x M ((j + 1) * 3200) : ℝ) : EReal) := by
  induction j with
  | zero =>
    have h := SoftmaxFold.Inv.step (D := Empty) (T := 3200) x (fun d _ => d.elim) 64000 (0 * 3200)
      (tile (fun v => ((x v : ℝ) : EReal)) 0) (fun d _ => d.elim) (tile_real x 0 hj) (fun d => d.elim)
      ⊥ 0 (fun d => d.elim)
      (Or.inl ⟨rfl, rfl, fun d => d.elim, by norm_num, by norm_num, by norm_num⟩)
    obtain ⟨M, hm, hl, -⟩ := h
    have hmin : min (0 * 3200 + 3200) 64000 = (0 + 1) * 3200 := by norm_num
    rw [hmin] at hl
    refine ⟨M, ?_, ?_⟩
    · show stepM _ _ = _
      unfold stepM tileMax
      rw [negInf_word]
      exact hm
    · show stepL _ _ _ = _
      unfold stepL stepM tileMax
      rw [negInf_word, zero_word]
      exact hl
  | succ j ih =>
    obtain ⟨M, hm, hl⟩ := ih (Nat.le_of_succ_le hj)
    have h := SoftmaxFold.Inv.step (D := Empty) (T := 3200) x (fun d _ => d.elim) 64000 ((j + 1) * 3200)
      (tile (fun v => ((x v : ℝ) : EReal)) (j + 1)) (fun d _ => d.elim) (tile_real x (j + 1) hj) (fun d => d.elim)
      (st (fun v => ((x v : ℝ) : EReal)) w j).1 (st (fun v => ((x v : ℝ) : EReal)) w j).2.1 (fun d => d.elim)
      (Or.inr ⟨⟨M, hm, hl, fun d => d.elim⟩, end_le_row (j + 1) hj⟩)
    obtain ⟨M', hm', hl', -⟩ := h
    rw [min_end (j + 1) hj] at hl'
    refine ⟨M', ?_, ?_⟩
    · show stepM _ _ = _
      unfold stepM tileMax
      rw [negInf_word]
      exact hm'
    · show stepL _ _ _ = _
      unfold stepL stepM tileMax
      rw [negInf_word]
      exact hl'

/-! ### The running selected logit -/

/-- The 32-bit comparison of the selected word with column c of tile j is the comparison of the numbers: with
    j ≤ 19 and c < 3200 the product and the sum stay below 2^32. -/
theorem hit_iff (w : BitVec 32) (j : ℕ) (hj : j ≤ 19) (c : Fin 3200) :
    hit w j c = 1#1 ↔ w.toNat = j * 3200 + c.val := by
  have hval : (IntOp.addi (Scalar.muli (BitVec.ofNat 32 j) 3200#32) (BitVec.ofNat 32 c.val)).toNat
      = j * 3200 + c.val := by
    simp only [IntOp.addi, Scalar.muli, IntOp.muli, BitVec.toNat_add, BitVec.toNat_mul, BitVec.toNat_ofNat]
    exact no_wrap j c.val hj c.isLt
  unfold hit IntOp.cmpi
  rw [← hval]
  generalize (IntOp.addi (Scalar.muli (BitVec.ofNat 32 j) 3200#32) (BitVec.ofNat 32 c.val)) = b
  rw [BitVec.toNat_inj]
  by_cases h : w = b
  · subst h; simp
  · have h' : (w == b) = false := by simpa using h
    simp [h', h]

/-- One tile contributes the selected logit when the selected word lies in it, and 0 otherwise. -/
theorem selSum_tile (x : ℕ → EReal) (w : BitVec 32) (j : ℕ) (hj : j ≤ 19) :
    selSum w j (tile x j)
      = if j * 3200 ≤ w.toNat ∧ w.toNat < (j + 1) * 3200 then x w.toNat else 0 := by
  unfold selSum
  have hterm : ∀ c : Fin 3200, Scalar.select (hit w j c) (tile x j c) (Ideal.ofBits .f32 0x00000000#32)
      = if w.toNat = j * 3200 + c.val then x w.toNat else 0 := by
    intro c
    have e : hit w j c = 1 ↔ w.toNat = j * 3200 + c.val := hit_iff w j hj c
    unfold Scalar.select
    rw [zero_word]
    by_cases h : w.toNat = j * 3200 + c.val
    · rw [if_pos (e.mpr h), if_pos h, h]; rfl
    · rw [if_neg (fun h' => h (e.mp h')), if_neg h]
  rw [Finset.sum_congr rfl (fun c _ => hterm c)]
  by_cases hin : j * 3200 ≤ w.toNat ∧ w.toNat < (j + 1) * 3200
  · rw [if_pos hin]
    have hc0 : w.toNat - j * 3200 < 3200 := col_of_word_lt j w.toNat hin
    have hcond : ∀ c : Fin 3200, (w.toNat = j * 3200 + c.val) ↔ (c = ⟨w.toNat - j * 3200, hc0⟩) := by
      intro c
      rw [Fin.ext_iff]
      exact col_of_word j w.toNat c.val hin.1
    rw [Finset.sum_congr rfl (fun c _ => if_congr (hcond c) rfl rfl), Finset.sum_ite_eq' Finset.univ]
    rw [if_pos (Finset.mem_univ _)]
  · rw [if_neg hin]
    refine Finset.sum_eq_zero (fun c _ => ?_)
    rw [if_neg (word_not_in_tile j w.toNat c.val c.isLt hin)]

/-- After tile j the running selected logit is the selected logit once its tile has been scanned, 0 before. -/
theorem st_sel (x : ℕ → EReal) (w : BitVec 32) (j : ℕ) (hj : j ≤ 19) :
    (st x w j).2.2 = if w.toNat < (j + 1) * 3200 then x w.toNat else 0 := by
  induction j with
  | zero =>
    show Ideal.ofBits .f32 0x00000000#32 + selSum w 0 (tile x 0) = _
    rw [zero_word, zero_add, selSum_tile x w 0 hj]
    exact if_congr (sel_first w.toNat) rfl rfl
  | succ j ih =>
    show (st x w j).2.2 + selSum w (j + 1) (tile x (j + 1)) = _
    rw [ih (Nat.le_of_succ_le hj), selSum_tile x w (j + 1) hj]
    by_cases h1 : w.toNat < (j + 1) * 3200
    · rw [if_pos h1, if_neg (sel_before (j + 1) w.toNat h1), add_zero, if_pos (lt_end_succ (j + 1) w.toNat h1)]
    · rw [if_neg h1, zero_add]
      exact if_congr (sel_after (j + 1) w.toNat h1) rfl rfl

/-! ### The shift cancels -/

/-- For every real M, M + log (sum of exp (x v - M)) is log (sum of exp (x v)), over at least one column. -/
theorem shift_log (x : ℕ → ℝ) (M : ℝ) {n : ℕ} (hn : 0 < n) :
    M + Real.log (SoftmaxFold.S x M n) = Real.log (∑ v ∈ Finset.range n, Real.exp (x v)) := by
  have hS : SoftmaxFold.S x M n = (∑ v ∈ Finset.range n, Real.exp (x v)) * Real.exp (-M) := by
    unfold SoftmaxFold.S
    rw [Finset.sum_mul]
    refine Finset.sum_congr rfl (fun v _ => ?_)
    rw [sub_eq_add_neg, Real.exp_add]
  have hpos : 0 < ∑ v ∈ Finset.range n, Real.exp (x v) :=
    Finset.sum_pos (fun _ _ => Real.exp_pos _) (Finset.nonempty_range_iff.mpr hn.ne')
  rw [hS, Real.log_mul hpos.ne' (Real.exp_pos _).ne', Real.log_exp]
  ring

/-! ### The two log-probabilities -/

/-- The tiled scan's log-probability of a real row. -/
theorem logpOfState_real (x : ℕ → ℝ) (w : BitVec 32) (hw : w.toNat < 64000) :
    logpOfState (st (fun v => ((x v : ℝ) : EReal)) w 19)
      = ((x w.toNat - Real.log (∑ v ∈ Finset.range 64000, Real.exp (x v)) : ℝ) : EReal) := by
  obtain ⟨M, hm, hl⟩ := st_inv x w 19 le_rfl
  have hsel := st_sel (fun v => ((x v : ℝ) : EReal)) w 19 le_rfl
  rw [if_pos (show w.toNat < (19 + 1) * 3200 from hw)] at hsel
  have hpos : 0 < SoftmaxFold.S x M 64000 := SoftmaxFold.S_pos x M (by norm_num)
  have h64 : (19 + 1) * 3200 = 64000 := by norm_num
  rw [h64] at hl
  unfold logpOfState
  rw [hsel, hm, hl, Ideal.log_coe, if_neg (not_le.mpr hpos), ← EReal.coe_add, ← EReal.coe_sub,
    shift_log x M (by norm_num)]

/-- The two-pass log-probability of a real row. -/
theorem refLogp_real (x : ℕ → ℝ) (s : Fin 64000) :
    refLogp (fun v : Fin 64000 => ((x v.val : ℝ) : EReal)) s
      = ((x s.val - Real.log (∑ v ∈ Finset.range 64000, Real.exp (x v)) : ℝ) : EReal) := by
  obtain ⟨M, hM⟩ := SoftmaxFold.fold_max_real (N := 64000) (by norm_num) (fun v => x v.val)
  have hS : (0 : EReal) + ∑ u : Fin 64000, Ideal.exp (((x u.val : ℝ) : EReal) - (M : EReal))
      = ((SoftmaxFold.S x M 64000 : ℝ) : EReal) := by
    rw [zero_add, SoftmaxFold.S, ← Fin.sum_univ_eq_sum_range (fun v => Real.exp (x v - M)) 64000,
      SoftmaxFold.coe_sum']
    exact Finset.sum_congr rfl (fun u _ => SoftmaxFold.exp_coe_sub _ _)
  have hpos : 0 < SoftmaxFold.S x M 64000 := SoftmaxFold.S_pos x M (by norm_num)
  unfold refLogp
  rw [negInf_word, zero_word, hM, max_eq_right bot_le, hS, Ideal.log_coe, if_neg (not_le.mpr hpos),
    ← EReal.coe_sub, ← EReal.coe_sub, ← shift_log x M (by norm_num : 0 < 64000)]
  exact congrArg (fun r : ℝ => (r : EReal)) (by ring)

/-- On a row of real logits the tiled scan and the two-pass formula agree. -/
theorem logp_eq (x : ℕ → ℝ) (w : BitVec 32) (hw : w.toNat < 64000) :
    logpOfState (st (fun v => ((x v : ℝ) : EReal)) w 19)
      = refLogp (fun v : Fin 64000 => ((x v.val : ℝ) : EReal)) ⟨w.toNat, hw⟩ := by
  rw [logpOfState_real x w hw, refLogp_real x ⟨w.toNat, hw⟩]

/-! ### Rows of finite extended reals -/

/-- The state after the first tile. -/
theorem st_zero (x : ℕ → EReal) (w : BitVec 32) :
    st x w 0 = (stepM (Ideal.ofBits .f32 0xFF800000#32) (tile x 0),
      stepL (Ideal.ofBits .f32 0xFF800000#32) (Ideal.ofBits .f32 0x00000000#32) (tile x 0),
      Ideal.ofBits .f32 0x00000000#32 + selSum w 0 (tile x 0)) := rfl

/-- The state after a later tile. -/
theorem st_succ (x : ℕ → EReal) (w : BitVec 32) (j : ℕ) :
    st x w (j + 1) = (stepM (st x w j).1 (tile x (j + 1)),
      stepL (st x w j).1 (st x w j).2.1 (tile x (j + 1)),
      (st x w j).2.2 + selSum w (j + 1) (tile x (j + 1))) := rfl

/-- The state after tile j reads the row only below the tile's end. -/
theorem st_congr (x y : ℕ → EReal) (w : BitVec 32) (j : ℕ) (h : ∀ v, v < (j + 1) * 3200 → x v = y v) :
    st x w j = st y w j := by
  induction j with
  | zero =>
    have ht : tile x 0 = tile y 0 := funext (fun c => h _ (col_lt_end 0 c.val c.isLt))
    rw [st_zero, st_zero, ht]
  | succ j ih =>
    have ht : tile x (j + 1) = tile y (j + 1) := funext (fun c => h _ (col_lt_end (j + 1) c.val c.isLt))
    have hprev : st x w j = st y w j := ih (fun v hv => h v (lt_end_succ (j + 1) v hv))
    rw [st_succ, st_succ, ht, hprev]

/-- On a row whose 64000 logits are finite the tiled scan and the two-pass formula agree. -/
theorem logp_eq_of_finite (x : ℕ → EReal) (hx : ∀ v, v < 64000 → x v ≠ ⊤ ∧ x v ≠ ⊥) (w : BitVec 32)
    (hw : w.toNat < 64000) :
    logpOfState (st x w 19) = refLogp (fun v : Fin 64000 => x v.val) ⟨w.toNat, hw⟩ := by
  have hreal : ∀ v, v < 64000 → x v = (((x v).toReal : ℝ) : EReal) :=
    fun v hv => (EReal.coe_toReal (hx v hv).1 (hx v hv).2).symm
  have hst : st x w 19 = st (fun v => (((x v).toReal : ℝ) : EReal)) w 19 :=
    st_congr x _ w 19 (fun v hv => hreal v hv)
  have hrow : (fun v : Fin 64000 => x v.val) = (fun v : Fin 64000 => (((x v.val).toReal : ℝ) : EReal)) :=
    funext (fun v => hreal v.val v.isLt)
  rw [hst, hrow]
  exact logp_eq (fun v => (x v).toReal) w hw

end Grpo

end
-- ==== Proof.Join.lean ====
/-
  Each token's loss is the same number in the two programs.

  For token (b, s): the tiled program scans the 64000 logits of the token's row in 20 tiles and forms the loss from
  the final state of the scan; the reference forms it from the two-pass log-probability of the selected word. The
  logits are the same dot products on both sides (the tiled program's operands are the reshaped, format-changed
  arguments, and a change of format is the identity on the extended reals); they are finite because the inputs are;
  the selected word, in range, is untouched by the tiled program's clamp. The two log-probabilities then agree by
  the scan's invariant, and the rest of the loss is the same formula of the same numbers.
-/
import proofs.«411799_j56813827392019_3_alg».proof.Proof.KDefs
import proofs.«411799_j56813827392019_3_alg».proof.Proof.KHost
import proofs.«411799_j56813827392019_3_alg».proof.Proof.KOut
import proofs.«411799_j56813827392019_3_alg».proof.Proof.KTail
import proofs.«411799_j56813827392019_3_alg».proof.Proof.Math
import proofs.«411799_j56813827392019_3_alg».proof.Proof.Tail

noncomputable section

open scoped BigOperators

namespace Cert.KernelIdeal.KVal

open Idealize.ShloMosaic Idealize.ShloMosaic.ValueIdx Idealize.SL.Sem Cert.KernelIdeal Cert.KernelIdeal.Gen
open Idealize.ShloMosaic.TcCoe

variable (m : (ℓ : Loc nD τ sig) → Buf (Elt Ideal) ℓ)

/-- The program's seven argument arrays, by their literal types. -/
abbrev a0 (c : Dev nD) : Vec Ideal S4x512x2048 .f32 := m ((c : Thread nD τ).loc main_arg0)
abbrev a1 (c : Dev nD) : Vec Ideal S64000x2048 .f32 := m ((c : Thread nD τ).loc main_arg1)
abbrev a2 (c : Dev nD) : Vec Ideal S4x512 .f32 := m ((c : Thread nD τ).loc main_arg2)
abbrev a3 (c : Dev nD) : Vec Ideal S4 .f32 := m ((c : Thread nD τ).loc main_arg3)
abbrev a4 (c : Dev nD) : Vec Ideal S4x512 .f32 := m ((c : Thread nD τ).loc main_arg4)
abbrev a5 (c : Dev nD) : Vec Ideal S4x512 .f32 := m ((c : Thread nD τ).loc main_arg5)
abbrev a6 (c : Dev nD) : Vec Ideal S4x512 .i32 := m ((c : Thread nD τ).loc main_arg6)

/-- A 32-bit word whose signed value is a number n below 64000 is left alone by the clamp into [0, 63999], and its
    unsigned value is n too. -/
theorem clamp_in_range (x : BitVec 32) (n : ℕ) (hn : n < 64000) (hx : x.toInt = (n : ℤ)) :
    IntOp.minsi 63999#32 (IntOp.maxsi 0#32 x) = x ∧ x.toNat = n := by
  have h0 : ¬ x.slt 0#32 = true := by
    rw [BitVec.slt_iff_toInt_lt]
    have : (0#32 : BitVec 32).toInt = 0 := by decide
    omega
  have h1 : ¬ (63999#32 : BitVec 32).slt x = true := by
    rw [BitVec.slt_iff_toInt_lt]
    have : (63999#32 : BitVec 32).toInt = 63999 := by decide
    omega
  refine ⟨?_, ?_⟩
  · unfold IntOp.minsi IntOp.maxsi
    rw [if_neg h0, if_neg h1]
  · have hlt := x.isLt
    rw [BitVec.toInt_eq_toNat_cond] at hx
    split at hx <;> omega

/-- A dot product of finite extended reals is finite. -/
theorem dot_finite {K : ℕ} (a b : Fin K → EReal) (ha : ∀ k, a k ≠ ⊤ ∧ a k ≠ ⊥) (hb : ∀ k, b k ≠ ⊤ ∧ b k ≠ ⊥) :
    (∑ k, a k * b k) ≠ ⊤ ∧ (∑ k, a k * b k) ≠ ⊥ := by
  have h : ∑ k, a k * b k = ((∑ k, (a k).toReal * (b k).toReal : ℝ) : EReal) := by
    rw [SoftmaxFold.coe_sum']
    refine Finset.sum_congr rfl (fun k _ => ?_)
    rw [EReal.coe_mul, EReal.coe_toReal (ha k).1 (ha k).2, EReal.coe_toReal (hb k).1 (hb k).2]
  rw [h]
  exact ⟨EReal.coe_ne_top _, EReal.coe_ne_bot _⟩

/-- Token (b, s)'s index pair in the 4 × 512 layout. -/
theorem ix2_coords (y : Grpo.T4x512.Idx) : ix2 (⟨(y 0).val, idx2_lt0 y⟩ : Fin 4) (⟨(y 1).val, idx2_lt1 y⟩ : Fin 512) = y := by
  funext a
  match a with
  | ⟨0, _⟩ => rfl
  | ⟨1, _⟩ => rfl

/-- THE TOKEN'S LOSS in the tiled program is the reference's formula of the argument arrays: the two-pass
    log-probability of the selected word over the row's logits, then the clipped-ratio loss with its penalty. -/
theorem lossK_eq (c : Dev nD)
    (h0 : ∀ i, a0 m c i ≠ ⊤ ∧ a0 m c i ≠ ⊥)
    (h1 : ∀ i, a1 m c i ≠ ⊤ ∧ a1 m c i ≠ ⊥)
    (sel : Grpo.T4x512.Idx → Fin 64000)
    (hsel : ∀ y : Grpo.T4x512.Idx, (a6 m c y).toInt = ((sel y).val : ℤ))
    (y : Grpo.T4x512.Idx) :
    lossK m c (Grpo.tok y)
      = Grpo.tokenLoss
          (Grpo.refLogp (fun v : Fin 64000 => ∑ k : Fin 2048,
              a0 m c (ix3 ⟨(y 0).val, idx2_lt0 y⟩ ⟨(y 1).val, idx2_lt1 y⟩ k)
                * a1 m c (ix2 v k)) (sel y))
          (a4 m c y)
          (a5 m c y)
          (a3 m c (ix1 ⟨(y 0).val, idx2_lt0 y⟩))
          (a2 m c y) := by
  have hbs : (⟨(y 0).val, idx2_lt0 y⟩ : Fin 4).val * 512 + (⟨(y 1).val, idx2_lt1 y⟩ : Fin 512).val < 2048 := (Grpo.tok y).isLt
  have htok : Grpo.tok y = ⟨(⟨(y 0).val, idx2_lt0 y⟩ : Fin 4).val * 512 + (⟨(y 1).val, idx2_lt1 y⟩ : Fin 512).val, hbs⟩ := rfl
  have hy := ix2_coords y
  -- the row's logits, finite
  have hx : ∀ v, v < 64000 → xrow m c (Grpo.tok y) v ≠ ⊤ ∧ xrow m c (Grpo.tok y) v ≠ ⊥ := by
    intro v hv
    unfold xrow
    rw [dif_pos hv]
    refine dot_finite _ _ (fun k => ?_) (fun k => ?_)
    · rw [htok, hidA_apply m c _ _ k hbs]; exact h0 _
    · rw [wgtA_apply m c]; exact h1 _
  -- the selected word, untouched by the clamp
  have hs : (a6 m c (ix2 ⟨(y 0).val, idx2_lt0 y⟩ ⟨(y 1).val, idx2_lt1 y⟩)).toInt = ((sel y).val : ℤ) := by rw [hy]; exact hsel y
  obtain ⟨hcl, hnat⟩ := clamp_in_range (a6 m c (ix2 ⟨(y 0).val, idx2_lt0 y⟩ ⟨(y 1).val, idx2_lt1 y⟩)) (sel y).val (sel y).isLt hs
  have hwe : (idsA m c (ix2 (Grpo.tok y) 0)).toNat = (sel y).val := by
    rw [htok, idsA_apply m c _ _ hbs]
    show (IntOp.minsi 63999#32 (IntOp.maxsi 0#32 (a6 m c (ix2 ⟨(y 0).val, idx2_lt0 y⟩ ⟨(y 1).val, idx2_lt1 y⟩)))).toNat = _
    rw [hcl, hnat]
  have hw : (idsA m c (ix2 (Grpo.tok y) 0)).toNat < 64000 := by rw [hwe]; exact (sel y).isLt
  have hsel' : (⟨(idsA m c (ix2 (Grpo.tok y) 0)).toNat, hw⟩ : Fin 64000) = sel y := by
    exact Fin.ext hwe
  -- the row as the reference spells it
  have hrow : (fun v : Fin 64000 => xrow m c (Grpo.tok y) v.val)
      = fun v : Fin 64000 => ∑ k : Fin 2048,
          a0 m c (ix3 ⟨(y 0).val, idx2_lt0 y⟩ ⟨(y 1).val, idx2_lt1 y⟩ k)
            * a1 m c (ix2 v k) := by
    funext v
    unfold xrow
    rw [dif_pos v.isLt]
    refine Finset.sum_congr rfl (fun k _ => ?_)
    rw [htok, hidA_apply m c _ _ k hbs, wgtA_apply m c]
  unfold lossK stK
  rw [Grpo.logp_eq_of_finite (xrow m c (Grpo.tok y)) hx _ hw, hsel', hrow]
  rw [htok, oldA_apply m c _ _ hbs, refA_apply m c _ _ hbs, advA_apply m c _ _ hbs, mskA_apply m c _ _ hbs, hy]

/-- The tiled program's run with its result as the shared last step of the reference's per-token formula. -/
theorem run_value (ρ : Dev nD → PrngReg)
    (h0 : ∀ (c : Dev nD) i, a0 m c i ≠ ⊤ ∧ a0 m c i ≠ ⊥)
    (h1 : ∀ (c : Dev nD) i, a1 m c i ≠ ⊤ ∧ a1 m c i ≠ ⊥)
    (sel : Dev nD → Grpo.T4x512.Idx → Fin 64000)
    (hsel : ∀ (c : Dev nD) (y : Grpo.T4x512.Idx), (a6 m c y).toInt = ((sel c y).val : ℤ)) :
    θ_run defs (onTc (τ := τ) (main (F := Ideal))) ⟨m, fun _ => 0, ρ⟩ (fun r => ∀ c : Dev nD,
      r.2.mem ((c.tc : Thread nD τ).loc main_v18)
          = Grpo.seqMean (fun y : Grpo.T4x512.Idx =>
              Grpo.tokenLoss
                (Grpo.refLogp (fun v : Fin 64000 => ∑ k : Fin 2048,
                    a0 m c (ix3 ⟨(y 0).val, idx2_lt0 y⟩ ⟨(y 1).val, idx2_lt1 y⟩ k)
                      * a1 m c (ix2 v k)) (sel c y))
                (a4 m c y)
                (a5 m c y)
                (a3 m c (ix1 ⟨(y 0).val, idx2_lt0 y⟩))
                (a2 m c y))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ⟨(h c).1.trans ?_, (h c).2⟩) (run m ρ)
  refine congrArg (fun x => Grpo.seqMean x _) (funext fun y => ?_)
  rw [final m c]
  exact lossK_eq m c (h0 c) (h1 c) (sel c) (hsel c) y

end Cert.KernelIdeal.KVal

end
-- ==== Proof.lean ====
/-
  The tiled program against the plain one: a fused "linear layer + log-softmax + selected word + clipped-ratio loss".

  Both programs map a batch of 4 sequences of 512 tokens (hidden states of 2048 features, a vocabulary of 64000
  words) to one number: per token the log-probability of its selected word under softmax of the logits
  (hidden · weightᵀ), from it the clipped-ratio loss with a KL penalty against a reference policy, weighted by the
  token's mask; per sequence the sum of these over max (1, the mask's sum); and the mean of the four.

  The plain program materialises the logits, takes a two-pass log-softmax and gathers the selected word. The tiled
  program never holds a row of logits: for each block of 1024 tokens it scans the vocabulary in 20 tiles of 3200 words
  and carries, per token, the running maximum, the running sum of exponentials rescaled to it, and the running sum
  that picks out the selected word's logit; at the last tile it forms the token's loss. Over the extended reals with
  finite inputs every logit is a real, the scan's invariant gives max + log (sum) = log Σ exp (logit) whatever the
  running maximum was, and the picked-out sum is the selected logit exactly — when the selected word is a word of the
  vocabulary (0 ≤ id < 64000), which is the domain on which the plain program's gather is defined and on which the
  tiled program's clamp of the ids does nothing. The steps after the per-token loss are the same operations in both.

  Modules: Spec (the per-token mathematics and the scan's state), Tail (the shared last step), Math (the scan's
  invariant and the two log-probabilities), KPieces / KPay / KBlocks / KHost / KInv / KOut / KTail (what the tiled
  program's region and host operations leave, read off its frame run), RefValue with LibTakeAlongAxis3 (what the
  plain program computes), PreFacts (what the precondition says), Join (one token's loss is one number).
-/
import proofs.«411799_j56813827392019_3_alg».proof.Defs
import proofs.«411799_j56813827392019_3_alg».proof.Proof.Gen.Kernel
import proofs.«411799_j56813827392019_3_alg».proof.Proof.Gen.Kernel.Skeleton
import proofs.«411799_j56813827392019_3_alg».proof.Proof.Gen.Kernel.Launch
import proofs.«411799_j56813827392019_3_alg».proof.Proof.Gen.Kernel.Points
import proofs.«411799_j56813827392019_3_alg».proof.Proof.Gen.Kernel.Frame
import proofs.«411799_j56813827392019_3_alg».proof.Proof.Gen.KernelIdeal
import proofs.«411799_j56813827392019_3_alg».proof.Proof.Gen.KernelIdeal.Skeleton
import proofs.«411799_j56813827392019_3_alg».proof.Proof.Gen.KernelIdeal.Launch
import proofs.«411799_j56813827392019_3_alg».proof.Proof.Gen.KernelIdeal.Points
import proofs.«411799_j56813827392019_3_alg».proof.Proof.Gen.KernelIdeal.Frame
import proofs.«411799_j56813827392019_3_alg».proof.Proof.Gen.ReferenceIdeal
import proofs.«411799_j56813827392019_3_alg».proof.Proof.Gen.Pre_finite_inputs
import proofs.«411799_j56813827392019_3_alg».proof.Proof.RefRun
import proofs.«411799_j56813827392019_3_alg».proof.Proof.RefValue
import proofs.«411799_j56813827392019_3_alg».proof.Proof.PreFacts
import proofs.«411799_j56813827392019_3_alg».proof.Proof.Join
import Idealize.ShloMosaic.Adequacy
import Idealize.ShloMosaic.Init

noncomputable section

namespace Cert.Proof

open Idealize.ShloMosaic Idealize.SL.Sem

/-- The word-level tiled program runs and leaves its arguments alone. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The plain program runs and leaves its arguments alone: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments, finite and with every selected word in the vocabulary, both programs
    end with the shared last step applied to the same per-token losses. -/
theorem algebraic : Cert.algebraic_KernelIdeal_ReferenceIdeal := by
  intro m ρ m' ρ' hpre hagree
  have hP := fun c => Cert.PreFacts.of_pre _ _ _ _ _ _ _ (hpre c)
  -- the selected word of each token as a number below 64000
  have hex : ∀ (c : Dev Cert.KernelIdeal.nD) (y : Grpo.T4x512.Idx), ∃ s : Fin 64000,
      (Cert.KernelIdeal.KVal.a6 m c y).toInt = ((s.val : ℕ) : ℤ) := by
    intro c y
    have hr : 0 ≤ (Cert.KernelIdeal.KVal.a6 m c y).toInt ∧ (Cert.KernelIdeal.KVal.a6 m c y).toInt < 64000 :=
      (hP c).2.2.2.2.2.2 y
    obtain ⟨hge, hlt⟩ := hr
    refine ⟨⟨(Cert.KernelIdeal.KVal.a6 m c y).toInt.toNat, ?_⟩, ?_⟩
    · omega
    · show _ = (((Cert.KernelIdeal.KVal.a6 m c y).toInt.toNat : ℕ) : ℤ)
      omega
  choose sel hsel using hex
  refine ⟨_, Cert.KernelIdeal.KVal.run_value m ρ (fun c => (hP c).1) (fun c => (hP c).2.1) sel hsel, ?_⟩
  refine (θ_run Cert.ReferenceIdeal.defs _ _).mono (fun _ h c => ⟨(h c).1.trans ?_, (h c).2⟩)
    (Cert.ReferenceIdeal.Value.run (F := Ideal) m' ρ')
  have e0 : Cert.ReferenceIdeal.RefVal.b0 m' c = Cert.KernelIdeal.KVal.a0 m c := (hagree c).1
  have e1 : Cert.ReferenceIdeal.RefVal.b1 m' c = Cert.KernelIdeal.KVal.a1 m c := (hagree c).2.1
  have e2 : Cert.ReferenceIdeal.RefVal.b2 m' c = Cert.KernelIdeal.KVal.a2 m c := (hagree c).2.2.1
  have e3 : Cert.ReferenceIdeal.RefVal.b3 m' c = Cert.KernelIdeal.KVal.a3 m c := (hagree c).2.2.2.1
  have e4 : Cert.ReferenceIdeal.RefVal.b4 m' c = Cert.KernelIdeal.KVal.a4 m c := (hagree c).2.2.2.2.1
  have e5 : Cert.ReferenceIdeal.RefVal.b5 m' c = Cert.KernelIdeal.KVal.a5 m c := (hagree c).2.2.2.2.2.1
  have e6 : Cert.ReferenceIdeal.RefVal.b6 m' c = Cert.KernelIdeal.KVal.a6 m c := (hagree c).2.2.2.2.2.2
  have hsel' : ∀ y : Cert.ReferenceIdeal.S4x512.Idx, (Cert.ReferenceIdeal.RefVal.b6 m' c y).toInt = (((sel c y).val : ℕ) : ℤ) := by
    intro y; rw [e6]; exact hsel c y
  rw [Cert.ReferenceIdeal.RefVal.result_eq m' c (sel c) hsel', e0, e1, e2, e3, e4, e5]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
